-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x256 .f32) (main_arg9 : FVec F S256 .f32) (main_arg10 : FVec F S256x1 .f32) (main_arg11 : FVec F S1 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S512x128 .f32) (main_arg7 : FVec F S128 .f32) (main_arg8 : FVec F S128x256 .f32) (main_arg9 : FVec F S256 .f32) (main_arg10 : FVec F S256x1 .f32) (main_arg11 : FVec F S1 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x400000 32) (main_arg2 : FVec F S128x512 .f32) (main_arg3 : FVec F S512 .f32) (main_arg4 : FVec F S512x128 .f32) (main_arg5 : FVec F S128 .f32) (main_arg6 : FVec F S512x128 .f32) (main_arg7 : FVec F S128 .f32) (main_arg8 : FVec F S128x256 .f32) (main_arg9 : FVec F S256 .f32) (main_arg10 : FVec F S256x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x400000 : Shape := ⟨2, ![2, 400000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S50000 : Shape := ⟨1, ![50000]⟩
abbrev S1x400000 : Shape := ⟨2, ![1, 400000]⟩
abbrev S400000 : Shape := ⟨1, ![400000]⟩
abbrev S500000 : Shape := ⟨1, ![500000]⟩
abbrev S_ : Shape := ⟨0, ![]⟩
abbrev S500000x1 : Shape := ⟨2, ![500000, 1]⟩
abbrev S50000x512 : Shape := ⟨2, ![50000, 512]⟩
abbrev S2000x128 : Shape := ⟨2, ![2000, 128]⟩
abbrev S2000x512 : Shape := ⟨2, ![2000, 512]⟩
abbrev S500000x512 : Shape := ⟨2, ![500000, 512]⟩
abbrev S1x512 : Shape := ⟨2, ![1, 512]⟩
abbrev S500000x128 : Shape := ⟨2, ![500000, 128]⟩
abbrev S1x128 : Shape := ⟨2, ![1, 128]⟩
abbrev S1x256 : Shape := ⟨2, ![1, 256]⟩
abbrev S1x1 : Shape := ⟨2, ![1, 1]⟩
abbrev S50000x1 : Shape := ⟨2, ![50000, 1]⟩
abbrev S2000x1 : Shape := ⟨2, ![2000, 1]⟩
abbrev S2000x256 : Shape := ⟨2, ![2000, 256]⟩

abbrev nBuf : Space → Nat
  | .hbm => 94
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S512x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S50000, .i32⟩
  | .hbm, ⟨13, _⟩ => ⟨S1x400000, .i32⟩
  | .hbm, ⟨14, _⟩ => ⟨S400000, .i32⟩
  | .hbm, ⟨15, _⟩ => ⟨S500000, .i32⟩
  | .hbm, ⟨16, _⟩ => ⟨S1x400000, .i32⟩
  | .hbm, ⟨17, _⟩ => ⟨S400000, .i32⟩
  | .hbm, ⟨18, _⟩ => ⟨S500000, .i32⟩
  | .hbm, ⟨19, _⟩ => ⟨S_, .f32⟩
  | .hbm, ⟨20, _⟩ => ⟨S500000, .f32⟩
  | .hbm, ⟨21, _⟩ => ⟨S_, .f32⟩
  | .hbm, ⟨22, _⟩ => ⟨S50000, .f32⟩
  | .hbm, ⟨23, _⟩ => ⟨S500000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000, .f32⟩
  | .hbm, ⟨42, _⟩ => ⟨S_, .i32⟩
  | .hbm, ⟨43, _⟩ => ⟨S500000, .i32⟩
  | .hbm, ⟨44, _⟩ => ⟨S500000, .i1⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S500000x1, .i32⟩
  | .hbm, ⟨50, _⟩ => ⟨S500000, .f32⟩
  | .hbm, ⟨51, _⟩ => ⟨S500000, .f32⟩
  | .hbm, ⟨52, _⟩ => ⟨S50000x512, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x512, .f32⟩
  | .hbm, ⟨62, _⟩ => ⟨S500000x1, .f32⟩
  | .hbm, ⟨63, _⟩ => ⟨S500000x512, .f32⟩
  | .hbm, ⟨64, _⟩ => ⟨S500000x512, .f32⟩
  | .hbm, ⟨65, _⟩ => ⟨S_, .f32⟩
  | .hbm, ⟨66, _⟩ => ⟨S50000x512, .f32⟩
  | .hbm, ⟨67, _⟩ => ⟨S500000x1, .i32⟩
  | .hbm, ⟨68, _⟩ => ⟨S50000x512, .f32⟩
  | .hbm, ⟨69, _⟩ => ⟨S1x512, .f32⟩
  | .hbm, ⟨70, _⟩ => ⟨S50000x512, .f32⟩
  | .hbm, ⟨71, _⟩ => ⟨S50000x128, .f32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S500000x1, .i32⟩
  | .hbm, ⟨80, _⟩ => ⟨S500000x128, .f32⟩
  | .hbm, ⟨81, _⟩ => ⟨S500000x1, .f32⟩
  | .hbm, ⟨82, _⟩ => ⟨S500000x128, .f32⟩
  | .hbm, ⟨83, _⟩ => ⟨S500000x128, .f32⟩
  | .hbm, ⟨84, _⟩ => ⟨S_, .f32⟩
  | .hbm, ⟨85, _⟩ => ⟨S50000x128, .f32⟩
  | .hbm, ⟨86, _⟩ => ⟨S500000x1, .i32⟩
  | .hbm, ⟨87, _⟩ => ⟨S50000x128, .f32⟩
  | .hbm, ⟨88, _⟩ => ⟨S1x128, .f32⟩
  | .hbm, ⟨89, _⟩ => ⟨S1x128, .f32⟩
  | .hbm, ⟨90, _⟩ => ⟨S1x256, .f32⟩
  | .hbm, ⟨91, _⟩ => ⟨S1x1, .f32⟩
  | .hbm, ⟨92, _⟩ => ⟨S50000x128, .f32⟩
  | .hbm, ⟨93, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S1x512, .f32⟩
  | .local _ .vmem, ⟨8, _⟩ => ⟨S512x128, .f32⟩
  | .local _ .vmem, ⟨9, _⟩ => ⟨S2000x512, .f32⟩
  | .local _ .vmem, ⟨10, _⟩ => ⟨S2000x512, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S2000x512, .f32⟩
  | .local _ .vmem, ⟨17, _⟩ => ⟨S2000x512, .f32⟩
  | .local _ .vmem, ⟨18, _⟩ => ⟨S512x128, .f32⟩
  | .local _ .vmem, ⟨19, _⟩ => ⟨S1x128, .f32⟩
  | .local _ .vmem, ⟨20, _⟩ => ⟨S128x256, .f32⟩
  | .local _ .vmem, ⟨21, _⟩ => ⟨S1x256, .f32⟩
  | .local _ .vmem, ⟨22, _⟩ => ⟨S256x1, .f32⟩
  | .local _ .vmem, ⟨23, _⟩ => ⟨S1x1, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63_0 : Ref sig .tc := ⟨.hbm, 92, rfl⟩
abbrev main_v63_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg9_1 : Ref sig .tc := ⟨.vmem, 25, rfl⟩
abbrev cc2_stg10_0 : Ref sig .tc := ⟨.vmem, 26, rfl⟩
abbrev cc2_stg10_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev cc2_sem10_0 : DmaSem sig := 26
abbrev cc2_sem10_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x400000_S1x400000_0_0 : S2x400000.Slices ![0, 0] S1x400000
  shapeCasts_S1x400000_S400000 : S1x400000.ShapeCasts S400000
  concatenates_S400000_S50000_S50000_S500000_d0 : Shape.Concatenates [S400000, S50000, S50000] S500000 0
  slices_S2x400000_S1x400000_1_0 : S2x400000.Slices ![1, 0] S1x400000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S2000x512_S2000x512_0_0 : ∀ a, (![0, 0] : Fin 2 → Nat) a + S2000x512.size a ≤ S2000x512.size a
  h_S2000x512 : 0 < S2000x512.numel
  bcast_S500000x1_S500000x512_0_1 : S500000x1.BroadcastsInDim S500000x512 (![0, 1] : Fin 2 → Fin S500000x512.rank)
  bcast_S_S50000x512 : S_.BroadcastsInDim S50000x512 (![] : Fin 0 → Fin S50000x512.rank)
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  shapeCasts_S128_S1x128 : S128.ShapeCasts S1x128
  shapeCasts_S256_S1x256 : S256.ShapeCasts S1x256
  shapeCasts_S1_S1x1 : S1.ShapeCasts S1x1
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S2000x128_S128x512_S2000x512_1_0_0_1_n_n_wf : DotDims.WF S2000x128 S128x512 S2000x512 [1] [0] [0] [1] [] []
  gather_S50000x512_S500000x1_S500000x512_1_0_n_n_0_1_1512_wf : GatherDims.WF S50000x512 S500000x1 S500000x512 [1] [0] [] [0] [] 1 ![1, 512]
  scatter_S50000x512_S500000x1_S500000x512_1_0_0_1_wf : ScatterDims.WF S50000x512 S500000x1 S500000x512 [1] [0] [0] 1
  dot_S2000x512_S512x128_S2000x128_1_0_0_1_n_n_wf : DotDims.WF S2000x512 S512x128 S2000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S2000x128_S128x256_S2000x256_1_0_0_1_n_n_wf : DotDims.WF S2000x128 S128x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S50000x512.size a
  hwx1_3 : ∀ i : grid1.Coords, EltTy.bits .f32 = 32 ∨ (Rect.block (s := S50000x512) S2000x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .f32 = 32 ∨ (Rect.block (s := S50000x512) S2000x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .f32 = 32 ∨ (Rect.block (s := S512x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x1.size a ≤ S256x1.size a
  hwx2_7 : ∀ i : grid2.Coords, EltTy.bits .f32 = 32 ∨ (Rect.block (s := S256x1) S256x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x1.size a ≤ S50000x1.size a
  hwx2_10 : ∀ i : grid2.Coords, EltTy.bits .f32 = 32 ∨ (Rect.block (s := S50000x1) S2000x1.size (cc2_transform_10 i) (hinb2_10 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S50000x512_S500000x1_S500000x512_1_0_0_1 : ScatterDims S50000x512 S500000x1 S500000x512 where
  updateWindowDims := [1]
  insertedWindowDims := [0]
  scatterDimsToOperandDims := [0]
  indexVectorDim := 1
  wf := scatter_S50000x512_S500000x1_S500000x512_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_0) S2000x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v45_1) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45_0) S2000x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S512x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S256x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v62) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v63_0) S2000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v63_1) S2000x1.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S50000 : Shape := ⟨1, ![50000]⟩
abbrev S1x400000 : Shape := ⟨2, ![1, 400000]⟩
abbrev S400000 : Shape := ⟨1, ![400000]⟩
abbrev S500000 : Shape := ⟨1, ![500000]⟩
abbrev S_ : Shape := ⟨0, ![]⟩
abbrev S500000x1 : Shape := ⟨2, ![500000, 1]⟩
abbrev S50000x512 : Shape := ⟨2, ![50000, 512]⟩
abbrev S500000x512 : Shape := ⟨2, ![500000, 512]⟩
abbrev S1x512 : Shape := ⟨2, ![1, 512]⟩
abbrev S500000x128 : Shape := ⟨2, ![500000, 128]⟩
abbrev S1x128 : Shape := ⟨2, ![1, 128]⟩
abbrev S50000x256 : Shape := ⟨2, ![50000, 256]⟩
abbrev S1x256 : Shape := ⟨2, ![1, 256]⟩
abbrev S50000x1 : Shape := ⟨2, ![50000, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S512x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S50000, .i32⟩
  | .hbm, ⟨13, _⟩ => ⟨S1x400000, .i32⟩
  | .hbm, ⟨14, _⟩ => ⟨S400000, .i32⟩
  | .hbm, ⟨15, _⟩ => ⟨S500000, .i32⟩
  | .hbm, ⟨16, _⟩ => ⟨S1x400000, .i32⟩
  | .hbm, ⟨17, _⟩ => ⟨S400000, .i32⟩
  | .hbm, ⟨18, _⟩ => ⟨S500000, .i32⟩
  | .hbm, ⟨19, _⟩ => ⟨S_, .f32⟩
  | .hbm, ⟨20, _⟩ => ⟨S500000, .f32⟩
  | .hbm, ⟨21, _⟩ => ⟨S_, .f32⟩
  | .hbm, ⟨22, _⟩ => ⟨S50000, .f32⟩
  | .hbm, ⟨23, _⟩ => ⟨S500000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000, .f32⟩
  | .hbm, ⟨42, _⟩ => ⟨S_, .i32⟩
  | .hbm, ⟨43, _⟩ => ⟨S500000, .i32⟩
  | .hbm, ⟨44, _⟩ => ⟨S500000, .i1⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S500000x1, .i32⟩
  | .hbm, ⟨50, _⟩ => ⟨S500000, .f32⟩
  | .hbm, ⟨51, _⟩ => ⟨S500000, .f32⟩
  | .hbm, ⟨52, _⟩ => ⟨S50000x512, .f32⟩
  | .hbm, ⟨53, _⟩ => ⟨S_, .i32⟩
  | .hbm, ⟨54, _⟩ => ⟨S500000, .i32⟩
  | .hbm, ⟨55, _⟩ => ⟨S500000, .i1⟩
  | .hbm, ⟨56, _⟩ => ⟨S_, .i32⟩
  | .hbm, ⟨57, _⟩ => ⟨S500000, .i32⟩
  | .hbm, ⟨58, _⟩ => ⟨S500000, .i32⟩
  | .hbm, ⟨59, _⟩ => ⟨S500000, .i32⟩
  | .hbm, ⟨60, _⟩ => ⟨S500000x1, .i32⟩
  | .hbm, ⟨61, _⟩ => ⟨S500000x512, .f32⟩
  | .hbm, ⟨62, _⟩ => ⟨S500000x1, .f32⟩
  | .hbm, ⟨63, _⟩ => ⟨S500000x512, .f32⟩
  | .hbm, ⟨64, _⟩ => ⟨S500000x512, .f32⟩
  | .hbm, ⟨65, _⟩ => ⟨S_, .f32⟩
  | .hbm, ⟨66, _⟩ => ⟨S50000x512, .f32⟩
  | .hbm, ⟨67, _⟩ => ⟨S500000x1, .i32⟩
  | .hbm, ⟨68, _⟩ => ⟨S50000x512, .f32⟩
  | .hbm, ⟨69, _⟩ => ⟨S1x512, .f32⟩
  | .hbm, ⟨70, _⟩ => ⟨S50000x512, .f32⟩
  | .hbm, ⟨71, _⟩ => ⟨S50000x512, .f32⟩
  | .hbm, ⟨72, _⟩ => ⟨S_, .f32⟩
  | .hbm, ⟨73, _⟩ => ⟨S50000x512, .f32⟩
  | .hbm, ⟨74, _⟩ => ⟨S50000x512, .f32⟩
  | .hbm, ⟨75, _⟩ => ⟨S50000x128, .f32⟩
  | .hbm, ⟨76, _⟩ => ⟨S_, .i32⟩
  | .hbm, ⟨77, _⟩ => ⟨S500000, .i32⟩
  | .hbm, ⟨78, _⟩ => ⟨S500000, .i1⟩
  | .hbm, ⟨79, _⟩ => ⟨S_, .i32⟩
  | .hbm, ⟨80, _⟩ => ⟨S500000, .i32⟩
  | .hbm, ⟨81, _⟩ => ⟨S500000, .i32⟩
  | .hbm, ⟨82, _⟩ => ⟨S500000, .i32⟩
  | .hbm, ⟨83, _⟩ => ⟨S500000x1, .i32⟩
  | .hbm, ⟨84, _⟩ => ⟨S500000x128, .f32⟩
  | .hbm, ⟨85, _⟩ => ⟨S500000x1, .f32⟩
  | .hbm, ⟨86, _⟩ => ⟨S500000x128, .f32⟩
  | .hbm, ⟨87, _⟩ => ⟨S500000x128, .f32⟩
  | .hbm, ⟨88, _⟩ => ⟨S_, .f32⟩
  | .hbm, ⟨89, _⟩ => ⟨S50000x128, .f32⟩
  | .hbm, ⟨90, _⟩ => ⟨S500000x1, .i32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S50000x256, .f32⟩
  | .hbm, ⟨104, _⟩ => ⟨S1x256, .f32⟩
  | .hbm, ⟨105, _⟩ => ⟨S50000x256, .f32⟩
  | .hbm, ⟨106, _⟩ => ⟨S50000x256, .f32⟩
  | .hbm, ⟨107, _⟩ => ⟨S_, .f32⟩
  | .hbm, ⟨108, _⟩ => ⟨S50000x256, .f32⟩
  | .hbm, ⟨109, _⟩ => ⟨S50000x256, .f32⟩
  | .hbm, ⟨110, _⟩ => ⟨S50000x1, .f32⟩
  | .hbm, ⟨111, _⟩ => ⟨S1x1, .f32⟩
  | .hbm, ⟨112, _⟩ => ⟨S50000x1, .f32⟩
  | .hbm, ⟨113, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call3_cst : Ref sig .tc := ⟨.hbm, 107, rfl⟩
abbrev main_call3_v0 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S50000_S500000_d0 : Shape.Concatenates [S400000, S50000, S50000] S500000 0
  slices_S2x400000_S1x400000_1_0 : S2x400000.Slices ![1, 0] S1x400000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S500000x1_S500000x512_0_1 : S500000x1.BroadcastsInDim S500000x512 (![0, 1] : Fin 2 → Fin S500000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S50000x128_S128x512_S50000x512_1_0_0_1_n_n_wf : DotDims.WF S50000x128 S128x512 S50000x512 [1] [0] [0] [1] [] []
  gather_S50000x512_S500000x1_S500000x512_1_0_n_n_0_1_1512_wf : GatherDims.WF S50000x512 S500000x1 S500000x512 [1] [0] [] [0] [] 1 ![1, 512]
  scatter_S50000x512_S500000x1_S500000x512_1_0_0_1_wf : ScatterDims.WF S50000x512 S500000x1 S500000x512 [1] [0] [0] 1
  dot_S50000x512_S512x128_S50000x128_1_0_0_1_n_n_wf : DotDims.WF S50000x512 S512x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x256_S50000x256_1_0_0_1_n_n_wf : DotDims.WF S50000x128 S128x256 S50000x256 [1] [0] [0] [1] [] []
  dot_S50000x256_S256x1_S50000x1_1_0_0_1_n_n_wf : DotDims.WF S50000x256 S256x1 S50000x1 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def gather_S50000x512_S500000x1_S500000x512_1_0_n_n_0_1_1512 : GatherDims S50000x512 S500000x1 S500000x512 where
  offsetDims := [1]
  collapsedSliceDims := [0]
  operandBatchingDims := []
  startIndicesBatchingDims := []
  startIndexMap := [0]
  indexVectorDim := 1
  sliceSizes := ![1, 512]
  wf := gather_S50000x512_S500000x1_S500000x512_1_0_n_n_0_1_1512_wf
def scatter_S50000x512_S500000x1_S500000x512_1_0_0_1 : ScatterDims S50000x512 S500000x1 S500000x512 where
  updateWindowDims := [1]
  insertedWindowDims := [0]
  scatterDimsToOperandDims := [0]
  indexVectorDim := 1
  wf := scatter_S50000x512_S500000x1_S500000x512_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.Kernel.Project.lean ====
/-
  Region 0 of the kernel program: one grid point multiplies a 2000-row block of the node embeddings by the whole
  first weight matrix, into a zero accumulator, and stores the 2000 x 512 product over the output block.
  Stated at ANY contents `V` of the core's buffers when the region is entered: what the point's staging buffers hold
  after the body (the input blocks as found, the output block at the product of the two), the body's triple, the
  pipeline's proof data with these contents, and the body obligation at every grid point.
-/
import proofs.«151933_j70214125355147_1_alg».proof.Proof.Gen.Kernel.Launch
import proofs.«151933_j70214125355147_1_alg».proof.Proof.Gen.Kernel.Skeleton
import proofs.«151933_j70214125355147_1_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Project

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The three whole-buffer rectangles the body reads and writes through. -/
abbrev rowsRect : Rect S2000x128 := Rect.unit (s := S2000x128) ![0, 0] S2000x128.size inb_S2000x128_S2000x128_0_0
abbrev weightRect : Rect S128x512 := Rect.unit (s := S128x512) ![0, 0] S128x512.size inb_S128x512_S128x512_0_0
abbrev prodRect : Rect S2000x512 := Rect.unit (s := S2000x512) ![0, 0] S2000x512.size inb_S2000x512_S2000x512_0_0

/-- What the output staging buffer holds after the body: its one store, of the product of the rows block and the
    weight matrix, written over the whole buffer. -/
def product (x : Vec F S2000x128 .f32) (w : Vec F S128x512 .f32) : Vec F S2000x512 .f32 :=
  View.canon [⟨prodRect, k0_pay1 (View.ld x rowsRect) (View.ld w weightRect)⟩]

/-- The one store covers the output buffer: its rectangle is the whole buffer. -/
theorem product_covers (p : Vec F S2000x512 .f32) (y : S2000x512.Idx) :
    ∃ pc ∈ ([⟨prodRect, p⟩] : List (View.Piece (Elt F) S2000x512 .f32)), y ∈ pc.1.set :=
  View.cover_of_tiled [⟨prodRect, p⟩] S2000x512.size (by rfl) y

set_option maxHeartbeats 1000000 in
/-- The body on whole staging memrefs: with the two inputs' buffers at `x` and `w` and the output's at anything, it
    runs to its end leaving the inputs as they were and the output at `product x w`. -/
theorem body_triple (c : Dev nD) (E : Set ℕ) (i : grid0.Coords)
    (a1 : Memref sig .tc .vmem S2000x128 .f32) (h1 : a1.IsWhole) (a2 : Memref sig .tc .vmem S128x512 .f32) (h2 : a2.IsWhole)
    (a3 : Memref sig .tc .vmem S2000x512 .f32) (h3 : a3.IsWhole)
    (x : Vec F S2000x128 .f32) (w : Vec F S128x512 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (product x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers _)

/-- The proof data of the region's pipeline on core `c`: the arrays as the region finds them; after the body at point
    `t` each input's buffer still at its block and the output's at the product of the two blocks; the invariant is the
    scoped rest and the generator register, untouched; nothing is owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => product (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_rows (c : Dev nD) (t : Fin cfg0.N) : (dat V c).after 0 t = blockAt V c 0 t := by dsimp only [dat]
theorem after_weight (c : Dev nD) (t : Fin cfg0.N) : (dat V c).after 1 t = blockAt V c 1 t := by dsimp only [dat]
theorem after_product (c : Dev nD) (t : Fin cfg0.N) :
    (dat V c).after 2 t = product (blockAt V c 0 t) (blockAt V c 1 t) := by dsimp only [dat]

/-- An input's staging buffer holds its block at every point, whether the point fetched it or an earlier one did:
    the body leaves it in place and an unfetched window's block index has not moved. -/
theorem before_rows (c : Dev nD) (t : Fin cfg0.N) (d) : (dat V c).before 0 t d = blockAt V c 0 t :=
  ((dat V c).before_in_eq_fetched 0 rfl (fun _ => rfl) (fun _ _ _ => rfl)
      (fun t => by rw [after_rows]; unfold Dat.blockOf blockAt; rw [dat_A]; try rfl) t d).trans
    (by unfold Dat.fetched Dat.blockOf blockAt; rw [dat_A]; try rfl)
theorem before_weight (c : Dev nD) (t : Fin cfg0.N) (d) : (dat V c).before 1 t d = blockAt V c 1 t :=
  ((dat V c).before_in_eq_fetched 1 rfl (fun _ => rfl) (fun _ _ _ => rfl)
      (fun t => by rw [after_weight]; unfold Dat.blockOf blockAt; rw [dat_A]; try rfl) t d).trans
    (by unfold Dat.fetched Dat.blockOf blockAt; rw [dat_A]; try rfl)

/-- The body at any grid point meets the pipeline's obligation: its inputs' buffers hold their blocks, so the triple
    applies; the invariant and what the core owes pass through unread. -/
theorem body_obligation (c : Dev nD) :
    BodyObligation (dat (F := F) V c) (defs₀ (F := F)) Variants.none () Set.univ := fun t => by
  rw [bigSep_W0, bigSep_W0]
  show iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t)))
  simp only [before_rows, before_weight]
  rw [show (dat V c).Φ t.succ = (dat V c).Φ t.castSucc from rfl,
    show (dat V c).owesAt () t.succ = (dat V c).owesAt () t.castSucc from rfl,
    after_rows, after_weight, after_product]
  iintro ⟨HΦ, Ho, ⟨%d0, H0⟩, ⟨%d1, H1⟩, ⟨%d2, H2⟩⟩
  unfold bodyAt0
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Kernel.Project

end
-- ==== Proof.Kernel.Hidden.lean ====
/-
  Region 1 of the kernel program: one grid point takes a 2000-row block of the first aggregation, adds the first
  bias row to every row and clamps at zero (the first hidden layer's block, stored over output block 3), then
  multiplies that block by the whole second weight matrix into a zero accumulator (stored over output block 4).
  Stated at ANY contents `V` of the core's buffers when the region is entered: what the point's staging buffers hold
  after the body, the body's triple, the pipeline's proof data and the body obligation at every grid point.
-/
import proofs.«151933_j70214125355147_1_alg».proof.Proof.Gen.Kernel.Launch
import proofs.«151933_j70214125355147_1_alg».proof.Proof.Gen.Kernel.Skeleton
import proofs.«151933_j70214125355147_1_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hidden

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the array as the region finds it. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole-buffer rectangles the body reads and writes through. -/
abbrev wideRect : Rect S2000x512 := Rect.unit (s := S2000x512) ![0, 0] S2000x512.size inb_S2000x512_S2000x512_0_0
abbrev biasRect : Rect S1x512 := Rect.unit (s := S1x512) ![0, 0] S1x512.size inb_S1x512_S1x512_0_0
abbrev weightRect : Rect S512x128 := Rect.unit (s := S512x128) ![0, 0] S512x128.size inb_S512x128_S512x128_0_0
abbrev narrowRect : Rect S2000x128 := Rect.unit (s := S2000x128) ![0, 0] S2000x128.size inb_S2000x128_S2000x128_0_0

/-- The hidden-layer block: the aggregation block plus the bias row, clamped at zero, over the whole buffer. -/
def hidden (a : Vec F S2000x512 .f32) (b : Vec F S1x512 .f32) : Vec F S2000x512 .f32 :=
  View.canon [⟨wideRect, k1_pay1 (View.ld a wideRect) (View.ld b biasRect)⟩]

/-- The projected block: the hidden-layer block times the second weight matrix, over the whole buffer. -/
def projected (a : Vec F S2000x512 .f32) (b : Vec F S1x512 .f32) (w : Vec F S512x128 .f32) : Vec F S2000x128 .f32 :=
  View.canon [⟨narrowRect, k1_pay2 (View.ld a wideRect) (View.ld b biasRect) (View.ld w weightRect)⟩]

theorem hidden_covers (p : Vec F S2000x512 .f32) (y : S2000x512.Idx) :
    ∃ pc ∈ ([⟨wideRect, p⟩] : List (View.Piece (Elt F) S2000x512 .f32)), y ∈ pc.1.set :=
  View.cover_of_tiled [⟨wideRect, p⟩] S2000x512.size (by rfl) y
theorem projected_covers (p : Vec F S2000x128 .f32) (y : S2000x128.Idx) :
    ∃ pc ∈ ([⟨narrowRect, p⟩] : List (View.Piece (Elt F) S2000x128 .f32)), y ∈ pc.1.set :=
  View.cover_of_tiled [⟨narrowRect, p⟩] S2000x128.size (by rfl) y

set_option maxHeartbeats 1000000 in
/-- The body on whole staging memrefs: with the three inputs' buffers at `a`, `b`, `w` and the two outputs' at
    anything, it runs to its end leaving the inputs as they were and the outputs at `hidden a b` and `projected a b w`. -/
theorem body_triple (c : Dev nD) (E : Set ℕ) (i : grid1.Coords)
    (a1 : Memref sig .tc .vmem S2000x512 .f32) (h1 : a1.IsWhole) (a2 : Memref sig .tc .vmem S1x512 .f32) (h2 : a2.IsWhole)
    (a3 : Memref sig .tc .vmem S512x128 .f32) (h3 : a3.IsWhole) (a4 : Memref sig .tc .vmem S2000x512 .f32) (h4 : a4.IsWhole)
    (a5 : Memref sig .tc .vmem S2000x128 .f32) (h5 : a5.IsWhole)
    (a : Vec F S2000x512 .f32) (b : Vec F S1x512 .f32) (w : Vec F S512x128 .f32) (K : PUnit → sProp 𝕄) :
    iprop(owns (c : Thread nD τ) a1 fullShare a ∗ owns (c : Thread nD τ) a2 fullShare b ∗ owns (c : Thread nD τ) a3 fullShare w
        ∗ (∃ d, owns (c : Thread nD τ) a4 fullShare d) ∗ (∃ d, owns (c : Thread nD τ) a5 fullShare d)
        ∗ (iprop(owns (c : Thread nD τ) a1 fullShare a ∗ owns (c : Thread nD τ) a2 fullShare b ∗ owns (c : Thread nD τ) a3 fullShare w
            ∗ owns (c : Thread nD τ) a4 fullShare (hidden a b) ∗ owns (c : Thread nD τ) a5 fullShare (projected a b w)) -∗ K ⟨⟩))
      ⊢ wp frame (wpE (defs₀ (F := F)) Variants.none c none) E (cc1__stage2_kernel i a1 h1 a2 h2 a3 h3 a4 h4 a5 h5) K := by
  simp only [cc1__stage2_kernel_eq_skeleton]; unfold cc1__stage2_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (hidden_covers _)
  iexists _; isplitr
  swap; · iexact H5
  ipureintro
  exact View.read_writes_eq_canon _ _ _ (projected_covers _)

/-- The proof data of the region's pipeline on core `c`: the arrays as the region finds them; after the body at point
    `t` each input's buffer still at its block and the outputs' at the hidden-layer block and its projection; the
    invariant is the scoped rest and the generator register, untouched; nothing is owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => hidden (blockAt V c 0 t) (blockAt V c 1 t)
    | ⟨4, _⟩ => projected (blockAt V c 0 t) (blockAt V c 1 t) (blockAt V c 2 t)
  Φ _ := Pipeline.ΦA spec1 c
  q _ := fullShare
  owed _ := 0

theorem dat_A (c : Dev nD) (w : Fin cfg1.W) : (dat V c).A w = V c (Pipeline.arrRef spec1 w) := by
  dsimp only [dat]
theorem after_agg (c : Dev nD) (t : Fin cfg1.N) : (dat V c).after 0 t = blockAt V c 0 t := by dsimp only [dat]
theorem after_bias (c : Dev nD) (t : Fin cfg1.N) : (dat V c).after 1 t = blockAt V c 1 t := by dsimp only [dat]
theorem after_weight (c : Dev nD) (t : Fin cfg1.N) : (dat V c).after 2 t = blockAt V c 2 t := by dsimp only [dat]
theorem after_hidden (c : Dev nD) (t : Fin cfg1.N) :
    (dat V c).after 3 t = hidden (blockAt V c 0 t) (blockAt V c 1 t) := by dsimp only [dat]
theorem after_projected (c : Dev nD) (t : Fin cfg1.N) :
    (dat V c).after 4 t = projected (blockAt V c 0 t) (blockAt V c 1 t) (blockAt V c 2 t) := by dsimp only [dat]

/-- An input's staging buffer holds its block at every point, whether the point fetched it or an earlier one did. -/
theorem before_agg (c : Dev nD) (t : Fin cfg1.N) (d) : (dat V c).before 0 t d = blockAt V c 0 t :=
  ((dat V c).before_in_eq_fetched 0 rfl (fun _ => rfl) (fun _ _ _ => rfl)
      (fun t => by rw [after_agg]; unfold Dat.blockOf blockAt; rw [dat_A]; try rfl) t d).trans
    (by unfold Dat.fetched Dat.blockOf blockAt; rw [dat_A]; try rfl)
theorem before_bias (c : Dev nD) (t : Fin cfg1.N) (d) : (dat V c).before 1 t d = blockAt V c 1 t :=
  ((dat V c).before_in_eq_fetched 1 rfl (fun _ => rfl) (fun _ _ _ => rfl)
      (fun t => by rw [after_bias]; unfold Dat.blockOf blockAt; rw [dat_A]; try rfl) t d).trans
    (by unfold Dat.fetched Dat.blockOf blockAt; rw [dat_A]; try rfl)
theorem before_weight (c : Dev nD) (t : Fin cfg1.N) (d) : (dat V c).before 2 t d = blockAt V c 2 t :=
  ((dat V c).before_in_eq_fetched 2 rfl (fun _ => rfl) (fun _ _ _ => rfl)
      (fun t => by rw [after_weight]; unfold Dat.blockOf blockAt; rw [dat_A]; try rfl) t d).trans
    (by unfold Dat.fetched Dat.blockOf blockAt; rw [dat_A]; try rfl)

/-- The body at any grid point meets the pipeline's obligation. -/
theorem body_obligation (c : Dev nD) :
    BodyObligation (dat (F := F) V c) (defs₀ (F := F)) Variants.none () Set.univ := fun t => by
  rw [bigSep_W1, bigSep_W1]
  show iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d)))
    ⊢ wp frame (wpE (defs₀ (F := F)) Variants.none c none) Set.univ (bodyAt1 t) (fun _ =>
      iprop((dat V c).Φ t.succ ∗ (dat V c).owesAt () t.succ
        ∗ owns (c : Thread nD τ) (st1_0 t) fullShare ((dat V c).after 0 t)
        ∗ owns (c : Thread nD τ) (st1_1 t) fullShare ((dat V c).after 1 t)
        ∗ owns (c : Thread nD τ) (st1_2 t) fullShare ((dat V c).after 2 t)
        ∗ owns (c : Thread nD τ) (st1_3 t) fullShare ((dat V c).after 3 t)
        ∗ owns (c : Thread nD τ) (st1_4 t) fullShare ((dat V c).after 4 t)))
  simp only [before_agg, before_bias, before_weight]
  rw [show (dat V c).Φ t.succ = (dat V c).Φ t.castSucc from rfl,
    show (dat V c).owesAt () t.succ = (dat V c).owesAt () t.castSucc from rfl,
    after_agg, after_bias, after_weight, after_hidden, after_projected]
  iintro ⟨HΦ, Ho, ⟨%d0, H0⟩, ⟨%d1, H1⟩, ⟨%d2, H2⟩, ⟨%d3, H3⟩, ⟨%d4, H4⟩⟩
  unfold bodyAt1
  iapply (body_triple c Set.univ _ _ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.Kernel.Hidden

end
-- ==== Proof.Kernel.Head.lean ====
/-
  Region 2 of the kernel program: one grid point takes a 2000-row block of the second aggregation, adds the second
  bias row and clamps at zero; adds to it the residual (the first hidden layer's block times the residual weights,
  plus the residual bias row) — the node features' block, stored over output block 9 —; then multiplies the features
  by the first head matrix, adds its bias row, clamps at zero, multiplies by the second head matrix and adds its
  bias (the score column's block, stored over output block 10).
  Stated at ANY contents `V` of the core's buffers when the region is entered: what the point's staging buffers hold
  after the body, the body's triple, the pipeline's proof data and the body obligation at every grid point.
-/
import proofs.«151933_j70214125355147_1_alg».proof.Proof.Gen.Kernel.Launch
import proofs.«151933_j70214125355147_1_alg».proof.Proof.Gen.Kernel.Skeleton
import proofs.«151933_j70214125355147_1_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Head

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the array as the region finds it. -/
def blockAt (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The whole-buffer rectangles the body reads and writes through. -/
abbrev narrowRect : Rect S2000x128 := Rect.unit (s := S2000x128) ![0, 0] S2000x128.size inb_S2000x128_S2000x128_0_0
abbrev rowRect : Rect S1x128 := Rect.unit (s := S1x128) ![0, 0] S1x128.size inb_S1x128_S1x128_0_0
abbrev wideRect : Rect S2000x512 := Rect.unit (s := S2000x512) ![0, 0] S2000x512.size inb_S2000x512_S2000x512_0_0
abbrev wresRect : Rect S512x128 := Rect.unit (s := S512x128) ![0, 0] S512x128.size inb_S512x128_S512x128_0_0
abbrev wfc1Rect : Rect S128x256 := Rect.unit (s := S128x256) ![0, 0] S128x256.size inb_S128x256_S128x256_0_0
abbrev row256Rect : Rect S1x256 := Rect.unit (s := S1x256) ![0, 0] S1x256.size inb_S1x256_S1x256_0_0
abbrev wfc2Rect : Rect S256x1 := Rect.unit (s := S256x1) ![0, 0] S256x1.size inb_S256x1_S256x1_0_0
abbrev unitRect : Rect S1x1 := Rect.unit (s := S1x1) ![0, 0] S1x1.size inb_S1x1_S1x1_0_0
abbrev colRect : Rect S2000x1 := Rect.unit (s := S2000x1) ![0, 0] S2000x1.size inb_S2000x1_S2000x1_0_0

/-- The node features' block, over the whole buffer. -/
def features (g : Vec F S2000x128 .f32) (b : Vec F S1x128 .f32) (x : Vec F S2000x512 .f32) (wr : Vec F S512x128 .f32) (br : Vec F S1x128 .f32) : Vec F S2000x128 .f32 :=
  View.canon [⟨narrowRect, k2_pay2 (View.ld g narrowRect) (View.ld b rowRect) (View.ld x wideRect) (View.ld wr wresRect) (View.ld br rowRect)⟩]

/-- The score column's block, over the whole buffer. -/
def score (g : Vec F S2000x128 .f32) (b : Vec F S1x128 .f32) (x : Vec F S2000x512 .f32) (wr : Vec F S512x128 .f32) (br : Vec F S1x128 .f32) (w1 : Vec F S128x256 .f32) (b1 : Vec F S1x256 .f32) (w2 : Vec F S256x1 .f32) (b2 : Vec F S1x1 .f32) : Vec F S2000x1 .f32 :=
  View.canon [⟨colRect, k2_pay1 (k2_pay3 (View.ld g narrowRect) (View.ld b rowRect) (View.ld x wideRect) (View.ld wr wresRect) (View.ld br rowRect) (View.ld w1 wfc1Rect) (View.ld b1 row256Rect) (View.ld w2 wfc2Rect)) (View.ld b2 unitRect)⟩]

theorem features_covers (p : Vec F S2000x128 .f32) (y : S2000x128.Idx) :
    ∃ pc ∈ ([⟨narrowRect, p⟩] : List (View.Piece (Elt F) S2000x128 .f32)), y ∈ pc.1.set :=
  View.cover_of_tiled [⟨narrowRect, p⟩] S2000x128.size (by rfl) y
theorem score_covers (p : Vec F S2000x1 .f32) (y : S2000x1.Idx) :
    ∃ pc ∈ ([⟨colRect, p⟩] : List (View.Piece (Elt F) S2000x1 .f32)), y ∈ pc.1.set :=
  View.cover_of_tiled [⟨colRect, p⟩] S2000x1.size (by rfl) y

set_option maxHeartbeats 2000000 in
/-- The body on whole staging memrefs: with the nine inputs' buffers at given contents and the two outputs' at anything,
    it runs to its end leaving the inputs as they were and the outputs at `features …` and `score …`. -/
theorem body_triple (c : Dev nD) (E : Set ℕ) (i : grid2.Coords)
    (a1 : Memref sig .tc .vmem S2000x128 .f32) (h1 : a1.IsWhole) (a2 : Memref sig .tc .vmem S1x128 .f32) (h2 : a2.IsWhole) (a3 : Memref sig .tc .vmem S2000x512 .f32) (h3 : a3.IsWhole) (a4 : Memref sig .tc .vmem S512x128 .f32) (h4 : a4.IsWhole) (a5 : Memref sig .tc .vmem S1x128 .f32) (h5 : a5.IsWhole) (a6 : Memref sig .tc .vmem S128x256 .f32) (h6 : a6.IsWhole) (a7 : Memref sig .tc .vmem S1x256 .f32) (h7 : a7.IsWhole) (a8 : Memref sig .tc .vmem S256x1 .f32) (h8 : a8.IsWhole) (a9 : Memref sig .tc .vmem S1x1 .f32) (h9 : a9.IsWhole) (a10 : Memref sig .tc .vmem S2000x128 .f32) (h10 : a10.IsWhole) (a11 : Memref sig .tc .vmem S2000x1 .f32) (h11 : a11.IsWhole)
    (g : Vec F S2000x128 .f32) (b : Vec F S1x128 .f32) (x : Vec F S2000x512 .f32) (wr : Vec F S512x128 .f32) (br : Vec F S1x128 .f32) (w1 : Vec F S128x256 .f32) (b1 : Vec F S1x256 .f32) (w2 : Vec F S256x1 .f32) (b2 : Vec F S1x1 .f32) (K : PUnit → sProp 𝕄) :
    iprop(owns (c : Thread nD τ) a1 fullShare g ∗ owns (c : Thread nD τ) a2 fullShare b ∗ owns (c : Thread nD τ) a3 fullShare x ∗ owns (c : Thread nD τ) a4 fullShare wr ∗ owns (c : Thread nD τ) a5 fullShare br ∗ owns (c : Thread nD τ) a6 fullShare w1 ∗ owns (c : Thread nD τ) a7 fullShare b1 ∗ owns (c : Thread nD τ) a8 fullShare w2 ∗ owns (c : Thread nD τ) a9 fullShare b2
        ∗ (∃ d, owns (c : Thread nD τ) a10 fullShare d) ∗ (∃ d, owns (c : Thread nD τ) a11 fullShare d)
        ∗ (iprop(owns (c : Thread nD τ) a1 fullShare g ∗ owns (c : Thread nD τ) a2 fullShare b ∗ owns (c : Thread nD τ) a3 fullShare x ∗ owns (c : Thread nD τ) a4 fullShare wr ∗ owns (c : Thread nD τ) a5 fullShare br ∗ owns (c : Thread nD τ) a6 fullShare w1 ∗ owns (c : Thread nD τ) a7 fullShare b1 ∗ owns (c : Thread nD τ) a8 fullShare w2 ∗ owns (c : Thread nD τ) a9 fullShare b2
            ∗ owns (c : Thread nD τ) a10 fullShare (features g b x wr br) ∗ owns (c : Thread nD τ) a11 fullShare (score g b x wr br w1 b1 w2 b2)) -∗ K ⟨⟩))
      ⊢ wp frame (wpE (defs₀ (F := F)) Variants.none c none) E (cc2__stage3_kernel i a1 h1 a2 h2 a3 h3 a4 h4 a5 h5 a6 h6 a7 h7 a8 h8 a9 h9 a10 h10 a11 h11) K := by
  simp only [cc2__stage3_kernel_eq_skeleton]; unfold cc2__stage3_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf1; subst hf2; subst hf3; subst hf4; subst hf5; subst hf6; subst hf7; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (features_covers _)
  iexists _; isplitr
  swap; · iexact H11
  ipureintro
  exact View.read_writes_eq_canon _ _ _ (score_covers _)

/-- The proof data of the region's pipeline on core `c`: the arrays as the region finds them; after the body at point
    `t` each input's buffer still at its block and the outputs' at the features' block and the score column's block;
    the invariant is the scoped rest and the generator register, untouched; nothing is owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => features (blockAt V c 0 t) (blockAt V c 1 t) (blockAt V c 2 t) (blockAt V c 3 t) (blockAt V c 4 t)
    | ⟨10, _⟩ => score (blockAt V c 0 t) (blockAt V c 1 t) (blockAt V c 2 t) (blockAt V c 3 t) (blockAt V c 4 t) (blockAt V c 5 t) (blockAt V c 6 t) (blockAt V c 7 t) (blockAt V c 8 t)
  Φ _ := Pipeline.ΦA spec2 c
  q _ := fullShare
  owed _ := 0

theorem dat_A (c : Dev nD) (w : Fin cfg2.W) : (dat V c).A w = V c (Pipeline.arrRef spec2 w) := by
  dsimp only [dat]
theorem after_agg (c : Dev nD) (t : Fin cfg2.N) : (dat V c).after 0 t = blockAt V c 0 t := by dsimp only [dat]
theorem after_bias (c : Dev nD) (t : Fin cfg2.N) : (dat V c).after 1 t = blockAt V c 1 t := by dsimp only [dat]
theorem after_hidden (c : Dev nD) (t : Fin cfg2.N) : (dat V c).after 2 t = blockAt V c 2 t := by dsimp only [dat]
theorem after_wres (c : Dev nD) (t : Fin cfg2.N) : (dat V c).after 3 t = blockAt V c 3 t := by dsimp only [dat]
theorem after_bres (c : Dev nD) (t : Fin cfg2.N) : (dat V c).after 4 t = blockAt V c 4 t := by dsimp only [dat]
theorem after_wfc1 (c : Dev nD) (t : Fin cfg2.N) : (dat V c).after 5 t = blockAt V c 5 t := by dsimp only [dat]
theorem after_bfc1 (c : Dev nD) (t : Fin cfg2.N) : (dat V c).after 6 t = blockAt V c 6 t := by dsimp only [dat]
theorem after_wfc2 (c : Dev nD) (t : Fin cfg2.N) : (dat V c).after 7 t = blockAt V c 7 t := by dsimp only [dat]
theorem after_bfc2 (c : Dev nD) (t : Fin cfg2.N) : (dat V c).after 8 t = blockAt V c 8 t := by dsimp only [dat]
theorem after_features (c : Dev nD) (t : Fin cfg2.N) :
    (dat V c).after 9 t = features (blockAt V c 0 t) (blockAt V c 1 t) (blockAt V c 2 t) (blockAt V c 3 t) (blockAt V c 4 t) := by dsimp only [dat]
theorem after_score (c : Dev nD) (t : Fin cfg2.N) :
    (dat V c).after 10 t = score (blockAt V c 0 t) (blockAt V c 1 t) (blockAt V c 2 t) (blockAt V c 3 t) (blockAt V c 4 t) (blockAt V c 5 t) (blockAt V c 6 t) (blockAt V c 7 t) (blockAt V c 8 t) := by dsimp only [dat]

/-- An input's staging buffer holds its block at every point, whether the point fetched it or an earlier one did. -/
theorem before_agg (c : Dev nD) (t : Fin cfg2.N) (d) : (dat V c).before 0 t d = blockAt V c 0 t :=
  ((dat V c).before_in_eq_fetched 0 rfl (fun _ => rfl) (fun _ _ _ => rfl)
      (fun t => by rw [after_agg]; unfold Dat.blockOf blockAt; rw [dat_A]; try rfl) t d).trans
    (by unfold Dat.fetched Dat.blockOf blockAt; rw [dat_A]; try rfl)
theorem before_bias (c : Dev nD) (t : Fin cfg2.N) (d) : (dat V c).before 1 t d = blockAt V c 1 t :=
  ((dat V c).before_in_eq_fetched 1 rfl (fun _ => rfl) (fun _ _ _ => rfl)
      (fun t => by rw [after_bias]; unfold Dat.blockOf blockAt; rw [dat_A]; try rfl) t d).trans
    (by unfold Dat.fetched Dat.blockOf blockAt; rw [dat_A]; try rfl)
theorem before_hidden (c : Dev nD) (t : Fin cfg2.N) (d) : (dat V c).before 2 t d = blockAt V c 2 t :=
  ((dat V c).before_in_eq_fetched 2 rfl (fun _ => rfl) (fun _ _ _ => rfl)
      (fun t => by rw [after_hidden]; unfold Dat.blockOf blockAt; rw [dat_A]; try rfl) t d).trans
    (by unfold Dat.fetched Dat.blockOf blockAt; rw [dat_A]; try rfl)
theorem before_wres (c : Dev nD) (t : Fin cfg2.N) (d) : (dat V c).before 3 t d = blockAt V c 3 t :=
  ((dat V c).before_in_eq_fetched 3 rfl (fun _ => rfl) (fun _ _ _ => rfl)
      (fun t => by rw [after_wres]; unfold Dat.blockOf blockAt; rw [dat_A]; try rfl) t d).trans
    (by unfold Dat.fetched Dat.blockOf blockAt; rw [dat_A]; try rfl)
theorem before_bres (c : Dev nD) (t : Fin cfg2.N) (d) : (dat V c).before 4 t d = blockAt V c 4 t :=
  ((dat V c).before_in_eq_fetched 4 rfl (fun _ => rfl) (fun _ _ _ => rfl)
      (fun t => by rw [after_bres]; unfold Dat.blockOf blockAt; rw [dat_A]; try rfl) t d).trans
    (by unfold Dat.fetched Dat.blockOf blockAt; rw [dat_A]; try rfl)
theorem before_wfc1 (c : Dev nD) (t : Fin cfg2.N) (d) : (dat V c).before 5 t d = blockAt V c 5 t :=
  ((dat V c).before_in_eq_fetched 5 rfl (fun _ => rfl) (fun _ _ _ => rfl)
      (fun t => by rw [after_wfc1]; unfold Dat.blockOf blockAt; rw [dat_A]; try rfl) t d).trans
    (by unfold Dat.fetched Dat.blockOf blockAt; rw [dat_A]; try rfl)
theorem before_bfc1 (c : Dev nD) (t : Fin cfg2.N) (d) : (dat V c).before 6 t d = blockAt V c 6 t :=
  ((dat V c).before_in_eq_fetched 6 rfl (fun _ => rfl) (fun _ _ _ => rfl)
      (fun t => by rw [after_bfc1]; unfold Dat.blockOf blockAt; rw [dat_A]; try rfl) t d).trans
    (by unfold Dat.fetched Dat.blockOf blockAt; rw [dat_A]; try rfl)
theorem before_wfc2 (c : Dev nD) (t : Fin cfg2.N) (d) : (dat V c).before 7 t d = blockAt V c 7 t :=
  ((dat V c).before_in_eq_fetched 7 rfl (fun _ => rfl) (fun _ _ _ => rfl)
      (fun t => by rw [after_wfc2]; unfold Dat.blockOf blockAt; rw [dat_A]; try rfl) t d).trans
    (by unfold Dat.fetched Dat.blockOf blockAt; rw [dat_A]; try rfl)
theorem before_bfc2 (c : Dev nD) (t : Fin cfg2.N) (d) : (dat V c).before 8 t d = blockAt V c 8 t :=
  ((dat V c).before_in_eq_fetched 8 rfl (fun _ => rfl) (fun _ _ _ => rfl)
      (fun t => by rw [after_bfc2]; unfold Dat.blockOf blockAt; rw [dat_A]; try rfl) t d).trans
    (by unfold Dat.fetched Dat.blockOf blockAt; rw [dat_A]; try rfl)

/-- The body at any grid point meets the pipeline's obligation. -/
theorem body_obligation (c : Dev nD) :
    BodyObligation (dat (F := F) V c) (defs₀ (F := F)) Variants.none () Set.univ := fun t => by
  rw [bigSep_W2, bigSep_W2]
  show iprop((dat V c).Φ t.castSucc ∗ (dat V c).owesAt () t.castSucc
      ∗ (∃ d, owns (c : Thread nD τ) (st2_0 t) fullShare ((dat V c).before 0 t d))
      ∗ (∃ d, owns (c : Thread nD τ) (st2_1 t) fullShare ((dat V c).before 1 t d))
      ∗ (∃ d, owns (c : Thread nD τ) (st2_2 t) fullShare ((dat V c).before 2 t d))
      ∗ (∃ d, owns (c : Thread nD τ) (st2_3 t) fullShare ((dat V c).before 3 t d))
      ∗ (∃ d, owns (c : Thread nD τ) (st2_4 t) fullShare ((dat V c).before 4 t d))
      ∗ (∃ d, owns (c : Thread nD τ) (st2_5 t) fullShare ((dat V c).before 5 t d))
      ∗ (∃ d, owns (c : Thread nD τ) (st2_6 t) fullShare ((dat V c).before 6 t d))
      ∗ (∃ d, owns (c : Thread nD τ) (st2_7 t) fullShare ((dat V c).before 7 t d))
      ∗ (∃ d, owns (c : Thread nD τ) (st2_8 t) fullShare ((dat V c).before 8 t d))
      ∗ (∃ d, owns (c : Thread nD τ) (st2_9 t) fullShare ((dat V c).before 9 t d))
      ∗ (∃ d, owns (c : Thread nD τ) (st2_10 t) fullShare ((dat V c).before 10 t d)))
    ⊢ wp frame (wpE (defs₀ (F := F)) Variants.none c none) Set.univ (bodyAt2 t) (fun _ =>
      iprop((dat V c).Φ t.succ ∗ (dat V c).owesAt () t.succ
        ∗ owns (c : Thread nD τ) (st2_0 t) fullShare ((dat V c).after 0 t)
        ∗ owns (c : Thread nD τ) (st2_1 t) fullShare ((dat V c).after 1 t)
        ∗ owns (c : Thread nD τ) (st2_2 t) fullShare ((dat V c).after 2 t)
        ∗ owns (c : Thread nD τ) (st2_3 t) fullShare ((dat V c).after 3 t)
        ∗ owns (c : Thread nD τ) (st2_4 t) fullShare ((dat V c).after 4 t)
        ∗ owns (c : Thread nD τ) (st2_5 t) fullShare ((dat V c).after 5 t)
        ∗ owns (c : Thread nD τ) (st2_6 t) fullShare ((dat V c).after 6 t)
        ∗ owns (c : Thread nD τ) (st2_7 t) fullShare ((dat V c).after 7 t)
        ∗ owns (c : Thread nD τ) (st2_8 t) fullShare ((dat V c).after 8 t)
        ∗ owns (c : Thread nD τ) (st2_9 t) fullShare ((dat V c).after 9 t)
        ∗ owns (c : Thread nD τ) (st2_10 t) fullShare ((dat V c).after 10 t)))
  simp only [before_agg, before_bias, before_hidden, before_wres, before_bres, before_wfc1, before_bfc1, before_wfc2, before_bfc2]
  rw [show (dat V c).Φ t.succ = (dat V c).Φ t.castSucc from rfl,
    show (dat V c).owesAt () t.succ = (dat V c).owesAt () t.castSucc from rfl,
    after_agg, after_bias, after_hidden, after_wres, after_bres, after_wfc1, after_bfc1, after_wfc2, after_bfc2, after_features, after_score]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  unfold bodyAt2
  iapply (body_triple c Set.univ _ _ _ _ _ _ _ _ _ _ _ _ _ _ _ _ _ _ _ _ _ _ _ (blockAt V c 0 t) (blockAt V c 1 t) (blockAt V c 2 t) (blockAt V c 3 t) (blockAt V c 4 t) (blockAt V c 5 t) (blockAt V c 6 t) (blockAt V c 7 t) (blockAt V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Kernel.Head

end
-- ==== Proof.Kernel.Threads.lean ====
/-
  The kernel program's @main as a thread of eight items — three stretches of host operations, region 0, a stretch,
  region 1, a stretch, region 2 — with the contents of the core's unscoped buffers named between any two items.
  What region 0 leaves in its result array is the 25 written-back blocks folded over the array; the stretch after it
  reads that; region 1's two result arrays are stated over the contents so obtained, and region 2's over those. With
  these contents the three regions are segments of @main that meet the thread states of the generated conditional
  frame, which gives the frame claim; the same launch, read at every unscoped buffer instead of at the arguments only,
  gives every final buffer at the last contents, the two result arrays among them.
-/
import proofs.«151933_j70214125355147_1_alg».proof.Proof.Gen.Kernel.Regions
import proofs.«151933_j70214125355147_1_alg».proof.Proof.Kernel.Project
import proofs.«151933_j70214125355147_1_alg».proof.Proof.Kernel.Hidden
import proofs.«151933_j70214125355147_1_alg».proof.Proof.Kernel.Head
import Idealize.ShloMosaic.Lib.Pipeline.RegionsLoop
import Idealize.ShloMosaic.Lib.Pipeline.Kit

set_option maxRecDepth 16384

noncomputable section

namespace Cert.Kernel.Threads

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, region by region -/

/-- The contents region 0 is entered with, read at the TensorCore's references. -/
abbrev entry0 : (c : Dev nD) → (b : Ref sig .tc) → Buf (Elt F) ((c : Thread nD τ).loc b) := fun c b => V3 m c b

/-- The array region 0 leaves in its result: its written-back blocks folded over the array. -/
def projArr (c : Dev nD) : Buf (Elt F) ((c : Thread nD τ).loc main_v30) := (Project.dat (entry0 m) c).arrAt 2 cfg0.N

/-- The regions' results so far: region 0's. (Elsewhere the launch contents, which nothing reads.) -/
def outsA : Outs (F := F) := fun _ r c =>
  if h : r = main_v30 then h ▸ projArr m c else m ((c : Thread nD τ).loc r)

theorem outsA_proj (J : ℕ) (c : Dev nD) : outsA m J main_v30 c = projArr m c := by
  unfold outsA; rw [dif_pos rfl]

/-- The contents region 1 is entered with. -/
abbrev entry1 : (c : Dev nD) → (b : Ref sig .tc) → Buf (Elt F) ((c : Thread nD τ).loc b) := fun c b => V5 m (outsA m) c b

/-- The two arrays region 1 leaves: the hidden layer and its projection. -/
def hiddenArr (c : Dev nD) : Buf (Elt F) ((c : Thread nD τ).loc main_v45_0) := (Hidden.dat (entry1 m) c).arrAt 3 cfg1.N
def projectedArr (c : Dev nD) : Buf (Elt F) ((c : Thread nD τ).loc main_v45_1) := (Hidden.dat (entry1 m) c).arrAt 4 cfg1.N

/-- The regions' results so far: region 0's and region 1's. -/
def outsB : Outs (F := F) := fun J r c =>
  if h : r = main_v45_0 then h ▸ hiddenArr m c
  else if h : r = main_v45_1 then h ▸ projectedArr m c
  else outsA m J r c

theorem outsB_proj (J : ℕ) (c : Dev nD) : outsB m J main_v30 c = projArr m c := by
  unfold outsB; rw [dif_neg (by decide), dif_neg (by decide)]; exact outsA_proj m J c
theorem outsB_hidden (J : ℕ) (c : Dev nD) : outsB m J main_v45_0 c = hiddenArr m c := by
  unfold outsB; rw [dif_pos rfl]
theorem outsB_projected (J : ℕ) (c : Dev nD) : outsB m J main_v45_1 c = projectedArr m c := by
  unfold outsB; rw [dif_neg (by decide), dif_pos rfl]

/-- The contents region 2 is entered with. -/
abbrev entry2 : (c : Dev nD) → (b : Ref sig .tc) → Buf (Elt F) ((c : Thread nD τ).loc b) := fun c b => V7 m (outsB m) c b

/-- The two arrays region 2 leaves: the node features and the score column. -/
def featuresArr (c : Dev nD) : Buf (Elt F) ((c : Thread nD τ).loc main_v63_0) := (Head.dat (entry2 m) c).arrAt 9 cfg2.N
def scoreArr (c : Dev nD) : Buf (Elt F) ((c : Thread nD τ).loc main_v63_1) := (Head.dat (entry2 m) c).arrAt 10 cfg2.N

/-- All the regions' results. -/
def outs : Outs (F := F) := fun J r c =>
  if h : r = main_v63_0 then h ▸ featuresArr m c
  else if h : r = main_v63_1 then h ▸ scoreArr m c
  else outsB m J r c

theorem outs_proj (J : ℕ) (c : Dev nD) : outs m J main_v30 c = projArr m c := by
  unfold outs; rw [dif_neg (by decide), dif_neg (by decide)]; exact outsB_proj m J c
theorem outs_hidden (J : ℕ) (c : Dev nD) : outs m J main_v45_0 c = hiddenArr m c := by
  unfold outs; rw [dif_neg (by decide), dif_neg (by decide)]; exact outsB_hidden m J c
theorem outs_projected (J : ℕ) (c : Dev nD) : outs m J main_v45_1 c = projectedArr m c := by
  unfold outs; rw [dif_neg (by decide), dif_neg (by decide)]; exact outsB_projected m J c
theorem outs_features (J : ℕ) (c : Dev nD) : outs m J main_v63_0 c = featuresArr m c := by
  unfold outs; rw [dif_pos rfl]
theorem outs_score (J : ℕ) (c : Dev nD) : outs m J main_v63_1 c = scoreArr m c := by
  unfold outs; rw [dif_neg (by decide), dif_pos rfl]

/-! ## The contents between items do not depend on results not yet made -/

theorem V4_eq (c : Dev nD) : V4 m (outs m) c = V4 m (outsA m) c := by
  show Function.update (V3 m c) main_v30 (outs m 4 main_v30 c) = Function.update (V3 m c) main_v30 (outsA m 4 main_v30 c)
  rw [outs_proj, outsA_proj]
theorem V4B_eq (c : Dev nD) : V4 m (outsB m) c = V4 m (outsA m) c := by
  show Function.update (V3 m c) main_v30 (outsB m 4 main_v30 c) = Function.update (V3 m c) main_v30 (outsA m 4 main_v30 c)
  rw [outsB_proj, outsA_proj]
theorem V5_eq (c : Dev nD) : V5 m (outs m) c = V5 m (outsA m) c := by
  show StableHlo.after hostOps1 (V4 m (outs m) c) = StableHlo.after hostOps1 (V4 m (outsA m) c)
  rw [V4_eq]
theorem V5B_eq (c : Dev nD) : V5 m (outsB m) c = V5 m (outsA m) c := by
  show StableHlo.after hostOps1 (V4 m (outsB m) c) = StableHlo.after hostOps1 (V4 m (outsA m) c)
  rw [V4B_eq]
theorem V6_eq (c : Dev nD) : V6 m (outs m) c = V6 m (outsB m) c := by
  show Function.update (Function.update (V5 m (outs m) c) main_v45_0 (outs m 6 main_v45_0 c)) main_v45_1 (outs m 6 main_v45_1 c)
    = Function.update (Function.update (V5 m (outsB m) c) main_v45_0 (outsB m 6 main_v45_0 c)) main_v45_1 (outsB m 6 main_v45_1 c)
  rw [V5_eq, V5B_eq, outs_hidden, outs_projected, outsB_hidden, outsB_projected]
theorem V7_eq (c : Dev nD) : V7 m (outs m) c = V7 m (outsB m) c := by
  show StableHlo.after hostOps2 (V6 m (outs m) c) = StableHlo.after hostOps2 (V6 m (outsB m) c)
  rw [V6_eq]

/-- Off region 1's results, the contents after it are the contents it was entered with. -/
theorem V6B_of (c : Dev nD) (r : Ref sig .tc) (h : r ∉ ([main_v45_0, main_v45_1] : List (Ref sig .tc))) :
    V6 m (outsB m) c r = V5 m (outsA m) c r :=
  (V6_of m (outsB m) c r h).trans (congrFun (V5B_eq m c) _)
/-- Off region 2's results, the contents after it are the contents it was entered with. -/
theorem V8_of' (c : Dev nD) (r : Ref sig .tc) (h : r ∉ ([main_v63_0, main_v63_1] : List (Ref sig .tc))) :
    V8 m (outs m) c r = V7 m (outsB m) c r :=
  (V8_of m (outs m) c r h).trans (congrFun (V7_eq m c) _)

/-! ## The proof data, and what each region's exit needs of the contents -/

/-- No pallas_call has a prefetched table. -/
abbrev adm : (p : Fin 3) → (pcfgs (F := F) p).Adm := fun p => (cfgs p).toPCfg_adm

/-- Every pipeline's proof data, each at the contents its region is entered with. -/
def pdats : (p : Fin 3) → (c : Dev nD) → Dat τ (Elt F) Unit ℕ (UR sig nD τ) ℕ (cfgs p) c
  | ⟨0, _⟩ => fun c => Project.dat (entry0 m) c
  | ⟨1, _⟩ => fun c => Hidden.dat (entry1 m) c
  | ⟨2, _⟩ => fun c => Head.dat (entry2 m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev rest (c : Dev nD) : sProp 𝕄 := iprop((∃ r, prngReg c r) ∗ ∃ W, owes (c : Thread nD τ) (0 : CellTallies nD τ sig Unit) W)

/-- Region 0's arrays after it: the two inputs as entered, the result at the folded blocks. -/
theorem left0 (c : Dev nD) : ∀ w, (pdats m 0 c).arrAt w cfg0.N = (fun b => V4 m (outsA m) c b) (Pipeline.arrRef spec0 w)
  | ⟨0, _⟩ => ((Project.dat (entry0 m) c).arrAt_in 0 rfl _).trans ((Project.dat_A (entry0 m) c 0).trans (V4_of m (outsA m) c main_arg0 (by decide)).symm)
  | ⟨1, _⟩ => ((Project.dat (entry0 m) c).arrAt_in 1 rfl _).trans ((Project.dat_A (entry0 m) c 1).trans (V4_of m (outsA m) c main_arg2 (by decide)).symm)
  | ⟨2, _⟩ => by
      show projArr m c = Function.update (V3 m c) main_v30 (outsA m 4 main_v30 c) main_v30
      rw [Function.update_self, outsA_proj]
theorem kept0 (c : Dev nD) : ∀ b, b ∉ Finset.univ.image (Pipeline.arrRef spec0) → (fun b => V4 m (outsA m) c b) b = entry0 m c b :=
  fun b hb => V4_of m (outsA m) c b fun hmem =>
    hb (Finset.mem_image.mpr ⟨2, Finset.mem_univ _, (List.mem_singleton.mp hmem).symm⟩)

/-- Region 1's arrays after it. -/
theorem left1 (c : Dev nD) : ∀ w, (pdats m 1 c).arrAt w cfg1.N = (fun b => V6 m (outsB m) c b) (Pipeline.arrRef spec1 w)
  | ⟨0, _⟩ => ((Hidden.dat (entry1 m) c).arrAt_in 0 rfl _).trans ((Hidden.dat_A (entry1 m) c 0).trans (V6B_of m c main_v43 (by decide)).symm)
  | ⟨1, _⟩ => ((Hidden.dat (entry1 m) c).arrAt_in 1 rfl _).trans ((Hidden.dat_A (entry1 m) c 1).trans (V6B_of m c main_v44 (by decide)).symm)
  | ⟨2, _⟩ => ((Hidden.dat (entry1 m) c).arrAt_in 2 rfl _).trans ((Hidden.dat_A (entry1 m) c 2).trans (V6B_of m c main_arg4 (by decide)).symm)
  | ⟨3, _⟩ => by
      show hiddenArr m c = Function.update (Function.update (V5 m (outsB m) c) main_v45_0 (outsB m 6 main_v45_0 c)) main_v45_1 (outsB m 6 main_v45_1 c) main_v45_0
      rw [Function.update_of_ne (StableHlo.devRef_ne_of_ne (by decide) : (Proc.devRef .tc main_v45_0 : DevRef τ sig) ≠ Proc.devRef .tc main_v45_1),
        Function.update_self, outsB_hidden]
  | ⟨4, _⟩ => by
      show projectedArr m c = Function.update (Function.update (V5 m (outsB m) c) main_v45_0 (outsB m 6 main_v45_0 c)) main_v45_1 (outsB m 6 main_v45_1 c) main_v45_1
      rw [Function.update_self, outsB_projected]
theorem kept1 (c : Dev nD) : ∀ b, b ∉ Finset.univ.image (Pipeline.arrRef spec1) → (fun b => V6 m (outsB m) c b) b = entry1 m c b :=
  fun b hb => V6B_of m c b fun hmem => by
    rcases List.mem_cons.mp hmem with h | h
    · exact hb (Finset.mem_image.mpr ⟨3, Finset.mem_univ _, h.symm⟩)
    · exact hb (Finset.mem_image.mpr ⟨4, Finset.mem_univ _, (List.mem_singleton.mp h).symm⟩)

set_option maxHeartbeats 4000000 in
/-- Region 2's arrays after it. -/
theorem left2 (c : Dev nD) : ∀ w, (pdats m 2 c).arrAt w cfg2.N = (fun b => V8 m (outs m) c b) (Pipeline.arrRef spec2 w)
  | ⟨0, _⟩ => ((Head.dat (entry2 m) c).arrAt_in 0 rfl _).trans ((Head.dat_A (entry2 m) c 0).trans (V8_of' m c main_v58 (by decide)).symm)
  | ⟨1, _⟩ => ((Head.dat (entry2 m) c).arrAt_in 1 rfl _).trans ((Head.dat_A (entry2 m) c 1).trans (V8_of' m c main_v59 (by decide)).symm)
  | ⟨2, _⟩ => ((Head.dat (entry2 m) c).arrAt_in 2 rfl _).trans ((Head.dat_A (entry2 m) c 2).trans (V8_of' m c main_v45_0 (by decide)).symm)
  | ⟨3, _⟩ => ((Head.dat (entry2 m) c).arrAt_in 3 rfl _).trans ((Head.dat_A (entry2 m) c 3).trans (V8_of' m c main_arg6 (by decide)).symm)
  | ⟨4, _⟩ => ((Head.dat (entry2 m) c).arrAt_in 4 rfl _).trans ((Head.dat_A (entry2 m) c 4).trans (V8_of' m c main_v60 (by decide)).symm)
  | ⟨5, _⟩ => ((Head.dat (entry2 m) c).arrAt_in 5 rfl _).trans ((Head.dat_A (entry2 m) c 5).trans (V8_of' m c main_arg8 (by decide)).symm)
  | ⟨6, _⟩ => ((Head.dat (entry2 m) c).arrAt_in 6 rfl _).trans ((Head.dat_A (entry2 m) c 6).trans (V8_of' m c main_v61 (by decide)).symm)
  | ⟨7, _⟩ => ((Head.dat (entry2 m) c).arrAt_in 7 rfl _).trans ((Head.dat_A (entry2 m) c 7).trans (V8_of' m c main_arg10 (by decide)).symm)
  | ⟨8, _⟩ => ((Head.dat (entry2 m) c).arrAt_in 8 rfl _).trans ((Head.dat_A (entry2 m) c 8).trans (V8_of' m c main_v62 (by decide)).symm)
  | ⟨9, _⟩ => by
      show featuresArr m c = Function.update (Function.update (V7 m (outs m) c) main_v63_0 (outs m 8 main_v63_0 c)) main_v63_1 (outs m 8 main_v63_1 c) main_v63_0
      rw [Function.update_of_ne (StableHlo.devRef_ne_of_ne (by decide) : (Proc.devRef .tc main_v63_0 : DevRef τ sig) ≠ Proc.devRef .tc main_v63_1),
        Function.update_self, outs_features]
  | ⟨10, _⟩ => by
      show scoreArr m c = Function.update (Function.update (V7 m (outs m) c) main_v63_0 (outs m 8 main_v63_0 c)) main_v63_1 (outs m 8 main_v63_1 c) main_v63_1
      rw [Function.update_self, outs_score]
theorem kept2 (c : Dev nD) : ∀ b, b ∉ Finset.univ.image (Pipeline.arrRef spec2) → (fun b => V8 m (outs m) c b) b = entry2 m c b :=
  fun b hb => V8_of' m c b fun hmem => by
    rcases List.mem_cons.mp hmem with h | h
    · exact hb (Finset.mem_image.mpr ⟨9, Finset.mem_univ _, h.symm⟩)
    · exact hb (Finset.mem_image.mpr ⟨10, Finset.mem_univ _, (List.mem_singleton.mp h).symm⟩)

/-! ## The regions as segments -/

set_option backward.isDefEq.respectTransparency.types false in
/-- Region 0 as a segment of @main: entered with every unscoped buffer at the contents before it, left with them at the
    contents after it; its arrays are split out of the unscoped buffers at the entry and put back, at what the pipeline
    leaves in them, at the exit; the generator register goes into the pipeline's invariant and comes back; nothing owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Project.body_obligation (entry0 m) c).loose
  hwaits := Pipeline.hwaits_of_owed_zero _ _ _ _ L lv 0 fun _ _ => rfl
  pre c := iprop(StableHlo.held (c : Thread nD τ) (Pipeline.ucRefs τ sig) (V3 m c) ∗ rest c)
  post c := iprop(StableHlo.held (c : Thread nD τ) (Pipeline.ucRefs τ sig) (V4 m (outsA m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V4 m (outsA m) c b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the contents before it, left with them at the
    contents after it; its arrays are split out of the unscoped buffers at the entry and put back, at what the pipeline
    leaves in them, at the exit; the generator register goes into the pipeline's invariant and comes back; nothing owed. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Hidden.body_obligation (entry1 m) c).loose
  hwaits := Pipeline.hwaits_of_owed_zero _ _ _ _ L lv 1 fun _ _ => rfl
  pre c := iprop(StableHlo.held (c : Thread nD τ) (Pipeline.ucRefs τ sig) (V5 m (outsA m) c) ∗ rest c)
  post c := iprop(StableHlo.held (c : Thread nD τ) (Pipeline.ucRefs τ sig) (V6 m (outsB m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V6 m (outsB m) c b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at the contents before it, left with them at the
    contents after it; its arrays are split out of the unscoped buffers at the entry and put back, at what the pipeline
    leaves in them, at the exit; the generator register goes into the pipeline's invariant and comes back; nothing owed. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Head.body_obligation (entry2 m) c).loose
  hwaits := Pipeline.hwaits_of_owed_zero _ _ _ _ L lv 2 fun _ _ => rfl
  pre c := iprop(StableHlo.held (c : Thread nD τ) (Pipeline.ucRefs τ sig) (V7 m (outsB m) c) ∗ rest c)
  post c := iprop(StableHlo.held (c : Thread nD τ) (Pipeline.ucRefs τ sig) (V8 m (outs m) c) ∗ rest c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry2 m c) (fun b => V8 m (outs m) c b) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

variable (ρ : Dev nD → PrngReg)

/-- The launch's ghost state: the pipelines' cells and launch tokens, nothing else. -/
abbrev u₀ : UR sig nD τ := initOf (Pipeline.cells cfgs cellOf_inj) (Pipeline.launchToks cfgs cellOf_inj)

theorem launch_ghost : (ownU u₀ : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core besides its buffers makes the rest that rides along: the register at its launch
    state, nothing owed. -/
theorem rest_of_launch : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => rest (F := F) c) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => rest (F := F) c) : sProp 𝕄) :=
    bigSep_mono fun c _ => (show iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) ⊢ rest (F := F) c from by
      iintro ⟨-, HO, -, Hp, -⟩
      isplitl [Hp]; · iexists _; iexact Hp
      iexists ∅; iexact HO)
  iintro ⟨H, -⟩
  imodintro
  iapply hmono
  iexact H

theorem rest_owes (c : Dev nD) : rest (F := F) c ⊢ (iprop(∃ W, owes (c : Thread nD τ) (0 : CellTallies nD τ sig Unit) W) : sProp 𝕄) := by
  iintro ⟨-, HO⟩; iexact HO

/-- Each region's segment meets the thread states before and after it. -/
theorem enter0 (c : Dev nD) : iprop(StableHlo.held (c : Thread nD τ) (Pipeline.ucRefs τ sig) (V3 m c) ∗ rest (F := F) c) ⊢ (reg0 m).pre c := .rfl
theorem leave0 (c : Dev nD) : (reg0 m).post c ⊢ iprop(StableHlo.held (c : Thread nD τ) (Pipeline.ucRefs τ sig) (V4 m (outs m) c) ∗ rest (F := F) c) := by
  rw [V4_eq]; exact .rfl
theorem enter1 (c : Dev nD) : iprop(StableHlo.held (c : Thread nD τ) (Pipeline.ucRefs τ sig) (V5 m (outs m) c) ∗ rest (F := F) c) ⊢ (reg1 m).pre c := by
  rw [V5_eq]; exact .rfl
theorem leave1 (c : Dev nD) : (reg1 m).post c ⊢ iprop(StableHlo.held (c : Thread nD τ) (Pipeline.ucRefs τ sig) (V6 m (outs m) c) ∗ rest (F := F) c) := by
  rw [V6_eq]; exact .rfl
theorem enter2 (c : Dev nD) : iprop(StableHlo.held (c : Thread nD τ) (Pipeline.ucRefs τ sig) (V7 m (outs m) c) ∗ rest (F := F) c) ⊢ (reg2 m).pre c := by
  rw [V7_eq]; exact .rfl
theorem leave2 (c : Dev nD) : (reg2 m).post c ⊢ iprop(StableHlo.held (c : Thread nD τ) (Pipeline.ucRefs τ sig) (V8 m (outs m) c) ∗ rest (F := F) c) := .rfl

set_option backward.isDefEq.respectTransparency.types false in
/-- THE FRAME: from any memory with zero counters every weakly fair execution of @main terminates, nothing faulting, with
    every argument array as launched — the generated conditional frame at the three regions' segments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m (emb₁ : Emb (UR sig nD τ) 𝕄) () 𝒱₀ L lv (fun _ _ => rfl) ρ (outs m) (pdats m)
    (0 : Dev nD → CellTallies nD τ sig Unit) (fun _ => (BI.emp : sProp 𝕄)) u₀ (launch_ghost (F := F))
    (fun _ c => rest (F := F) c) (rest_of_launch (F := F) ρ) (rest_owes (F := F))
    (reg0 m) (enter0 m) (leave0 m) (reg1 m) (enter1 m) (leave1 m) (reg2 m) (enter2 m) (leave2 m)

set_option backward.isDefEq.respectTransparency.types false in
/-- THE RUN, with every buffer named: the same launch read at EVERY unscoped buffer of the last contents — each final
    buffer holds what the thread of contents says, the regions' result arrays among them. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V8 m (outs m) c b) := by
  refine Pipeline.θ_run_regions_kit_dev (pcfgs (F := F)) adm (pdats m) () cellOf_inj (emb₁ : Emb (UR sig nD τ) 𝕄) defs₀ 𝒱₀ L lv m ρ main
    (segs m (outs m) 𝒱₀ L lv (fun _ c => rest (F := F) c) () (pdats m) (reg0 m) (reg1 m) (reg2 m))
    (fun c Q => by
      rewrite [main_chain c, Seg.run_eq_chain,
        show (segs m (outs m) 𝒱₀ L lv (fun _ c => rest (F := F) c) () (pdats m) (reg0 m) (reg1 m) (reg2 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄)) u₀ (launch_ghost (F := F))
    (T₀ := fun c => iprop(StableHlo.held (c : Thread nD τ) (Pipeline.ucRefs τ sig) (V0 m c) ∗ rest (F := F) c))
    (Tₙ := fun c => StableHlo.held (c : Thread nD τ) (Pipeline.ucRefs τ sig) (V8 m (outs m) c))
    (hch := fun c => ⟨.rfl, .rfl, .rfl, enter0 m c, leave0 m c, enter1 m c, leave1 m c, enter2 m c,
      (leave2 m c).trans (sep_mono .rfl (rest_owes (F := F) c))⟩)
    (hinit := ?_) (QY := fun c s => ∀ b ∈ Pipeline.ucRefs τ sig, s.mem ((c : Thread nD τ).1, b) = V8 m (outs m) c b)
    (hfin := fun c s' => ?_) (hQ := fun _ h => h)
  · -- the launch: the unscoped buffers are held at the launch contents; what else the launch hands out makes the rest
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    have hjoin : iprop((bigSep Finset.univ fun c : Dev nD => StableHlo.held (c : Thread nD τ) (Pipeline.ucRefs τ sig) (V0 m c))
          ∗ bigSep Finset.univ fun c : Dev nD => rest (F := F) c)
        ⊢ (bigSep Finset.univ (fun c : Dev nD => iprop(StableHlo.held (c : Thread nD τ) (Pipeline.ucRefs τ sig) (V0 m c) ∗ rest (F := F) c)) : sProp 𝕄) :=
      Entails.of_eq (bigSep_sep Finset.univ (fun c : Dev nD => StableHlo.held (c : Thread nD τ) (Pipeline.ucRefs τ sig) (V0 m c)) (fun c : Dev nD => rest (F := F) c)).symm
    iintro ⟨H, Hla⟩
    ihave H' := hsplit $$ H
    icases H' with ⟨Hh, Hr⟩
    imod (rest_of_launch (F := F) ρ) $$ [Hr Hla] with HE
    · isplitl [Hr]; · iexact Hr
      iexact Hla
    imodintro
    iapply hjoin
    isplitl [Hh]; · iexact Hh
    iexact HE
  · -- the end: every unscoped buffer read off the last contents
    unfold StableHlo.held
    iintro ⟨Hh, HSI⟩
    imodintro
    iapply (pointsTo_read_all (Pipeline.ucRefs τ sig) (fun b => ((c : Thread nD τ).1, b)) (V8 m (outs m) c) s')
    isplitl [Hh] <;> iassumption

end Cert.Kernel.Threads

end
-- ==== Proof.KernelIdeal.Project.lean ====
/-
  Region 0 of the kernel program: one grid point multiplies a 2000-row block of the node embeddings by the whole
  first weight matrix, into a zero accumulator, and stores the 2000 x 512 product over the output block.
  Stated at ANY contents `V` of the core's buffers when the region is entered: what the point's staging buffers hold
  after the body (the input blocks as found, the output block at the product of the two), the body's triple, the
  pipeline's proof data with these contents, and the body obligation at every grid point.
-/
import proofs.«151933_j70214125355147_1_alg».proof.Proof.Gen.KernelIdeal.Launch
import proofs.«151933_j70214125355147_1_alg».proof.Proof.Gen.KernelIdeal.Skeleton
import proofs.«151933_j70214125355147_1_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Project

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The three whole-buffer rectangles the body reads and writes through. -/
abbrev rowsRect : Rect S2000x128 := Rect.unit (s := S2000x128) ![0, 0] S2000x128.size inb_S2000x128_S2000x128_0_0
abbrev weightRect : Rect S128x512 := Rect.unit (s := S128x512) ![0, 0] S128x512.size inb_S128x512_S128x512_0_0
abbrev prodRect : Rect S2000x512 := Rect.unit (s := S2000x512) ![0, 0] S2000x512.size inb_S2000x512_S2000x512_0_0

/-- What the output staging buffer holds after the body: its one store, of the product of the rows block and the
    weight matrix, written over the whole buffer. -/
def product (x : Vec F S2000x128 .f32) (w : Vec F S128x512 .f32) : Vec F S2000x512 .f32 :=
  View.canon [⟨prodRect, k0_pay1 (View.ld x rowsRect) (View.ld w weightRect)⟩]

/-- The one store covers the output buffer: its rectangle is the whole buffer. -/
theorem product_covers (p : Vec F S2000x512 .f32) (y : S2000x512.Idx) :
    ∃ pc ∈ ([⟨prodRect, p⟩] : List (View.Piece (Elt F) S2000x512 .f32)), y ∈ pc.1.set :=
  View.cover_of_tiled [⟨prodRect, p⟩] S2000x512.size (by rfl) y

set_option maxHeartbeats 1000000 in
/-- The body on whole staging memrefs: with the two inputs' buffers at `x` and `w` and the output's at anything, it
    runs to its end leaving the inputs as they were and the output at `product x w`. -/
theorem body_triple (c : Dev nD) (E : Set ℕ) (i : grid0.Coords)
    (a1 : Memref sig .tc .vmem S2000x128 .f32) (h1 : a1.IsWhole) (a2 : Memref sig .tc .vmem S128x512 .f32) (h2 : a2.IsWhole)
    (a3 : Memref sig .tc .vmem S2000x512 .f32) (h3 : a3.IsWhole)
    (x : Vec F S2000x128 .f32) (w : Vec F S128x512 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (product x w)) -∗ K ⟨⟩))
      ⊢ wp frame (wpE (defs₀ (F := F)) Variants.none c none) E (cc0__matmul_kernel i a1 h1 a2 h2 a3 h3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_covers _)

/-- The proof data of the region's pipeline on core `c`: the arrays as the region finds them; after the body at point
    `t` each input's buffer still at its block and the output's at the product of the two blocks; the invariant is the
    scoped rest and the generator register, untouched; nothing is owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => product (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_rows (c : Dev nD) (t : Fin cfg0.N) : (dat V c).after 0 t = blockAt V c 0 t := by dsimp only [dat]
theorem after_weight (c : Dev nD) (t : Fin cfg0.N) : (dat V c).after 1 t = blockAt V c 1 t := by dsimp only [dat]
theorem after_product (c : Dev nD) (t : Fin cfg0.N) :
    (dat V c).after 2 t = product (blockAt V c 0 t) (blockAt V c 1 t) := by dsimp only [dat]

/-- An input's staging buffer holds its block at every point, whether the point fetched it or an earlier one did:
    the body leaves it in place and an unfetched window's block index has not moved. -/
theorem before_rows (c : Dev nD) (t : Fin cfg0.N) (d) : (dat V c).before 0 t d = blockAt V c 0 t :=
  ((dat V c).before_in_eq_fetched 0 rfl (fun _ => rfl) (fun _ _ _ => rfl)
      (fun t => by rw [after_rows]; unfold Dat.blockOf blockAt; rw [dat_A]; try rfl) t d).trans
    (by unfold Dat.fetched Dat.blockOf blockAt; rw [dat_A]; try rfl)
theorem before_weight (c : Dev nD) (t : Fin cfg0.N) (d) : (dat V c).before 1 t d = blockAt V c 1 t :=
  ((dat V c).before_in_eq_fetched 1 rfl (fun _ => rfl) (fun _ _ _ => rfl)
      (fun t => by rw [after_weight]; unfold Dat.blockOf blockAt; rw [dat_A]; try rfl) t d).trans
    (by unfold Dat.fetched Dat.blockOf blockAt; rw [dat_A]; try rfl)

/-- The body at any grid point meets the pipeline's obligation: its inputs' buffers hold their blocks, so the triple
    applies; the invariant and what the core owes pass through unread. -/
theorem body_obligation (c : Dev nD) :
    BodyObligation (dat (F := F) V c) (defs₀ (F := F)) Variants.none () Set.univ := fun t => by
  rw [bigSep_W0, bigSep_W0]
  show iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t)))
  simp only [before_rows, before_weight]
  rw [show (dat V c).Φ t.succ = (dat V c).Φ t.castSucc from rfl,
    show (dat V c).owesAt () t.succ = (dat V c).owesAt () t.castSucc from rfl,
    after_rows, after_weight, after_product]
  iintro ⟨HΦ, Ho, ⟨%d0, H0⟩, ⟨%d1, H1⟩, ⟨%d2, H2⟩⟩
  unfold bodyAt0
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.KernelIdeal.Project

end
-- ==== Proof.KernelIdeal.Hidden.lean ====
/-
  Region 1 of the kernel program: one grid point takes a 2000-row block of the first aggregation, adds the first
  bias row to every row and clamps at zero (the first hidden layer's block, stored over output block 3), then
  multiplies that block by the whole second weight matrix into a zero accumulator (stored over output block 4).
  Stated at ANY contents `V` of the core's buffers when the region is entered: what the point's staging buffers hold
  after the body, the body's triple, the pipeline's proof data and the body obligation at every grid point.
-/
import proofs.«151933_j70214125355147_1_alg».proof.Proof.Gen.KernelIdeal.Launch
import proofs.«151933_j70214125355147_1_alg».proof.Proof.Gen.KernelIdeal.Skeleton
import proofs.«151933_j70214125355147_1_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hidden

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the array as the region finds it. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole-buffer rectangles the body reads and writes through. -/
abbrev wideRect : Rect S2000x512 := Rect.unit (s := S2000x512) ![0, 0] S2000x512.size inb_S2000x512_S2000x512_0_0
abbrev biasRect : Rect S1x512 := Rect.unit (s := S1x512) ![0, 0] S1x512.size inb_S1x512_S1x512_0_0
abbrev weightRect : Rect S512x128 := Rect.unit (s := S512x128) ![0, 0] S512x128.size inb_S512x128_S512x128_0_0
abbrev narrowRect : Rect S2000x128 := Rect.unit (s := S2000x128) ![0, 0] S2000x128.size inb_S2000x128_S2000x128_0_0

/-- The hidden-layer block: the aggregation block plus the bias row, clamped at zero, over the whole buffer. -/
def hidden (a : Vec F S2000x512 .f32) (b : Vec F S1x512 .f32) : Vec F S2000x512 .f32 :=
  View.canon [⟨wideRect, k1_pay1 (View.ld a wideRect) (View.ld b biasRect)⟩]

/-- The projected block: the hidden-layer block times the second weight matrix, over the whole buffer. -/
def projected (a : Vec F S2000x512 .f32) (b : Vec F S1x512 .f32) (w : Vec F S512x128 .f32) : Vec F S2000x128 .f32 :=
  View.canon [⟨narrowRect, k1_pay2 (View.ld a wideRect) (View.ld b biasRect) (View.ld w weightRect)⟩]

theorem hidden_covers (p : Vec F S2000x512 .f32) (y : S2000x512.Idx) :
    ∃ pc ∈ ([⟨wideRect, p⟩] : List (View.Piece (Elt F) S2000x512 .f32)), y ∈ pc.1.set :=
  View.cover_of_tiled [⟨wideRect, p⟩] S2000x512.size (by rfl) y
theorem projected_covers (p : Vec F S2000x128 .f32) (y : S2000x128.Idx) :
    ∃ pc ∈ ([⟨narrowRect, p⟩] : List (View.Piece (Elt F) S2000x128 .f32)), y ∈ pc.1.set :=
  View.cover_of_tiled [⟨narrowRect, p⟩] S2000x128.size (by rfl) y

set_option maxHeartbeats 1000000 in
/-- The body on whole staging memrefs: with the three inputs' buffers at `a`, `b`, `w` and the two outputs' at
    anything, it runs to its end leaving the inputs as they were and the outputs at `hidden a b` and `projected a b w`. -/
theorem body_triple (c : Dev nD) (E : Set ℕ) (i : grid1.Coords)
    (a1 : Memref sig .tc .vmem S2000x512 .f32) (h1 : a1.IsWhole) (a2 : Memref sig .tc .vmem S1x512 .f32) (h2 : a2.IsWhole)
    (a3 : Memref sig .tc .vmem S512x128 .f32) (h3 : a3.IsWhole) (a4 : Memref sig .tc .vmem S2000x512 .f32) (h4 : a4.IsWhole)
    (a5 : Memref sig .tc .vmem S2000x128 .f32) (h5 : a5.IsWhole)
    (a : Vec F S2000x512 .f32) (b : Vec F S1x512 .f32) (w : Vec F S512x128 .f32) (K : PUnit → sProp 𝕄) :
    iprop(owns (c : Thread nD τ) a1 fullShare a ∗ owns (c : Thread nD τ) a2 fullShare b ∗ owns (c : Thread nD τ) a3 fullShare w
        ∗ (∃ d, owns (c : Thread nD τ) a4 fullShare d) ∗ (∃ d, owns (c : Thread nD τ) a5 fullShare d)
        ∗ (iprop(owns (c : Thread nD τ) a1 fullShare a ∗ owns (c : Thread nD τ) a2 fullShare b ∗ owns (c : Thread nD τ) a3 fullShare w
            ∗ owns (c : Thread nD τ) a4 fullShare (hidden a b) ∗ owns (c : Thread nD τ) a5 fullShare (projected a b w)) -∗ K ⟨⟩))
      ⊢ wp frame (wpE (defs₀ (F := F)) Variants.none c none) E (cc1__stage2_kernel i a1 h1 a2 h2 a3 h3 a4 h4 a5 h5) K := by
  simp only [cc1__stage2_kernel_eq_skeleton]; unfold cc1__stage2_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (hidden_covers _)
  iexists _; isplitr
  swap; · iexact H5
  ipureintro
  exact View.read_writes_eq_canon _ _ _ (projected_covers _)

/-- The proof data of the region's pipeline on core `c`: the arrays as the region finds them; after the body at point
    `t` each input's buffer still at its block and the outputs' at the hidden-layer block and its projection; the
    invariant is the scoped rest and the generator register, untouched; nothing is owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => hidden (blockAt V c 0 t) (blockAt V c 1 t)
    | ⟨4, _⟩ => projected (blockAt V c 0 t) (blockAt V c 1 t) (blockAt V c 2 t)
  Φ _ := Pipeline.ΦA spec1 c
  q _ := fullShare
  owed _ := 0

theorem dat_A (c : Dev nD) (w : Fin cfg1.W) : (dat V c).A w = V c (Pipeline.arrRef spec1 w) := by
  dsimp only [dat]
theorem after_agg (c : Dev nD) (t : Fin cfg1.N) : (dat V c).after 0 t = blockAt V c 0 t := by dsimp only [dat]
theorem after_bias (c : Dev nD) (t : Fin cfg1.N) : (dat V c).after 1 t = blockAt V c 1 t := by dsimp only [dat]
theorem after_weight (c : Dev nD) (t : Fin cfg1.N) : (dat V c).after 2 t = blockAt V c 2 t := by dsimp only [dat]
theorem after_hidden (c : Dev nD) (t : Fin cfg1.N) :
    (dat V c).after 3 t = hidden (blockAt V c 0 t) (blockAt V c 1 t) := by dsimp only [dat]
theorem after_projected (c : Dev nD) (t : Fin cfg1.N) :
    (dat V c).after 4 t = projected (blockAt V c 0 t) (blockAt V c 1 t) (blockAt V c 2 t) := by dsimp only [dat]

/-- An input's staging buffer holds its block at every point, whether the point fetched it or an earlier one did. -/
theorem before_agg (c : Dev nD) (t : Fin cfg1.N) (d) : (dat V c).before 0 t d = blockAt V c 0 t :=
  ((dat V c).before_in_eq_fetched 0 rfl (fun _ => rfl) (fun _ _ _ => rfl)
      (fun t => by rw [after_agg]; unfold Dat.blockOf blockAt; rw [dat_A]; try rfl) t d).trans
    (by unfold Dat.fetched Dat.blockOf blockAt; rw [dat_A]; try rfl)
theorem before_bias (c : Dev nD) (t : Fin cfg1.N) (d) : (dat V c).before 1 t d = blockAt V c 1 t :=
  ((dat V c).before_in_eq_fetched 1 rfl (fun _ => rfl) (fun _ _ _ => rfl)
      (fun t => by rw [after_bias]; unfold Dat.blockOf blockAt; rw [dat_A]; try rfl) t d).trans
    (by unfold Dat.fetched Dat.blockOf blockAt; rw [dat_A]; try rfl)
theorem before_weight (c : Dev nD) (t : Fin cfg1.N) (d) : (dat V c).before 2 t d = blockAt V c 2 t :=
  ((dat V c).before_in_eq_fetched 2 rfl (fun _ => rfl) (fun _ _ _ => rfl)
      (fun t => by rw [after_weight]; unfold Dat.blockOf blockAt; rw [dat_A]; try rfl) t d).trans
    (by unfold Dat.fetched Dat.blockOf blockAt; rw [dat_A]; try rfl)

/-- The body at any grid point meets the pipeline's obligation. -/
theorem body_obligation (c : Dev nD) :
    BodyObligation (dat (F := F) V c) (defs₀ (F := F)) Variants.none () Set.univ := fun t => by
  rw [bigSep_W1, bigSep_W1]
  show iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d)))
    ⊢ wp frame (wpE (defs₀ (F := F)) Variants.none c none) Set.univ (bodyAt1 t) (fun _ =>
      iprop((dat V c).Φ t.succ ∗ (dat V c).owesAt () t.succ
        ∗ owns (c : Thread nD τ) (st1_0 t) fullShare ((dat V c).after 0 t)
        ∗ owns (c : Thread nD τ) (st1_1 t) fullShare ((dat V c).after 1 t)
        ∗ owns (c : Thread nD τ) (st1_2 t) fullShare ((dat V c).after 2 t)
        ∗ owns (c : Thread nD τ) (st1_3 t) fullShare ((dat V c).after 3 t)
        ∗ owns (c : Thread nD τ) (st1_4 t) fullShare ((dat V c).after 4 t)))
  simp only [before_agg, before_bias, before_weight]
  rw [show (dat V c).Φ t.succ = (dat V c).Φ t.castSucc from rfl,
    show (dat V c).owesAt () t.succ = (dat V c).owesAt () t.castSucc from rfl,
    after_agg, after_bias, after_weight, after_hidden, after_projected]
  iintro ⟨HΦ, Ho, ⟨%d0, H0⟩, ⟨%d1, H1⟩, ⟨%d2, H2⟩, ⟨%d3, H3⟩, ⟨%d4, H4⟩⟩
  unfold bodyAt1
  iapply (body_triple c Set.univ _ _ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

end Cert.KernelIdeal.Hidden

end
-- ==== Proof.KernelIdeal.Head.lean ====
/-
  Region 2 of the kernel program: one grid point takes a 2000-row block of the second aggregation, adds the second
  bias row and clamps at zero; adds to it the residual (the first hidden layer's block times the residual weights,
  plus the residual bias row) — the node features' block, stored over output block 9 —; then multiplies the features
  by the first head matrix, adds its bias row, clamps at zero, multiplies by the second head matrix and adds its
  bias (the score column's block, stored over output block 10).
  Stated at ANY contents `V` of the core's buffers when the region is entered: what the point's staging buffers hold
  after the body, the body's triple, the pipeline's proof data and the body obligation at every grid point.
-/
import proofs.«151933_j70214125355147_1_alg».proof.Proof.Gen.KernelIdeal.Launch
import proofs.«151933_j70214125355147_1_alg».proof.Proof.Gen.KernelIdeal.Skeleton
import proofs.«151933_j70214125355147_1_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w`'s array that grid point `t` works on, read off the array as the region finds it. -/
def blockAt (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The whole-buffer rectangles the body reads and writes through. -/
abbrev narrowRect : Rect S2000x128 := Rect.unit (s := S2000x128) ![0, 0] S2000x128.size inb_S2000x128_S2000x128_0_0
abbrev rowRect : Rect S1x128 := Rect.unit (s := S1x128) ![0, 0] S1x128.size inb_S1x128_S1x128_0_0
abbrev wideRect : Rect S2000x512 := Rect.unit (s := S2000x512) ![0, 0] S2000x512.size inb_S2000x512_S2000x512_0_0
abbrev wresRect : Rect S512x128 := Rect.unit (s := S512x128) ![0, 0] S512x128.size inb_S512x128_S512x128_0_0
abbrev wfc1Rect : Rect S128x256 := Rect.unit (s := S128x256) ![0, 0] S128x256.size inb_S128x256_S128x256_0_0
abbrev row256Rect : Rect S1x256 := Rect.unit (s := S1x256) ![0, 0] S1x256.size inb_S1x256_S1x256_0_0
abbrev wfc2Rect : Rect S256x1 := Rect.unit (s := S256x1) ![0, 0] S256x1.size inb_S256x1_S256x1_0_0
abbrev unitRect : Rect S1x1 := Rect.unit (s := S1x1) ![0, 0] S1x1.size inb_S1x1_S1x1_0_0
abbrev colRect : Rect S2000x1 := Rect.unit (s := S2000x1) ![0, 0] S2000x1.size inb_S2000x1_S2000x1_0_0

/-- The node features' block, over the whole buffer. -/
def features (g : Vec F S2000x128 .f32) (b : Vec F S1x128 .f32) (x : Vec F S2000x512 .f32) (wr : Vec F S512x128 .f32) (br : Vec F S1x128 .f32) : Vec F S2000x128 .f32 :=
  View.canon [⟨narrowRect, k2_pay2 (View.ld g narrowRect) (View.ld b rowRect) (View.ld x wideRect) (View.ld wr wresRect) (View.ld br rowRect)⟩]

/-- The score column's block, over the whole buffer. -/
def score (g : Vec F S2000x128 .f32) (b : Vec F S1x128 .f32) (x : Vec F S2000x512 .f32) (wr : Vec F S512x128 .f32) (br : Vec F S1x128 .f32) (w1 : Vec F S128x256 .f32) (b1 : Vec F S1x256 .f32) (w2 : Vec F S256x1 .f32) (b2 : Vec F S1x1 .f32) : Vec F S2000x1 .f32 :=
  View.canon [⟨colRect, k2_pay1 (k2_pay3 (View.ld g narrowRect) (View.ld b rowRect) (View.ld x wideRect) (View.ld wr wresRect) (View.ld br rowRect) (View.ld w1 wfc1Rect) (View.ld b1 row256Rect) (View.ld w2 wfc2Rect)) (View.ld b2 unitRect)⟩]

theorem features_covers (p : Vec F S2000x128 .f32) (y : S2000x128.Idx) :
    ∃ pc ∈ ([⟨narrowRect, p⟩] : List (View.Piece (Elt F) S2000x128 .f32)), y ∈ pc.1.set :=
  View.cover_of_tiled [⟨narrowRect, p⟩] S2000x128.size (by rfl) y
theorem score_covers (p : Vec F S2000x1 .f32) (y : S2000x1.Idx) :
    ∃ pc ∈ ([⟨colRect, p⟩] : List (View.Piece (Elt F) S2000x1 .f32)), y ∈ pc.1.set :=
  View.cover_of_tiled [⟨colRect, p⟩] S2000x1.size (by rfl) y

set_option maxHeartbeats 2000000 in
/-- The body on whole staging memrefs: with the nine inputs' buffers at given contents and the two outputs' at anything,
    it runs to its end leaving the inputs as they were and the outputs at `features …` and `score …`. -/
theorem body_triple (c : Dev nD) (E : Set ℕ) (i : grid2.Coords)
    (a1 : Memref sig .tc .vmem S2000x128 .f32) (h1 : a1.IsWhole) (a2 : Memref sig .tc .vmem S1x128 .f32) (h2 : a2.IsWhole) (a3 : Memref sig .tc .vmem S2000x512 .f32) (h3 : a3.IsWhole) (a4 : Memref sig .tc .vmem S512x128 .f32) (h4 : a4.IsWhole) (a5 : Memref sig .tc .vmem S1x128 .f32) (h5 : a5.IsWhole) (a6 : Memref sig .tc .vmem S128x256 .f32) (h6 : a6.IsWhole) (a7 : Memref sig .tc .vmem S1x256 .f32) (h7 : a7.IsWhole) (a8 : Memref sig .tc .vmem S256x1 .f32) (h8 : a8.IsWhole) (a9 : Memref sig .tc .vmem S1x1 .f32) (h9 : a9.IsWhole) (a10 : Memref sig .tc .vmem S2000x128 .f32) (h10 : a10.IsWhole) (a11 : Memref sig .tc .vmem S2000x1 .f32) (h11 : a11.IsWhole)
    (g : Vec F S2000x128 .f32) (b : Vec F S1x128 .f32) (x : Vec F S2000x512 .f32) (wr : Vec F S512x128 .f32) (br : Vec F S1x128 .f32) (w1 : Vec F S128x256 .f32) (b1 : Vec F S1x256 .f32) (w2 : Vec F S256x1 .f32) (b2 : Vec F S1x1 .f32) (K : PUnit → sProp 𝕄) :
    iprop(owns (c : Thread nD τ) a1 fullShare g ∗ owns (c : Thread nD τ) a2 fullShare b ∗ owns (c : Thread nD τ) a3 fullShare x ∗ owns (c : Thread nD τ) a4 fullShare wr ∗ owns (c : Thread nD τ) a5 fullShare br ∗ owns (c : Thread nD τ) a6 fullShare w1 ∗ owns (c : Thread nD τ) a7 fullShare b1 ∗ owns (c : Thread nD τ) a8 fullShare w2 ∗ owns (c : Thread nD τ) a9 fullShare b2
        ∗ (∃ d, owns (c : Thread nD τ) a10 fullShare d) ∗ (∃ d, owns (c : Thread nD τ) a11 fullShare d)
        ∗ (iprop(owns (c : Thread nD τ) a1 fullShare g ∗ owns (c : Thread nD τ) a2 fullShare b ∗ owns (c : Thread nD τ) a3 fullShare x ∗ owns (c : Thread nD τ) a4 fullShare wr ∗ owns (c : Thread nD τ) a5 fullShare br ∗ owns (c : Thread nD τ) a6 fullShare w1 ∗ owns (c : Thread nD τ) a7 fullShare b1 ∗ owns (c : Thread nD τ) a8 fullShare w2 ∗ owns (c : Thread nD τ) a9 fullShare b2
            ∗ owns (c : Thread nD τ) a10 fullShare (features g b x wr br) ∗ owns (c : Thread nD τ) a11 fullShare (score g b x wr br w1 b1 w2 b2)) -∗ K ⟨⟩))
      ⊢ wp frame (wpE (defs₀ (F := F)) Variants.none c none) E (cc2__stage3_kernel i a1 h1 a2 h2 a3 h3 a4 h4 a5 h5 a6 h6 a7 h7 a8 h8 a9 h9 a10 h10 a11 h11) K := by
  simp only [cc2__stage3_kernel_eq_skeleton]; unfold cc2__stage3_kernel_skel
  simp only [k2_part1_eq_skeleton]; unfold k2_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf1; subst hf2; subst hf3; subst hf4; subst hf5; subst hf6; subst hf7; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (features_covers _)
  iexists _; isplitr
  swap; · iexact H11
  ipureintro
  exact View.read_writes_eq_canon _ _ _ (score_covers _)

/-- The proof data of the region's pipeline on core `c`: the arrays as the region finds them; after the body at point
    `t` each input's buffer still at its block and the outputs' at the features' block and the score column's block;
    the invariant is the scoped rest and the generator register, untouched; nothing is owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => features (blockAt V c 0 t) (blockAt V c 1 t) (blockAt V c 2 t) (blockAt V c 3 t) (blockAt V c 4 t)
    | ⟨10, _⟩ => score (blockAt V c 0 t) (blockAt V c 1 t) (blockAt V c 2 t) (blockAt V c 3 t) (blockAt V c 4 t) (blockAt V c 5 t) (blockAt V c 6 t) (blockAt V c 7 t) (blockAt V c 8 t)
  Φ _ := Pipeline.ΦA spec2 c
  q _ := fullShare
  owed _ := 0

theorem dat_A (c : Dev nD) (w : Fin cfg2.W) : (dat V c).A w = V c (Pipeline.arrRef spec2 w) := by
  dsimp only [dat]
theorem after_agg (c : Dev nD) (t : Fin cfg2.N) : (dat V c).after 0 t = blockAt V c 0 t := by dsimp only [dat]
theorem after_bias (c : Dev nD) (t : Fin cfg2.N) : (dat V c).after 1 t = blockAt V c 1 t := by dsimp only [dat]
theorem after_hidden (c : Dev nD) (t : Fin cfg2.N) : (dat V c).after 2 t = blockAt V c 2 t := by dsimp only [dat]
theorem after_wres (c : Dev nD) (t : Fin cfg2.N) : (dat V c).after 3 t = blockAt V c 3 t := by dsimp only [dat]
theorem after_bres (c : Dev nD) (t : Fin cfg2.N) : (dat V c).after 4 t = blockAt V c 4 t := by dsimp only [dat]
theorem after_wfc1 (c : Dev nD) (t : Fin cfg2.N) : (dat V c).after 5 t = blockAt V c 5 t := by dsimp only [dat]
theorem after_bfc1 (c : Dev nD) (t : Fin cfg2.N) : (dat V c).after 6 t = blockAt V c 6 t := by dsimp only [dat]
theorem after_wfc2 (c : Dev nD) (t : Fin cfg2.N) : (dat V c).after 7 t = blockAt V c 7 t := by dsimp only [dat]
theorem after_bfc2 (c : Dev nD) (t : Fin cfg2.N) : (dat V c).after 8 t = blockAt V c 8 t := by dsimp only [dat]
theorem after_features (c : Dev nD) (t : Fin cfg2.N) :
    (dat V c).after 9 t = features (blockAt V c 0 t) (blockAt V c 1 t) (blockAt V c 2 t) (blockAt V c 3 t) (blockAt V c 4 t) := by dsimp only [dat]
theorem after_score (c : Dev nD) (t : Fin cfg2.N) :
    (dat V c).after 10 t = score (blockAt V c 0 t) (blockAt V c 1 t) (blockAt V c 2 t) (blockAt V c 3 t) (blockAt V c 4 t) (blockAt V c 5 t) (blockAt V c 6 t) (blockAt V c 7 t) (blockAt V c 8 t) := by dsimp only [dat]

/-- An input's staging buffer holds its block at every point, whether the point fetched it or an earlier one did. -/
theorem before_agg (c : Dev nD) (t : Fin cfg2.N) (d) : (dat V c).before 0 t d = blockAt V c 0 t :=
  ((dat V c).before_in_eq_fetched 0 rfl (fun _ => rfl) (fun _ _ _ => rfl)
      (fun t => by rw [after_agg]; unfold Dat.blockOf blockAt; rw [dat_A]; try rfl) t d).trans
    (by unfold Dat.fetched Dat.blockOf blockAt; rw [dat_A]; try rfl)
theorem before_bias (c : Dev nD) (t : Fin cfg2.N) (d) : (dat V c).before 1 t d = blockAt V c 1 t :=
  ((dat V c).before_in_eq_fetched 1 rfl (fun _ => rfl) (fun _ _ _ => rfl)
      (fun t => by rw [after_bias]; unfold Dat.blockOf blockAt; rw [dat_A]; try rfl) t d).trans
    (by unfold Dat.fetched Dat.blockOf blockAt; rw [dat_A]; try rfl)
theorem before_hidden (c : Dev nD) (t : Fin cfg2.N) (d) : (dat V c).before 2 t d = blockAt V c 2 t :=
  ((dat V c).before_in_eq_fetched 2 rfl (fun _ => rfl) (fun _ _ _ => rfl)
      (fun t => by rw [after_hidden]; unfold Dat.blockOf blockAt; rw [dat_A]; try rfl) t d).trans
    (by unfold Dat.fetched Dat.blockOf blockAt; rw [dat_A]; try rfl)
theorem before_wres (c : Dev nD) (t : Fin cfg2.N) (d) : (dat V c).before 3 t d = blockAt V c 3 t :=
  ((dat V c).before_in_eq_fetched 3 rfl (fun _ => rfl) (fun _ _ _ => rfl)
      (fun t => by rw [after_wres]; unfold Dat.blockOf blockAt; rw [dat_A]; try rfl) t d).trans
    (by unfold Dat.fetched Dat.blockOf blockAt; rw [dat_A]; try rfl)
theorem before_bres (c : Dev nD) (t : Fin cfg2.N) (d) : (dat V c).before 4 t d = blockAt V c 4 t :=
  ((dat V c).before_in_eq_fetched 4 rfl (fun _ => rfl) (fun _ _ _ => rfl)
      (fun t => by rw [after_bres]; unfold Dat.blockOf blockAt; rw [dat_A]; try rfl) t d).trans
    (by unfold Dat.fetched Dat.blockOf blockAt; rw [dat_A]; try rfl)
theorem before_wfc1 (c : Dev nD) (t : Fin cfg2.N) (d) : (dat V c).before 5 t d = blockAt V c 5 t :=
  ((dat V c).before_in_eq_fetched 5 rfl (fun _ => rfl) (fun _ _ _ => rfl)
      (fun t => by rw [after_wfc1]; unfold Dat.blockOf blockAt; rw [dat_A]; try rfl) t d).trans
    (by unfold Dat.fetched Dat.blockOf blockAt; rw [dat_A]; try rfl)
theorem before_bfc1 (c : Dev nD) (t : Fin cfg2.N) (d) : (dat V c).before 6 t d = blockAt V c 6 t :=
  ((dat V c).before_in_eq_fetched 6 rfl (fun _ => rfl) (fun _ _ _ => rfl)
      (fun t => by rw [after_bfc1]; unfold Dat.blockOf blockAt; rw [dat_A]; try rfl) t d).trans
    (by unfold Dat.fetched Dat.blockOf blockAt; rw [dat_A]; try rfl)
theorem before_wfc2 (c : Dev nD) (t : Fin cfg2.N) (d) : (dat V c).before 7 t d = blockAt V c 7 t :=
  ((dat V c).before_in_eq_fetched 7 rfl (fun _ => rfl) (fun _ _ _ => rfl)
      (fun t => by rw [after_wfc2]; unfold Dat.blockOf blockAt; rw [dat_A]; try rfl) t d).trans
    (by unfold Dat.fetched Dat.blockOf blockAt; rw [dat_A]; try rfl)
theorem before_bfc2 (c : Dev nD) (t : Fin cfg2.N) (d) : (dat V c).before 8 t d = blockAt V c 8 t :=
  ((dat V c).before_in_eq_fetched 8 rfl (fun _ => rfl) (fun _ _ _ => rfl)
      (fun t => by rw [after_bfc2]; unfold Dat.blockOf blockAt; rw [dat_A]; try rfl) t d).trans
    (by unfold Dat.fetched Dat.blockOf blockAt; rw [dat_A]; try rfl)

/-- The body at any grid point meets the pipeline's obligation. -/
theorem body_obligation (c : Dev nD) :
    BodyObligation (dat (F := F) V c) (defs₀ (F := F)) Variants.none () Set.univ := fun t => by
  rw [bigSep_W2, bigSep_W2]
  show iprop((dat V c).Φ t.castSucc ∗ (dat V c).owesAt () t.castSucc
      ∗ (∃ d, owns (c : Thread nD τ) (st2_0 t) fullShare ((dat V c).before 0 t d))
      ∗ (∃ d, owns (c : Thread nD τ) (st2_1 t) fullShare ((dat V c).before 1 t d))
      ∗ (∃ d, owns (c : Thread nD τ) (st2_2 t) fullShare ((dat V c).before 2 t d))
      ∗ (∃ d, owns (c : Thread nD τ) (st2_3 t) fullShare ((dat V c).before 3 t d))
      ∗ (∃ d, owns (c : Thread nD τ) (st2_4 t) fullShare ((dat V c).before 4 t d))
      ∗ (∃ d, owns (c : Thread nD τ) (st2_5 t) fullShare ((dat V c).before 5 t d))
      ∗ (∃ d, owns (c : Thread nD τ) (st2_6 t) fullShare ((dat V c).before 6 t d))
      ∗ (∃ d, owns (c : Thread nD τ) (st2_7 t) fullShare ((dat V c).before 7 t d))
      ∗ (∃ d, owns (c : Thread nD τ) (st2_8 t) fullShare ((dat V c).before 8 t d))
      ∗ (∃ d, owns (c : Thread nD τ) (st2_9 t) fullShare ((dat V c).before 9 t d))
      ∗ (∃ d, owns (c : Thread nD τ) (st2_10 t) fullShare ((dat V c).before 10 t d)))
    ⊢ wp frame (wpE (defs₀ (F := F)) Variants.none c none) Set.univ (bodyAt2 t) (fun _ =>
      iprop((dat V c).Φ t.succ ∗ (dat V c).owesAt () t.succ
        ∗ owns (c : Thread nD τ) (st2_0 t) fullShare ((dat V c).after 0 t)
        ∗ owns (c : Thread nD τ) (st2_1 t) fullShare ((dat V c).after 1 t)
        ∗ owns (c : Thread nD τ) (st2_2 t) fullShare ((dat V c).after 2 t)
        ∗ owns (c : Thread nD τ) (st2_3 t) fullShare ((dat V c).after 3 t)
        ∗ owns (c : Thread nD τ) (st2_4 t) fullShare ((dat V c).after 4 t)
        ∗ owns (c : Thread nD τ) (st2_5 t) fullShare ((dat V c).after 5 t)
        ∗ owns (c : Thread nD τ) (st2_6 t) fullShare ((dat V c).after 6 t)
        ∗ owns (c : Thread nD τ) (st2_7 t) fullShare ((dat V c).after 7 t)
        ∗ owns (c : Thread nD τ) (st2_8 t) fullShare ((dat V c).after 8 t)
        ∗ owns (c : Thread nD τ) (st2_9 t) fullShare ((dat V c).after 9 t)
        ∗ owns (c : Thread nD τ) (st2_10 t) fullShare ((dat V c).after 10 t)))
  simp only [before_agg, before_bias, before_hidden, before_wres, before_bres, before_wfc1, before_bfc1, before_wfc2, before_bfc2]
  rw [show (dat V c).Φ t.succ = (dat V c).Φ t.castSucc from rfl,
    show (dat V c).owesAt () t.succ = (dat V c).owesAt () t.castSucc from rfl,
    after_agg, after_bias, after_hidden, after_wres, after_bres, after_wfc1, after_bfc1, after_wfc2, after_bfc2, after_features, after_score]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  unfold bodyAt2
  iapply (body_triple c Set.univ _ _ _ _ _ _ _ _ _ _ _ _ _ _ _ _ _ _ _ _ _ _ _ (blockAt V c 0 t) (blockAt V c 1 t) (blockAt V c 2 t) (blockAt V c 3 t) (blockAt V c 4 t) (blockAt V c 5 t) (blockAt V c 6 t) (blockAt V c 7 t) (blockAt V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Head

end
-- ==== Proof.KernelIdeal.Threads.lean ====
/-
  The kernel program's @main as a thread of eight items — three stretches of host operations, region 0, a stretch,
  region 1, a stretch, region 2 — with the contents of the core's unscoped buffers named between any two items.
  What region 0 leaves in its result array is the 25 written-back blocks folded over the array; the stretch after it
  reads that; region 1's two result arrays are stated over the contents so obtained, and region 2's over those. With
  these contents the three regions are segments of @main that meet the thread states of the generated conditional
  frame, which gives the frame claim; the same launch, read at every unscoped buffer instead of at the arguments only,
  gives every final buffer at the last contents, the two result arrays among them.
-/
import proofs.«151933_j70214125355147_1_alg».proof.Proof.Gen.KernelIdeal.Regions
import proofs.«151933_j70214125355147_1_alg».proof.Proof.KernelIdeal.Project
import proofs.«151933_j70214125355147_1_alg».proof.Proof.KernelIdeal.Hidden
import proofs.«151933_j70214125355147_1_alg».proof.Proof.KernelIdeal.Head
import Idealize.ShloMosaic.Lib.Pipeline.RegionsLoop
import Idealize.ShloMosaic.Lib.Pipeline.Kit

set_option maxRecDepth 16384

noncomputable section

namespace Cert.KernelIdeal.Threads

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, region by region -/

/-- The contents region 0 is entered with, read at the TensorCore's references. -/
abbrev entry0 : (c : Dev nD) → (b : Ref sig .tc) → Buf (Elt F) ((c : Thread nD τ).loc b) := fun c b => V3 m c b

/-- The array region 0 leaves in its result: its written-back blocks folded over the array. -/
def projArr (c : Dev nD) : Buf (Elt F) ((c : Thread nD τ).loc main_v30) := (Project.dat (entry0 m) c).arrAt 2 cfg0.N

/-- The regions' results so far: region 0's. (Elsewhere the launch contents, which nothing reads.) -/
def outsA : Outs (F := F) := fun _ r c =>
  if h : r = main_v30 then h ▸ projArr m c else m ((c : Thread nD τ).loc r)

theorem outsA_proj (J : ℕ) (c : Dev nD) : outsA m J main_v30 c = projArr m c := by
  unfold outsA; rw [dif_pos rfl]

/-- The contents region 1 is entered with. -/
abbrev entry1 : (c : Dev nD) → (b : Ref sig .tc) → Buf (Elt F) ((c : Thread nD τ).loc b) := fun c b => V5 m (outsA m) c b

/-- The two arrays region 1 leaves: the hidden layer and its projection. -/
def hiddenArr (c : Dev nD) : Buf (Elt F) ((c : Thread nD τ).loc main_v45_0) := (Hidden.dat (entry1 m) c).arrAt 3 cfg1.N
def projectedArr (c : Dev nD) : Buf (Elt F) ((c : Thread nD τ).loc main_v45_1) := (Hidden.dat (entry1 m) c).arrAt 4 cfg1.N

/-- The regions' results so far: region 0's and region 1's. -/
def outsB : Outs (F := F) := fun J r c =>
  if h : r = main_v45_0 then h ▸ hiddenArr m c
  else if h : r = main_v45_1 then h ▸ projectedArr m c
  else outsA m J r c

theorem outsB_proj (J : ℕ) (c : Dev nD) : outsB m J main_v30 c = projArr m c := by
  unfold outsB; rw [dif_neg (by decide), dif_neg (by decide)]; exact outsA_proj m J c
theorem outsB_hidden (J : ℕ) (c : Dev nD) : outsB m J main_v45_0 c = hiddenArr m c := by
  unfold outsB; rw [dif_pos rfl]
theorem outsB_projected (J : ℕ) (c : Dev nD) : outsB m J main_v45_1 c = projectedArr m c := by
  unfold outsB; rw [dif_neg (by decide), dif_pos rfl]

/-- The contents region 2 is entered with. -/
abbrev entry2 : (c : Dev nD) → (b : Ref sig .tc) → Buf (Elt F) ((c : Thread nD τ).loc b) := fun c b => V7 m (outsB m) c b

/-- The two arrays region 2 leaves: the node features and the score column. -/
def featuresArr (c : Dev nD) : Buf (Elt F) ((c : Thread nD τ).loc main_v63_0) := (Head.dat (entry2 m) c).arrAt 9 cfg2.N
def scoreArr (c : Dev nD) : Buf (Elt F) ((c : Thread nD τ).loc main_v63_1) := (Head.dat (entry2 m) c).arrAt 10 cfg2.N

/-- All the regions' results. -/
def outs : Outs (F := F) := fun J r c =>
  if h : r = main_v63_0 then h ▸ featuresArr m c
  else if h : r = main_v63_1 then h ▸ scoreArr m c
  else outsB m J r c

theorem outs_proj (J : ℕ) (c : Dev nD) : outs m J main_v30 c = projArr m c := by
  unfold outs; rw [dif_neg (by decide), dif_neg (by decide)]; exact outsB_proj m J c
theorem outs_hidden (J : ℕ) (c : Dev nD) : outs m J main_v45_0 c = hiddenArr m c := by
  unfold outs; rw [dif_neg (by decide), dif_neg (by decide)]; exact outsB_hidden m J c
theorem outs_projected (J : ℕ) (c : Dev nD) : outs m J main_v45_1 c = projectedArr m c := by
  unfold outs; rw [dif_neg (by decide), dif_neg (by decide)]; exact outsB_projected m J c
theorem outs_features (J : ℕ) (c : Dev nD) : outs m J main_v63_0 c = featuresArr m c := by
  unfold outs; rw [dif_pos rfl]
theorem outs_score (J : ℕ) (c : Dev nD) : outs m J main_v63_1 c = scoreArr m c := by
  unfold outs; rw [dif_neg (by decide), dif_pos rfl]

/-! ## The contents between items do not depend on results not yet made -/

theorem V4_eq (c : Dev nD) : V4 m (outs m) c = V4 m (outsA m) c := by
  show Function.update (V3 m c) main_v30 (outs m 4 main_v30 c) = Function.update (V3 m c) main_v30 (outsA m 4 main_v30 c)
  rw [outs_proj, outsA_proj]
theorem V4B_eq (c : Dev nD) : V4 m (outsB m) c = V4 m (outsA m) c := by
  show Function.update (V3 m c) main_v30 (outsB m 4 main_v30 c) = Function.update (V3 m c) main_v30 (outsA m 4 main_v30 c)
  rw [outsB_proj, outsA_proj]
theorem V5_eq (c : Dev nD) : V5 m (outs m) c = V5 m (outsA m) c := by
  show StableHlo.after hostOps1 (V4 m (outs m) c) = StableHlo.after hostOps1 (V4 m (outsA m) c)
  rw [V4_eq]
theorem V5B_eq (c : Dev nD) : V5 m (outsB m) c = V5 m (outsA m) c := by
  show StableHlo.after hostOps1 (V4 m (outsB m) c) = StableHlo.after hostOps1 (V4 m (outsA m) c)
  rw [V4B_eq]
theorem V6_eq (c : Dev nD) : V6 m (outs m) c = V6 m (outsB m) c := by
  show Function.update (Function.update (V5 m (outs m) c) main_v45_0 (outs m 6 main_v45_0 c)) main_v45_1 (outs m 6 main_v45_1 c)
    = Function.update (Function.update (V5 m (outsB m) c) main_v45_0 (outsB m 6 main_v45_0 c)) main_v45_1 (outsB m 6 main_v45_1 c)
  rw [V5_eq, V5B_eq, outs_hidden, outs_projected, outsB_hidden, outsB_projected]
theorem V7_eq (c : Dev nD) : V7 m (outs m) c = V7 m (outsB m) c := by
  show StableHlo.after hostOps2 (V6 m (outs m) c) = StableHlo.after hostOps2 (V6 m (outsB m) c)
  rw [V6_eq]

/-- Off region 1's results, the contents after it are the contents it was entered with. -/
theorem V6B_of (c : Dev nD) (r : Ref sig .tc) (h : r ∉ ([main_v45_0, main_v45_1] : List (Ref sig .tc))) :
    V6 m (outsB m) c r = V5 m (outsA m) c r :=
  (V6_of m (outsB m) c r h).trans (congrFun (V5B_eq m c) _)
/-- Off region 2's results, the contents after it are the contents it was entered with. -/
theorem V8_of' (c : Dev nD) (r : Ref sig .tc) (h : r ∉ ([main_v63_0, main_v63_1] : List (Ref sig .tc))) :
    V8 m (outs m) c r = V7 m (outsB m) c r :=
  (V8_of m (outs m) c r h).trans (congrFun (V7_eq m c) _)

/-! ## The proof data, and what each region's exit needs of the contents -/

/-- No pallas_call has a prefetched table. -/
abbrev adm : (p : Fin 3) → (pcfgs (F := F) p).Adm := fun p => (cfgs p).toPCfg_adm

/-- Every pipeline's proof data, each at the contents its region is entered with. -/
def pdats : (p : Fin 3) → (c : Dev nD) → Dat τ (Elt F) Unit ℕ (UR sig nD τ) ℕ (cfgs p) c
  | ⟨0, _⟩ => fun c => Project.dat (entry0 m) c
  | ⟨1, _⟩ => fun c => Hidden.dat (entry1 m) c
  | ⟨2, _⟩ => fun c => Head.dat (entry2 m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev rest (c : Dev nD) : sProp 𝕄 := iprop((∃ r, prngReg c r) ∗ ∃ W, owes (c : Thread nD τ) (0 : CellTallies nD τ sig Unit) W)

/-- Region 0's arrays after it: the two inputs as entered, the result at the folded blocks. -/
theorem left0 (c : Dev nD) : ∀ w, (pdats m 0 c).arrAt w cfg0.N = (fun b => V4 m (outsA m) c b) (Pipeline.arrRef spec0 w)
  | ⟨0, _⟩ => ((Project.dat (entry0 m) c).arrAt_in 0 rfl _).trans ((Project.dat_A (entry0 m) c 0).trans (V4_of m (outsA m) c main_arg0 (by decide)).symm)
  | ⟨1, _⟩ => ((Project.dat (entry0 m) c).arrAt_in 1 rfl _).trans ((Project.dat_A (entry0 m) c 1).trans (V4_of m (outsA m) c main_arg2 (by decide)).symm)
  | ⟨2, _⟩ => by
      show projArr m c = Function.update (V3 m c) main_v30 (outsA m 4 main_v30 c) main_v30
      rw [Function.update_self, outsA_proj]
theorem kept0 (c : Dev nD) : ∀ b, b ∉ Finset.univ.image (Pipeline.arrRef spec0) → (fun b => V4 m (outsA m) c b) b = entry0 m c b :=
  fun b hb => V4_of m (outsA m) c b fun hmem =>
    hb (Finset.mem_image.mpr ⟨2, Finset.mem_univ _, (List.mem_singleton.mp hmem).symm⟩)

/-- Region 1's arrays after it. -/
theorem left1 (c : Dev nD) : ∀ w, (pdats m 1 c).arrAt w cfg1.N = (fun b => V6 m (outsB m) c b) (Pipeline.arrRef spec1 w)
  | ⟨0, _⟩ => ((Hidden.dat (entry1 m) c).arrAt_in 0 rfl _).trans ((Hidden.dat_A (entry1 m) c 0).trans (V6B_of m c main_v43 (by decide)).symm)
  | ⟨1, _⟩ => ((Hidden.dat (entry1 m) c).arrAt_in 1 rfl _).trans ((Hidden.dat_A (entry1 m) c 1).trans (V6B_of m c main_v44 (by decide)).symm)
  | ⟨2, _⟩ => ((Hidden.dat (entry1 m) c).arrAt_in 2 rfl _).trans ((Hidden.dat_A (entry1 m) c 2).trans (V6B_of m c main_arg4 (by decide)).symm)
  | ⟨3, _⟩ => by
      show hiddenArr m c = Function.update (Function.update (V5 m (outsB m) c) main_v45_0 (outsB m 6 main_v45_0 c)) main_v45_1 (outsB m 6 main_v45_1 c) main_v45_0
      rw [Function.update_of_ne (StableHlo.devRef_ne_of_ne (by decide) : (Proc.devRef .tc main_v45_0 : DevRef τ sig) ≠ Proc.devRef .tc main_v45_1),
        Function.update_self, outsB_hidden]
  | ⟨4, _⟩ => by
      show projectedArr m c = Function.update (Function.update (V5 m (outsB m) c) main_v45_0 (outsB m 6 main_v45_0 c)) main_v45_1 (outsB m 6 main_v45_1 c) main_v45_1
      rw [Function.update_self, outsB_projected]
theorem kept1 (c : Dev nD) : ∀ b, b ∉ Finset.univ.image (Pipeline.arrRef spec1) → (fun b => V6 m (outsB m) c b) b = entry1 m c b :=
  fun b hb => V6B_of m c b fun hmem => by
    rcases List.mem_cons.mp hmem with h | h
    · exact hb (Finset.mem_image.mpr ⟨3, Finset.mem_univ _, h.symm⟩)
    · exact hb (Finset.mem_image.mpr ⟨4, Finset.mem_univ _, (List.mem_singleton.mp h).symm⟩)

set_option maxHeartbeats 4000000 in
/-- Region 2's arrays after it. -/
theorem left2 (c : Dev nD) : ∀ w, (pdats m 2 c).arrAt w cfg2.N = (fun b => V8 m (outs m) c b) (Pipeline.arrRef spec2 w)
  | ⟨0, _⟩ => ((Head.dat (entry2 m) c).arrAt_in 0 rfl _).trans ((Head.dat_A (entry2 m) c 0).trans (V8_of' m c main_v58 (by decide)).symm)
  | ⟨1, _⟩ => ((Head.dat (entry2 m) c).arrAt_in 1 rfl _).trans ((Head.dat_A (entry2 m) c 1).trans (V8_of' m c main_v59 (by decide)).symm)
  | ⟨2, _⟩ => ((Head.dat (entry2 m) c).arrAt_in 2 rfl _).trans ((Head.dat_A (entry2 m) c 2).trans (V8_of' m c main_v45_0 (by decide)).symm)
  | ⟨3, _⟩ => ((Head.dat (entry2 m) c).arrAt_in 3 rfl _).trans ((Head.dat_A (entry2 m) c 3).trans (V8_of' m c main_arg6 (by decide)).symm)
  | ⟨4, _⟩ => ((Head.dat (entry2 m) c).arrAt_in 4 rfl _).trans ((Head.dat_A (entry2 m) c 4).trans (V8_of' m c main_v60 (by decide)).symm)
  | ⟨5, _⟩ => ((Head.dat (entry2 m) c).arrAt_in 5 rfl _).trans ((Head.dat_A (entry2 m) c 5).trans (V8_of' m c main_arg8 (by decide)).symm)
  | ⟨6, _⟩ => ((Head.dat (entry2 m) c).arrAt_in 6 rfl _).trans ((Head.dat_A (entry2 m) c 6).trans (V8_of' m c main_v61 (by decide)).symm)
  | ⟨7, _⟩ => ((Head.dat (entry2 m) c).arrAt_in 7 rfl _).trans ((Head.dat_A (entry2 m) c 7).trans (V8_of' m c main_arg10 (by decide)).symm)
  | ⟨8, _⟩ => ((Head.dat (entry2 m) c).arrAt_in 8 rfl _).trans ((Head.dat_A (entry2 m) c 8).trans (V8_of' m c main_v62 (by decide)).symm)
  | ⟨9, _⟩ => by
      show featuresArr m c = Function.update (Function.update (V7 m (outs m) c) main_v63_0 (outs m 8 main_v63_0 c)) main_v63_1 (outs m 8 main_v63_1 c) main_v63_0
      rw [Function.update_of_ne (StableHlo.devRef_ne_of_ne (by decide) : (Proc.devRef .tc main_v63_0 : DevRef τ sig) ≠ Proc.devRef .tc main_v63_1),
        Function.update_self, outs_features]
  | ⟨10, _⟩ => by
      show scoreArr m c = Function.update (Function.update (V7 m (outs m) c) main_v63_0 (outs m 8 main_v63_0 c)) main_v63_1 (outs m 8 main_v63_1 c) main_v63_1
      rw [Function.update_self, outs_score]
theorem kept2 (c : Dev nD) : ∀ b, b ∉ Finset.univ.image (Pipeline.arrRef spec2) → (fun b => V8 m (outs m) c b) b = entry2 m c b :=
  fun b hb => V8_of' m c b fun hmem => by
    rcases List.mem_cons.mp hmem with h | h
    · exact hb (Finset.mem_image.mpr ⟨9, Finset.mem_univ _, h.symm⟩)
    · exact hb (Finset.mem_image.mpr ⟨10, Finset.mem_univ _, (List.mem_singleton.mp h).symm⟩)

/-! ## The regions as segments -/

set_option backward.isDefEq.respectTransparency.types false in
/-- Region 0 as a segment of @main: entered with every unscoped buffer at the contents before it, left with them at the
    contents after it; its arrays are split out of the unscoped buffers at the entry and put back, at what the pipeline
    leaves in them, at the exit; the generator register goes into the pipeline's invariant and comes back; nothing owed. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Project.body_obligation (entry0 m) c).loose
  hwaits := Pipeline.hwaits_of_owed_zero _ _ _ _ L lv 0 fun _ _ => rfl
  pre c := iprop(StableHlo.held (c : Thread nD τ) (Pipeline.ucRefs τ sig) (V3 m c) ∗ rest c)
  post c := iprop(StableHlo.held (c : Thread nD τ) (Pipeline.ucRefs τ sig) (V4 m (outsA m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (fun b => V4 m (outsA m) c b) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at the contents before it, left with them at the
    contents after it; its arrays are split out of the unscoped buffers at the entry and put back, at what the pipeline
    leaves in them, at the exit; the generator register goes into the pipeline's invariant and comes back; nothing owed. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Hidden.body_obligation (entry1 m) c).loose
  hwaits := Pipeline.hwaits_of_owed_zero _ _ _ _ L lv 1 fun _ _ => rfl
  pre c := iprop(StableHlo.held (c : Thread nD τ) (Pipeline.ucRefs τ sig) (V5 m (outsA m) c) ∗ rest c)
  post c := iprop(StableHlo.held (c : Thread nD τ) (Pipeline.ucRefs τ sig) (V6 m (outsB m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (fun b => V6 m (outsB m) c b) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of @main: entered with every unscoped buffer at the contents before it, left with them at the
    contents after it; its arrays are split out of the unscoped buffers at the entry and put back, at what the pipeline
    leaves in them, at the exit; the generator register goes into the pipeline's invariant and comes back; nothing owed. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Head.body_obligation (entry2 m) c).loose
  hwaits := Pipeline.hwaits_of_owed_zero _ _ _ _ L lv 2 fun _ _ => rfl
  pre c := iprop(StableHlo.held (c : Thread nD τ) (Pipeline.ucRefs τ sig) (V7 m (outsB m) c) ∗ rest c)
  post c := iprop(StableHlo.held (c : Thread nD τ) (Pipeline.ucRefs τ sig) (V8 m (outs m) c) ∗ rest c)
  X c := iprop(∃ r, prngReg c r)
  Y c := iprop(∃ r, prngReg c r)
  Z c := Pipeline.unscopedRest (Ix := Unit) (Name := ℕ) (U := UR sig nD τ) (Lvl := ℕ) spec2 c (entry2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (entry2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (entry2 m c) (fun b => V8 m (outs m) c b) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

variable (ρ : Dev nD → PrngReg)

/-- The launch's ghost state: the pipelines' cells and launch tokens, nothing else. -/
abbrev u₀ : UR sig nD τ := initOf (Pipeline.cells cfgs cellOf_inj) (Pipeline.launchToks cfgs cellOf_inj)

theorem launch_ghost : (ownU u₀ : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core besides its buffers makes the rest that rides along: the register at its launch
    state, nothing owed. -/
theorem rest_of_launch : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => rest (F := F) c) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => rest (F := F) c) : sProp 𝕄) :=
    bigSep_mono fun c _ => (show iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) ⊢ rest (F := F) c from by
      iintro ⟨-, HO, -, Hp, -⟩
      isplitl [Hp]; · iexists _; iexact Hp
      iexists ∅; iexact HO)
  iintro ⟨H, -⟩
  imodintro
  iapply hmono
  iexact H

theorem rest_owes (c : Dev nD) : rest (F := F) c ⊢ (iprop(∃ W, owes (c : Thread nD τ) (0 : CellTallies nD τ sig Unit) W) : sProp 𝕄) := by
  iintro ⟨-, HO⟩; iexact HO

/-- Each region's segment meets the thread states before and after it. -/
theorem enter0 (c : Dev nD) : iprop(StableHlo.held (c : Thread nD τ) (Pipeline.ucRefs τ sig) (V3 m c) ∗ rest (F := F) c) ⊢ (reg0 m).pre c := .rfl
theorem leave0 (c : Dev nD) : (reg0 m).post c ⊢ iprop(StableHlo.held (c : Thread nD τ) (Pipeline.ucRefs τ sig) (V4 m (outs m) c) ∗ rest (F := F) c) := by
  rw [V4_eq]; exact .rfl
theorem enter1 (c : Dev nD) : iprop(StableHlo.held (c : Thread nD τ) (Pipeline.ucRefs τ sig) (V5 m (outs m) c) ∗ rest (F := F) c) ⊢ (reg1 m).pre c := by
  rw [V5_eq]; exact .rfl
theorem leave1 (c : Dev nD) : (reg1 m).post c ⊢ iprop(StableHlo.held (c : Thread nD τ) (Pipeline.ucRefs τ sig) (V6 m (outs m) c) ∗ rest (F := F) c) := by
  rw [V6_eq]; exact .rfl
theorem enter2 (c : Dev nD) : iprop(StableHlo.held (c : Thread nD τ) (Pipeline.ucRefs τ sig) (V7 m (outs m) c) ∗ rest (F := F) c) ⊢ (reg2 m).pre c := by
  rw [V7_eq]; exact .rfl
theorem leave2 (c : Dev nD) : (reg2 m).post c ⊢ iprop(StableHlo.held (c : Thread nD τ) (Pipeline.ucRefs τ sig) (V8 m (outs m) c) ∗ rest (F := F) c) := .rfl

set_option backward.isDefEq.respectTransparency.types false in
/-- THE FRAME: from any memory with zero counters every weakly fair execution of @main terminates, nothing faulting, with
    every argument array as launched — the generated conditional frame at the three regions' segments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m (emb₁ : Emb (UR sig nD τ) 𝕄) () 𝒱₀ L lv (fun _ _ => rfl) ρ (outs m) (pdats m)
    (0 : Dev nD → CellTallies nD τ sig Unit) (fun _ => (BI.emp : sProp 𝕄)) u₀ (launch_ghost (F := F))
    (fun _ c => rest (F := F) c) (rest_of_launch (F := F) ρ) (rest_owes (F := F))
    (reg0 m) (enter0 m) (leave0 m) (reg1 m) (enter1 m) (leave1 m) (reg2 m) (enter2 m) (leave2 m)

set_option backward.isDefEq.respectTransparency.types false in
/-- THE RUN, with every buffer named: the same launch read at EVERY unscoped buffer of the last contents — each final
    buffer holds what the thread of contents says, the regions' result arrays among them. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V8 m (outs m) c b) := by
  refine Pipeline.θ_run_regions_kit_dev (pcfgs (F := F)) adm (pdats m) () cellOf_inj (emb₁ : Emb (UR sig nD τ) 𝕄) defs₀ 𝒱₀ L lv m ρ main
    (segs m (outs m) 𝒱₀ L lv (fun _ c => rest (F := F) c) () (pdats m) (reg0 m) (reg1 m) (reg2 m))
    (fun c Q => by
      rewrite [main_chain c, Seg.run_eq_chain,
        show (segs m (outs m) 𝒱₀ L lv (fun _ c => rest (F := F) c) () (pdats m) (reg0 m) (reg1 m) (reg2 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide)
    (0 : Dev nD → CellTallies nD τ sig Unit) (fun _ _ => rfl) (fun _ => (BI.emp : sProp 𝕄)) u₀ (launch_ghost (F := F))
    (T₀ := fun c => iprop(StableHlo.held (c : Thread nD τ) (Pipeline.ucRefs τ sig) (V0 m c) ∗ rest (F := F) c))
    (Tₙ := fun c => StableHlo.held (c : Thread nD τ) (Pipeline.ucRefs τ sig) (V8 m (outs m) c))
    (hch := fun c => ⟨.rfl, .rfl, .rfl, enter0 m c, leave0 m c, enter1 m c, leave1 m c, enter2 m c,
      (leave2 m c).trans (sep_mono .rfl (rest_owes (F := F) c))⟩)
    (hinit := ?_) (QY := fun c s => ∀ b ∈ Pipeline.ucRefs τ sig, s.mem ((c : Thread nD τ).1, b) = V8 m (outs m) c b)
    (hfin := fun c s' => ?_) (hQ := fun _ h => h)
  · -- the launch: the unscoped buffers are held at the launch contents; what else the launch hands out makes the rest
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    have hjoin : iprop((bigSep Finset.univ fun c : Dev nD => StableHlo.held (c : Thread nD τ) (Pipeline.ucRefs τ sig) (V0 m c))
          ∗ bigSep Finset.univ fun c : Dev nD => rest (F := F) c)
        ⊢ (bigSep Finset.univ (fun c : Dev nD => iprop(StableHlo.held (c : Thread nD τ) (Pipeline.ucRefs τ sig) (V0 m c) ∗ rest (F := F) c)) : sProp 𝕄) :=
      Entails.of_eq (bigSep_sep Finset.univ (fun c : Dev nD => StableHlo.held (c : Thread nD τ) (Pipeline.ucRefs τ sig) (V0 m c)) (fun c : Dev nD => rest (F := F) c)).symm
    iintro ⟨H, Hla⟩
    ihave H' := hsplit $$ H
    icases H' with ⟨Hh, Hr⟩
    imod (rest_of_launch (F := F) ρ) $$ [Hr Hla] with HE
    · isplitl [Hr]; · iexact Hr
      iexact Hla
    imodintro
    iapply hjoin
    isplitl [Hh]; · iexact Hh
    iexact HE
  · -- the end: every unscoped buffer read off the last contents
    unfold StableHlo.held
    iintro ⟨Hh, HSI⟩
    imodintro
    iapply (pointsTo_read_all (Pipeline.ucRefs τ sig) (fun b => ((c : Thread nD τ).1, b)) (V8 m (outs m) c) s')
    isplitl [Hh] <;> iassumption

end Cert.KernelIdeal.Threads

end
-- ==== Proof.KernelIdeal.Stretches.lean ====
/-
  The kernel program's host operations, stretch by stretch, read back as the reference's stages. Both programs trace the
  same jnp code around the matrix products: the edge list with two self loops per node, the degrees by a scatter-add of
  ones, the symmetric normalisation 1/sqrt(deg) gathered at both ends of every edge, and after each product a gather
  of its rows by source, a scaling by the normalisation and a scatter-add by destination. So a stretch applied to ANY
  contents of the buffers that hold, where it reads them, what the reference's stages hold, leaves what the reference's
  next stage holds: the two terms are the same operations on the same operands. Stated for every float instance.
-/
import proofs.«151933_j70214125355147_1_alg».proof.Proof.Gen.KernelIdeal.Regions
import proofs.«151933_j70214125355147_1_alg».proof.Proof.RefRead
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

/-! ## Before region 0: the edge list, the degrees, the normalisation -/

/-- The sources: the edge list's first row, then every node twice. -/
theorem sources : StableHlo.after hostOps0 W main_v3 = Cert.ReferenceIdeal.ReadP.val_main_v3 (F := F) (W main_arg1) := by
  after_results_simp; rfl
/-- The destinations: the edge list's second row, then every node twice. -/
theorem destinations : StableHlo.after hostOps0 W main_v6 = Cert.ReferenceIdeal.ReadP.val_main_v6 (F := F) (W main_arg1) := by
  after_results_simp; rfl
/-- Where the degree is positive. -/
theorem degree_positive : StableHlo.after hostOps0 W main_v12 = Cert.ReferenceIdeal.ReadP.val_main_v12 (F := F) (W main_arg1) := by
  after_results_simp; rfl
/-- The degrees' inverse square roots. -/
theorem degree_rsqrt : StableHlo.after hostOps0 W main_v13 = Cert.ReferenceIdeal.ReadP.val_main_v13 (F := F) (W main_arg1) := by
  after_results_simp; rfl
/-- The zero that replaces the inverse square root where the degree is not positive. -/
theorem where_zero : StableHlo.after hostOps0 W main_cst_2 = Cert.ReferenceIdeal.ReadP.val_main_cst_2 (F := F) := by
  after_results_simp; rfl

/-- The per-node normalisation: the inverse square root where the degree is positive, zero elsewhere. -/
theorem node_norm (x1 : (⟨S2x400000, .i32⟩ : BufTy).Contents (Elt F))
    (hpos : W main_v12 = Cert.ReferenceIdeal.ReadP.val_main_v12 (F := F) x1) (hrs : W main_v13 = Cert.ReferenceIdeal.ReadP.val_main_v13 (F := F) x1)
    (hz : W main_cst_2 = Cert.ReferenceIdeal.ReadP.val_main_cst_2 (F := F)) :
    StableHlo.after hostOps0_1 W main_v14 = Cert.ReferenceIdeal.ReadP.val_main_v14 (F := F) x1 := by
  after_results_simp; rw [hpos, hrs, hz]; rfl

/-- The per-edge normalisation: the node normalisation at the source times that at the destination. -/
theorem edge_norm (x1 : (⟨S2x400000, .i32⟩ : BufTy).Contents (Elt F))
    (hsrc : W main_v3 = Cert.ReferenceIdeal.ReadP.val_main_v3 (F := F) x1) (hdst : W main_v6 = Cert.ReferenceIdeal.ReadP.val_main_v6 (F := F) x1)
    (hn : W main_v14 = Cert.ReferenceIdeal.ReadP.val_main_v14 (F := F) x1) :
    StableHlo.after hostOps0_2 W main_v29 = Cert.ReferenceIdeal.ReadP.val_main_v29 (F := F) x1 := by
  after_results_simp; rw [hsrc, hdst, hn]; rfl

/-! ## After region 0: the first aggregation, and the first bias as a row -/

/-- The first aggregation: the product's rows gathered by source, scaled, scatter-added by destination. -/
theorem first_aggregation (x0 : (⟨S50000x128, .f32⟩ : BufTy).Contents (Elt F)) (x1 : (⟨S2x400000, .i32⟩ : BufTy).Contents (Elt F)) (x2 : (⟨S128x512, .f32⟩ : BufTy).Contents (Elt F))
    (hprod : W main_v30 = Cert.ReferenceIdeal.ReadP.val_main_v30 (F := F) x0 x2)
    (hsrc : W main_v3 = Cert.ReferenceIdeal.ReadP.val_main_v3 (F := F) x1) (hdst : W main_v6 = Cert.ReferenceIdeal.ReadP.val_main_v6 (F := F) x1)
    (hnorm : W main_v29 = Cert.ReferenceIdeal.ReadP.val_main_v29 (F := F) x1) :
    StableHlo.after hostOps1 W main_v43 = Cert.ReferenceIdeal.ReadP.val_main_v43 (F := F) x0 x1 x2 := by
  after_results_simp; rw [hprod, hsrc, hdst, hnorm]; rfl

theorem first_bias_row : StableHlo.after hostOps1 W main_v44 = shapeCast S1x512 (W main_arg3) shapeCasts_S512_S1x512 := by
  after_results_simp; rfl

/-! ## After region 1: the second aggregation, and the remaining biases as rows -/

/-- The second aggregation: the projected hidden layer's rows gathered by source, scaled, scatter-added by destination. -/
theorem second_aggregation (x0 : (⟨S50000x128, .f32⟩ : BufTy).Contents (Elt F)) (x1 : (⟨S2x400000, .i32⟩ : BufTy).Contents (Elt F)) (x2 : (⟨S128x512, .f32⟩ : BufTy).Contents (Elt F)) (x3 : (⟨S512, .f32⟩ : BufTy).Contents (Elt F)) (x4 : (⟨S512x128, .f32⟩ : BufTy).Contents (Elt F))
    (hproj : W main_v45_1 = Cert.ReferenceIdeal.ReadP.val_main_v48 (F := F) x0 x1 x2 x3 x4)
    (hsrc : W main_v3 = Cert.ReferenceIdeal.ReadP.val_main_v3 (F := F) x1) (hdst : W main_v6 = Cert.ReferenceIdeal.ReadP.val_main_v6 (F := F) x1)
    (hnorm : W main_v29 = Cert.ReferenceIdeal.ReadP.val_main_v29 (F := F) x1) :
    StableHlo.after hostOps2 W main_v58 = Cert.ReferenceIdeal.ReadP.val_main_v61 (F := F) x0 x1 x2 x3 x4 := by
  after_results_simp; rw [hproj, hsrc, hdst, hnorm]; rfl

theorem second_bias_row : StableHlo.after hostOps2 W main_v59 = shapeCast S1x128 (W main_arg5) shapeCasts_S128_S1x128 := by
  after_results_simp; rfl
theorem residual_bias_row : StableHlo.after hostOps2 W main_v60 = shapeCast S1x128 (W main_arg7) shapeCasts_S128_S1x128 := by
  after_results_simp; rfl
theorem head_bias_row : StableHlo.after hostOps2 W main_v61 = shapeCast S1x256 (W main_arg9) shapeCasts_S256_S1x256 := by
  after_results_simp; rfl
theorem score_bias_row : StableHlo.after hostOps2 W main_v62 = shapeCast S1x1 (W main_arg11) shapeCasts_S1_S1x1 := by
  after_results_simp; rfl

end Cert.KernelIdeal.Stretches

end
-- ==== Proof.KernelIdeal.ProjectValue.lean ====
/-
  The array region 0 leaves in its output window, at the extended reals: block t of the output is the product of rows
  2000 t … 2000 t + 1999 of the node embeddings with the whole weight matrix, the 25 blocks tile the 50000 rows, so the
  array is the whole matrix product — entry (r, j) is the sum over k of embedding (r, k) times weight (k, j) —, which is
  what the reference's first dot_general computes.
-/
import proofs.«151933_j70214125355147_1_alg».proof.Proof.KernelIdeal.Project
import proofs.«151933_j70214125355147_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjectValue

open Cert.KernelIdeal Cert.KernelIdeal.Gen
open Idealize.ShloMosaic Idealize.ShloMosaic.TcCoe Idealize.SL.Sem

/-! ## One block product, entry by entry -/

/-- The whole-buffer rectangles start at the zero offsets. -/
theorem zero_offsets : (![0, 0] : Fin 2 → Nat) = fun _ => 0 := funext fun a => by fin_cases a <;> rfl

/-- The block product's left operand is read at the output entry's row … -/
theorem blockLhs_row (j : S2000x512.Idx) (q : dot_S2000x128_S128x512_S2000x512_1_0_0_1_n_n.contr.Idx) :
    (dot_S2000x128_S128x512_S2000x512_1_0_0_1_n_n.lhsIdx j q 0).val = (j 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
/-- … and at the contraction's coordinate; -/
theorem blockLhs_contr (j : S2000x512.Idx) (q : dot_S2000x128_S128x512_S2000x512_1_0_0_1_n_n.contr.Idx) :
    (dot_S2000x128_S128x512_S2000x512_1_0_0_1_n_n.lhsIdx j q 1).val = (q ⟨0, by decide⟩).val :=
  dot_S2000x128_S128x512_S2000x512_1_0_0_1_n_n.lhsIdx_val_of_single rfl j q
/-- the right operand at the contraction's coordinate … -/
theorem blockRhs_contr (j : S2000x512.Idx) (q : dot_S2000x128_S128x512_S2000x512_1_0_0_1_n_n.contr.Idx) :
    (dot_S2000x128_S128x512_S2000x512_1_0_0_1_n_n.rhsIdx j q 0).val = (q ⟨0, by decide⟩).val :=
  dot_S2000x128_S128x512_S2000x512_1_0_0_1_n_n.rhsIdx_val_of_single rfl j q
/-- … and at the output entry's column. -/
theorem blockRhs_col (j : S2000x512.Idx) (q : dot_S2000x128_S128x512_S2000x512_1_0_0_1_n_n.contr.Idx) :
    (dot_S2000x128_S128x512_S2000x512_1_0_0_1_n_n.rhsIdx j q 1).val = (j 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

/-- Entry (row of j, k) of a rows block. -/
abbrev rowEntry (j : S2000x512.Idx) (k : Fin 128) : S2000x128.Idx := fun a => match a with
  | ⟨0, _⟩ => ⟨(j 0).val, (j 0).isLt⟩
  | ⟨1, _⟩ => ⟨k.val, k.isLt⟩
/-- Entry (k, column of j) of the weight matrix. -/
abbrev weightEntry (j : S2000x512.Idx) (k : Fin 128) : S128x512.Idx := fun a => match a with
  | ⟨0, _⟩ => ⟨k.val, k.isLt⟩
  | ⟨1, _⟩ => ⟨(j 1).val, (j 1).isLt⟩

/-- The body's payload at an entry: the change of format is the identity on the extended reals and the zero accumulator
    adds nothing, so the entry is the plain sum over the 128 contracted coordinates. -/
theorem blockProduct_apply (x : Vec Ideal S2000x128 .f32) (w : Vec Ideal S128x512 .f32) (j : S2000x512.Idx) :
    k0_pay1 (F := Ideal) x w j = ∑ k : Fin 128, x (rowEntry j k) * w (weightEntry j k) := by
  unfold k0_pay1
  simp only [matmul]
  rw [Ideal.matmul_constant_zero_apply, ← Equiv.sum_comp (ValueIdx.contrEquiv1 dot_S2000x128_S128x512_S2000x512_1_0_0_1_n_n 128 rfl rfl).symm]
  refine Finset.sum_congr rfl fun k _ => ?_
  have hk := ValueIdx.contrEquiv1_symm_val dot_S2000x128_S128x512_S2000x512_1_0_0_1_n_n 128 rfl rfl k
  have el : dot_S2000x128_S128x512_S2000x512_1_0_0_1_n_n.lhsIdx j ((ValueIdx.contrEquiv1 dot_S2000x128_S128x512_S2000x512_1_0_0_1_n_n 128 rfl rfl).symm k) = rowEntry j k := funext fun a => Fin.ext (by
    match a with
    | ⟨0, _⟩ => exact blockLhs_row _ _
    | ⟨1, _⟩ => exact (blockLhs_contr _ _).trans hk)
  have er : dot_S2000x128_S128x512_S2000x512_1_0_0_1_n_n.rhsIdx j ((ValueIdx.contrEquiv1 dot_S2000x128_S128x512_S2000x512_1_0_0_1_n_n 128 rfl rfl).symm k) = weightEntry j k := funext fun a => Fin.ext (by
    match a with
    | ⟨0, _⟩ => exact (blockRhs_contr _ _).trans hk
    | ⟨1, _⟩ => exact blockRhs_col _ _)
  show x (dot_S2000x128_S128x512_S2000x512_1_0_0_1_n_n.lhsIdx j _) * w (dot_S2000x128_S128x512_S2000x512_1_0_0_1_n_n.rhsIdx j _) = _
  rw [el, er]

/-! ## From the 25 blocks to the array -/

-- any contents of the core's buffers at the region's entry, at the extended reals
variable (V : (c : Dev nD) → (b : Ref sig .tc) → Buf (Elt Ideal) ((c : Thread nD τ).loc b))

/-- The index maps over the grid: point t works on rows block t of the embeddings and of the result, and on the one
    block of the weights. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole matrix product. -/
theorem written_back (c : Dev nD) (t : Fin cfg0.N) :
    (Project.dat (F := Ideal) V c).flushed 2 t
      = ((cfg0.win 2).blk t).view.read (Elt Ideal) (Cert.ReferenceIdeal.ReadP.val_main_v30 (F := Ideal) (V c main_arg0) (V c main_arg2)) := by
  show (cfg0.win 2).cut (grid0.coords t) ((Project.dat (F := Ideal) V c).after 2 t) = _
  rw [Project.after_product]
  unfold Project.product
  rw [View.canon_unit_zero zero_offsets]
  simp only [View.ld_unit_zero (S := S2000x128) zero_offsets, View.ld_unit_zero (S := S128x512) zero_offsets]
  obtain ⟨e0, e1, e2, e3, e4, e5⟩ := block_indices t
  funext j
  show k0_pay1 (F := Ideal) (Project.blockAt V c 0 t) (Project.blockAt V c 1 t) j
    = Cert.ReferenceIdeal.ReadP.val_main_v30 (F := Ideal) (V c main_arg0) (V c main_arg2) (((cfg0.win 2).blk t).view.emb j)
  rw [blockProduct_apply, Cert.ReferenceIdeal.ReadP.val_main_v30_apply]
  refine Finset.sum_congr rfl fun k _ => ?_
  have h0 : ((cfg0.win 0).blk t).view.emb (rowEntry j k) = Cert.ReferenceIdeal.ReadP.lidx_main_v30 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (weightEntry j k) = Cert.ReferenceIdeal.ReadP.ridx_main_v30 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 512 + 1 * (j 1).val = win0_2.index t (1 : Fin 2) * 512 + 1 * (j 1).val; omega
  exact congrArg₂ (fun a b : EReal => a * b) (congrArg (V c main_arg0) h0) (congrArg (V c main_arg2) h1)

/-- An entry of the result is in point t's block iff each coordinate is in the block's range on its axis. -/
theorem mem_block (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v30).slice (win0_2.rect t)).set ↔ _
  rw [View.set_slice_whole, Rect.mem_set_unit]
  exact Iff.rfl

/-- Row r of the result lies in the block of point r / 2000: the 25 blocks tile the 50000 rows. -/
theorem blocks_cover (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 25 := rfl
  let t : Fin cfg0.N := ⟨(i 0).val / 2000, by rw [hN]; omega⟩
  obtain ⟨e0, e1, e2, e3, e4, e5⟩ := block_indices t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

theorem product_array (c : Dev nD) :
    (Project.dat (F := Ideal) V c).arrAt 2 cfg0.N
      = Cert.ReferenceIdeal.ReadP.val_main_v30 (F := Ideal) (V c main_arg0) (V c main_arg2) :=
  (Project.dat (F := Ideal) V c).arrAt_eq_of_cover 2 _ (fun t _ => written_back V c t) blocks_cover

end Cert.KernelIdeal.ProjectValue

end
-- ==== Proof.KernelIdeal.HiddenValue.lean ====
/-
  The arrays region 1 leaves in its two output windows, at the extended reals, given what the region finds in its
  input arrays: the first aggregation (as the reference computes it), the bias as a 1 x 512 row, the second weights.
  Output 3 is max(aggregation + bias row, 0) entry by entry — the reference's first hidden layer —, output 4 its
  product with the second weight matrix — the reference's second dot_general.
-/
import proofs.«151933_j70214125355147_1_alg».proof.Proof.KernelIdeal.Hidden
import proofs.«151933_j70214125355147_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HiddenValue

open Cert.KernelIdeal Cert.KernelIdeal.Gen
open Idealize.ShloMosaic Idealize.ShloMosaic.TcCoe Idealize.SL.Sem
open Idealize.ShloMosaic.ValueIdx

/-- The zero offsets of a whole-buffer rectangle, however they are spelt. -/
theorem zero_offsets : (![0, 0] : Fin 2 → Nat) = fun _ => 0 := funext fun a => by fin_cases a <;> rfl

section AnyFamily
variable {F : FTy → Type} [FloatOps F]

/-- One store through the whole buffer leaves its payload: the hidden-layer block is the payload of the two loaded
    blocks. -/
theorem hidden_eq_payload (a : Vec F S2000x512 .f32) (b : Vec F S1x512 .f32) :
    Hidden.hidden a b = k1_pay1 a b := by
  unfold Hidden.hidden
  rw [View.canon_unit_zero zero_offsets]
  simp only [View.ld_unit_zero (S := S2000x512) zero_offsets, View.ld_unit_zero (S := S1x512) zero_offsets]

/-- Likewise the projected block is the matrix product's payload of the three loaded blocks. -/
theorem projected_eq_payload (a : Vec F S2000x512 .f32) (b : Vec F S1x512 .f32) (w : Vec F S512x128 .f32) :
    Hidden.projected a b w = k1_pay2 a b w := by
  unfold Hidden.projected
  rw [View.canon_unit_zero zero_offsets]
  simp only [View.ld_unit_zero (S := S2000x512) zero_offsets, View.ld_unit_zero (S := S1x512) zero_offsets,
    View.ld_unit_zero (S := S512x128) zero_offsets]

end AnyFamily

/-- The hidden-layer payload at row `p`, column `q`: the aggregation entry plus the bias row's entry of that column,
    clamped at zero. -/
theorem hidden_payload_apply (a : FVec Ideal S2000x512 .f32) (b : FVec Ideal S1x512 .f32) (p : Fin 2000) (q : Fin 512) :
    k1_pay1 a b (ix2 p q)
      = FloatOps.maximumf (FloatOps.addf (a (ix2 p q)) (b (ix2 (0 : Fin 1) q))) (FloatOps.ofBits .f32 0x00000000#32) := by
  unfold k1_pay1
  simp only [shapeCast_self]
  show FloatOps.maximumf (F := Ideal) (FloatOps.addf (F := Ideal) (a (ix2 p q))
      (broadcastTo S2000x512 b broadcasts_S1x512_S2000x512 (ix2 p q))) (FloatOps.ofBits .f32 0x00000000#32) = _
  rw [broadcastTo_1b_ab_apply b broadcasts_S1x512_S2000x512 p q]

/-- The block index maps over the 25 grid points: the aggregation and the two outputs move down one block of rows per
    point, the bias row and the weights stay. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

-- any contents of the core's buffers at the region's entry, at the extended reals
variable (V : (c : Dev nD) → (b : Ref sig .tc) → Buf (Elt Ideal) ((c : Thread nD τ).loc b))

/-- Entry (p, q) of the aggregation's block at point `t` is the array's entry at row `2000 t + p`, column `q`. -/
theorem agg_block_apply (c : Dev nD) (t : Fin cfg1.N) (p : Fin 2000) (q : Fin 512) (i : S50000x512.Idx)
    (h0 : (i 0).val = t.val * 2000 + p.val) (h1 : (i 1).val = q.val) :
    Hidden.blockAt V c 0 t (ix2 p q) = V c main_v43 i := by
  unfold Hidden.blockAt
  rw [View.read_apply]
  show V c main_v43 (((cfg1.win 0).blk t).view.emb (ix2 p q)) = V c main_v43 i
  obtain ⟨e0, e1, -⟩ := index_facts t
  refine congrArg _ (funext fun a => Fin.ext ?_)
  match a with
  | ⟨0, _⟩ => show win1_0.index t (0 : Fin 2) * 2000 + 1 * p.val = (i 0).val; rw [e0, h0]; omega
  | ⟨1, _⟩ => show win1_0.index t (1 : Fin 2) * 512 + 1 * q.val = (i 1).val; rw [e1, h1]; omega

/-- Entry (0, q) of the bias block, at every point, is the bias vector's entry `q`: the block is the whole row, and
    the row is the vector with a unit axis in front. -/
theorem bias_block_apply (c : Dev nD) (t : Fin cfg1.N) (q : Fin 512) (x3 : (⟨S512, .f32⟩ : BufTy).Contents (Elt Ideal))
    (hbias : V c main_v44 = shapeCast S1x512 x3 shapeCasts_S512_S1x512) :
    Hidden.blockAt V c 1 t (ix2 (0 : Fin 1) q) = x3 (ix1 q) := by
  unfold Hidden.blockAt
  rw [View.read_apply]
  show V c main_v44 (((cfg1.win 1).blk t).view.emb (ix2 (0 : Fin 1) q)) = x3 (ix1 q)
  obtain ⟨-, -, e0, e1, -⟩ := index_facts t
  have hemb : ((cfg1.win 1).blk t).view.emb (ix2 (0 : Fin 1) q) = ix2 (0 : Fin 1) q := funext fun a => Fin.ext (by
    match a with
    | ⟨0, _⟩ => show win1_1.index t (0 : Fin 2) * 1 + 1 * 0 = 0; rw [e0]
    | ⟨1, _⟩ => show win1_1.index t (1 : Fin 2) * 512 + 1 * q.val = q.val; rw [e1]; omega)
  rw [hemb, hbias]
  exact shapeCast_a_1a_apply x3 shapeCasts_S512_S1x512 0 q

/-- Entry (k, q) of the weights' block, at every point, is the weight matrix's: the block is the whole matrix. -/
theorem weight_block_apply (c : Dev nD) (t : Fin cfg1.N) (k : Fin 512) (q : Fin 128) :
    Hidden.blockAt V c 2 t (ix2 k q) = V c main_arg4 (ix2 k q) := by
  unfold Hidden.blockAt
  rw [View.read_apply]
  show V c main_arg4 (((cfg1.win 2).blk t).view.emb (ix2 k q)) = V c main_arg4 (ix2 k q)
  obtain ⟨-, -, -, -, e0, e1, -⟩ := index_facts t
  refine congrArg _ (funext fun a => Fin.ext ?_)
  match a with
  | ⟨0, _⟩ => show win1_2.index t (0 : Fin 2) * 512 + 1 * k.val = k.val; rw [e0]; omega
  | ⟨1, _⟩ => show win1_2.index t (1 : Fin 2) * 128 + 1 * q.val = q.val; rw [e1]; omega

open Cert.ReferenceIdeal.ReadP in
/-- THE HIDDEN BLOCK AT AN ENTRY: at point `t`, entry (p, q) of the hidden-layer payload of the aggregation's and
    the bias's blocks is the reference's first hidden layer at row `2000 t + p`, column `q`. -/
theorem hidden_block_apply (c : Dev nD) (x0 : (⟨S50000x128, .f32⟩ : BufTy).Contents (Elt Ideal)) (x1 : (⟨S2x400000, .i32⟩ : BufTy).Contents (Elt Ideal)) (x2 : (⟨S128x512, .f32⟩ : BufTy).Contents (Elt Ideal)) (x3 : (⟨S512, .f32⟩ : BufTy).Contents (Elt Ideal))
    (hagg : V c main_v43 = val_main_v43 (F := Ideal) x0 x1 x2)
    (hbias : V c main_v44 = shapeCast S1x512 x3 shapeCasts_S512_S1x512)
    (t : Fin cfg1.N) (p : Fin 2000) (q : Fin 512) (i : S50000x512.Idx)
    (h0 : (i 0).val = t.val * 2000 + p.val) (h1 : (i 1).val = q.val) :
    k1_pay1 (Hidden.blockAt V c 0 t) (Hidden.blockAt V c 1 t) (ix2 p q) = val_main_v47 (F := Ideal) x0 x1 x2 x3 i := by
  rw [hidden_payload_apply, agg_block_apply V c t p q i h0 h1, bias_block_apply V c t q x3 hbias, hagg,
    val_main_v47_apply, val_main_v46_apply, val_main_v45_apply, val_main_v44_apply, val_main_call1_v0_apply,
    val_main_call1_cst_apply]
  have hq : idx_main_v44 (idx_main_v45 i) = ix1 q := funext fun a => Fin.ext (by
    match a with
    | ⟨0, _⟩ => exact h1)
  rw [hq]

open Cert.ReferenceIdeal.ReadP in
/-- WHAT POINT `t` WRITES BACK INTO THE FIRST OUTPUT is block `t` of the reference's first hidden layer. -/
theorem hidden_flushed (c : Dev nD) (x0 : (⟨S50000x128, .f32⟩ : BufTy).Contents (Elt Ideal)) (x1 : (⟨S2x400000, .i32⟩ : BufTy).Contents (Elt Ideal)) (x2 : (⟨S128x512, .f32⟩ : BufTy).Contents (Elt Ideal)) (x3 : (⟨S512, .f32⟩ : BufTy).Contents (Elt Ideal))
    (hagg : V c main_v43 = val_main_v43 (F := Ideal) x0 x1 x2)
    (hbias : V c main_v44 = shapeCast S1x512 x3 shapeCasts_S512_S1x512) (t : Fin cfg1.N) :
    (Hidden.dat (F := Ideal) V c).flushed 3 t
      = ((cfg1.win 3).blk t).view.read (Elt Ideal) (val_main_v47 (F := Ideal) x0 x1 x2 x3) := by
  show (cfg1.win 3).cut (grid1.coords t) ((Hidden.dat (F := Ideal) V c).after 3 t) = _
  rw [Hidden.after_hidden, hidden_eq_payload]
  funext j
  obtain ⟨p, q, rfl⟩ : ∃ (p : Fin 2000) (q : Fin 512), j = ix2 p q := ⟨j 0, j 1, eq_ix2 j⟩
  rw [View.read_apply]
  show k1_pay1 (Hidden.blockAt V c 0 t) (Hidden.blockAt V c 1 t) (ix2 p q)
    = val_main_v47 (F := Ideal) x0 x1 x2 x3 (((cfg1.win 3).blk t).view.emb (ix2 p q))
  obtain ⟨-, -, -, -, -, -, e0, e1, -⟩ := index_facts t
  refine hidden_block_apply V c x0 x1 x2 x3 hagg hbias t p q _ ?_ ?_
  · show win1_3.index t (0 : Fin 2) * 2000 + 1 * p.val = t.val * 2000 + p.val; rw [e0]; omega
  · show win1_3.index t (1 : Fin 2) * 512 + 1 * q.val = q.val; rw [e1]; omega

/-- An entry of the first output is in point `t`'s block iff each coordinate is in the block's range on its axis. -/
theorem mem_hidden_block (t : Fin cfg1.N) (i : S50000x512.Idx) :
    i ∈ ((cfg1.win 3).blk t).view.set ↔ ∀ a : Fin 2, win1_3.index t a * S2000x512.size a ≤ (i a).val
      ∧ (i a).val < win1_3.index t a * S2000x512.size a + S2000x512.size a := by
  show i ∈ ((View.whole main_v45_0).slice (win1_3.rect t)).set ↔ _
  rw [View.set_slice_whole, Rect.mem_set_unit]
  exact Iff.rfl

/-- Row `r` of the first output lies in the block of point `r / 2000`, which writes it back. -/
theorem hidden_cover (i : S50000x512.Idx) :
    ∃ t : Fin cfg1.N, (cfg1.win 3).flush t = true ∧ i ∈ ((cfg1.win 3).blk t).view.set := by
  have hi0 : (i 0).val < 50000 := (i 0).isLt
  have hi1 : (i 1).val < 512 := (i 1).isLt
  have hN : cfg1.N = 25 := N_1
  refine ⟨⟨(i 0).val / 2000, by rw [hN]; omega⟩, flush1_3 _, ?_⟩
  rw [mem_hidden_block]
  obtain ⟨-, -, -, -, -, -, e0, e1, -⟩ := index_facts ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e0]; show (i 0).val / 2000 * 2000 ≤ (i 0).val ∧ (i 0).val < (i 0).val / 2000 * 2000 + 2000; omega
  | ⟨1, _⟩ =>
    show win1_3.index _ (1 : Fin 2) * 512 ≤ (i 1).val ∧ (i 1).val < win1_3.index _ (1 : Fin 2) * 512 + 512
    rw [e1]; omega

theorem hidden_array (c : Dev nD) (x0 : (⟨S50000x128, .f32⟩ : BufTy).Contents (Elt Ideal)) (x1 : (⟨S2x400000, .i32⟩ : BufTy).Contents (Elt Ideal)) (x2 : (⟨S128x512, .f32⟩ : BufTy).Contents (Elt Ideal)) (x3 : (⟨S512, .f32⟩ : BufTy).Contents (Elt Ideal))
    (hagg : V c main_v43 = Cert.ReferenceIdeal.ReadP.val_main_v43 (F := Ideal) x0 x1 x2)
    (hbias : V c main_v44 = shapeCast S1x512 x3 shapeCasts_S512_S1x512) :
    (Hidden.dat (F := Ideal) V c).arrAt 3 cfg1.N = Cert.ReferenceIdeal.ReadP.val_main_v47 (F := Ideal) x0 x1 x2 x3 :=
  (Hidden.dat (F := Ideal) V c).arrAt_eq_of_cover 3 _
    (fun t _ => hidden_flushed V c x0 x1 x2 x3 hagg hbias t) hidden_cover

/-! ## The projection: the matrix product at an entry -/

theorem proj_lhs_0 (j : S2000x128.Idx) (k : dot_S2000x512_S512x128_S2000x128_1_0_0_1_n_n.contr.Idx) :
    (dot_S2000x512_S512x128_S2000x128_1_0_0_1_n_n.lhsIdx j k 0).val = (j 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem proj_lhs_1 (j : S2000x128.Idx) (k : dot_S2000x512_S512x128_S2000x128_1_0_0_1_n_n.contr.Idx) :
    (dot_S2000x512_S512x128_S2000x128_1_0_0_1_n_n.lhsIdx j k 1).val = (k ⟨0, by decide⟩).val :=
  dot_S2000x512_S512x128_S2000x128_1_0_0_1_n_n.lhsIdx_val_of_single rfl j k
theorem proj_rhs_0 (j : S2000x128.Idx) (k : dot_S2000x512_S512x128_S2000x128_1_0_0_1_n_n.contr.Idx) :
    (dot_S2000x512_S512x128_S2000x128_1_0_0_1_n_n.rhsIdx j k 0).val = (k ⟨0, by decide⟩).val :=
  dot_S2000x512_S512x128_S2000x128_1_0_0_1_n_n.rhsIdx_val_of_single rfl j k
theorem proj_rhs_1 (j : S2000x128.Idx) (k : dot_S2000x512_S512x128_S2000x128_1_0_0_1_n_n.contr.Idx) :
    (dot_S2000x512_S512x128_S2000x128_1_0_0_1_n_n.rhsIdx j k 1).val = (j 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The projection's payload at row `p`, column `q`: the sum over the 512 hidden columns of the hidden-layer entry
    times the weight (a change of float format is the identity on extended reals, and the accumulator is zero). -/
theorem projected_payload_apply (a : FVec Ideal S2000x512 .f32) (b : FVec Ideal S1x512 .f32) (w : FVec Ideal S512x128 .f32)
    (p : Fin 2000) (q : Fin 128) :
    k1_pay2 a b w (ix2 p q) = ∑ k : Fin 512, k1_pay1 (F := Ideal) a b (ix2 p k) * w (ix2 k q) := by
  unfold k1_pay2
  generalize k1_pay1 (F := Ideal) a b = h
  simp only [matmul]
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun a => Fin.ext (by
    match a with
    | ⟨0, _⟩ => exact proj_lhs_0 _ _
    | ⟨1, _⟩ => exact (proj_lhs_1 _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun a => Fin.ext (by
    match a with
    | ⟨0, _⟩ => exact (proj_rhs_0 _ _).trans hk
    | ⟨1, _⟩ => exact proj_rhs_1 _ _)
  rw [el, er]
  rfl

open Cert.ReferenceIdeal.ReadP in
/-- THE PROJECTED BLOCK AT AN ENTRY: at point `t`, entry (p, q) of the projection's payload of the three blocks is the
    reference's second product at row `2000 t + p`, column `q`. -/
theorem projected_block_apply (c : Dev nD) (x0 : (⟨S50000x128, .f32⟩ : BufTy).Contents (Elt Ideal)) (x1 : (⟨S2x400000, .i32⟩ : BufTy).Contents (Elt Ideal)) (x2 : (⟨S128x512, .f32⟩ : BufTy).Contents (Elt Ideal)) (x3 : (⟨S512, .f32⟩ : BufTy).Contents (Elt Ideal)) (x4 : (⟨S512x128, .f32⟩ : BufTy).Contents (Elt Ideal))
    (hagg : V c main_v43 = val_main_v43 (F := Ideal) x0 x1 x2)
    (hbias : V c main_v44 = shapeCast S1x512 x3 shapeCasts_S512_S1x512)
    (hw : V c main_arg4 = x4)
    (t : Fin cfg1.N) (p : Fin 2000) (q : Fin 128) (i : S50000x128.Idx)
    (h0 : (i 0).val = t.val * 2000 + p.val) (h1 : (i 1).val = q.val) :
    k1_pay2 (Hidden.blockAt V c 0 t) (Hidden.blockAt V c 1 t) (Hidden.blockAt V c 2 t) (ix2 p q)
      = val_main_v48 (F := Ideal) x0 x1 x2 x3 x4 i := by
  rw [projected_payload_apply, val_main_v48_apply]
  refine Finset.sum_congr rfl fun k _ => ?_
  rw [hidden_block_apply V c x0 x1 x2 x3 hagg hbias t p k (lidx_main_v48 i k) h0 rfl, weight_block_apply V c t k q, hw]
  refine congrArg _ (congrArg x4 (funext fun a => Fin.ext ?_))
  match a with
  | ⟨0, _⟩ => rfl
  | ⟨1, _⟩ => exact h1.symm

open Cert.ReferenceIdeal.ReadP in
/-- WHAT POINT `t` WRITES BACK INTO THE SECOND OUTPUT is block `t` of the reference's second product. -/
theorem projected_flushed (c : Dev nD) (x0 : (⟨S50000x128, .f32⟩ : BufTy).Contents (Elt Ideal)) (x1 : (⟨S2x400000, .i32⟩ : BufTy).Contents (Elt Ideal)) (x2 : (⟨S128x512, .f32⟩ : BufTy).Contents (Elt Ideal)) (x3 : (⟨S512, .f32⟩ : BufTy).Contents (Elt Ideal)) (x4 : (⟨S512x128, .f32⟩ : BufTy).Contents (Elt Ideal))
    (hagg : V c main_v43 = val_main_v43 (F := Ideal) x0 x1 x2)
    (hbias : V c main_v44 = shapeCast S1x512 x3 shapeCasts_S512_S1x512)
    (hw : V c main_arg4 = x4) (t : Fin cfg1.N) :
    (Hidden.dat (F := Ideal) V c).flushed 4 t
      = ((cfg1.win 4).blk t).view.read (Elt Ideal) (val_main_v48 (F := Ideal) x0 x1 x2 x3 x4) := by
  show (cfg1.win 4).cut (grid1.coords t) ((Hidden.dat (F := Ideal) V c).after 4 t) = _
  rw [Hidden.after_projected, projected_eq_payload]
  funext j
  obtain ⟨p, q, rfl⟩ : ∃ (p : Fin 2000) (q : Fin 128), j = ix2 p q := ⟨j 0, j 1, eq_ix2 j⟩
  rw [View.read_apply]
  show k1_pay2 (Hidden.blockAt V c 0 t) (Hidden.blockAt V c 1 t) (Hidden.blockAt V c 2 t) (ix2 p q)
    = val_main_v48 (F := Ideal) x0 x1 x2 x3 x4 (((cfg1.win 4).blk t).view.emb (ix2 p q))
  obtain ⟨-, -, -, -, -, -, -, -, e0, e1⟩ := index_facts t
  refine projected_block_apply V c x0 x1 x2 x3 x4 hagg hbias hw t p q _ ?_ ?_
  · show win1_4.index t (0 : Fin 2) * 2000 + 1 * p.val = t.val * 2000 + p.val; rw [e0]; omega
  · show win1_4.index t (1 : Fin 2) * 128 + 1 * q.val = q.val; rw [e1]; omega

/-- An entry of the second output is in point `t`'s block iff each coordinate is in the block's range on its axis. -/
theorem mem_projected_block (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v45_1).slice (win1_4.rect t)).set ↔ _
  rw [View.set_slice_whole, Rect.mem_set_unit]
  exact Iff.rfl

/-- Row `r` of the second output lies in the block of point `r / 2000`, which writes it back. -/
theorem projected_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_4 _, ?_⟩
  rw [mem_projected_block]
  obtain ⟨-, -, -, -, -, -, -, -, e0, e1⟩ := index_facts ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e0]; show (i 0).val / 2000 * 2000 ≤ (i 0).val ∧ (i 0).val < (i 0).val / 2000 * 2000 + 2000; omega
  | ⟨1, _⟩ =>
    show win1_4.index _ (1 : Fin 2) * 128 ≤ (i 1).val ∧ (i 1).val < win1_4.index _ (1 : Fin 2) * 128 + 128
    rw [e1]; omega

theorem projected_array (c : Dev nD) (x0 : (⟨S50000x128, .f32⟩ : BufTy).Contents (Elt Ideal)) (x1 : (⟨S2x400000, .i32⟩ : BufTy).Contents (Elt Ideal)) (x2 : (⟨S128x512, .f32⟩ : BufTy).Contents (Elt Ideal)) (x3 : (⟨S512, .f32⟩ : BufTy).Contents (Elt Ideal)) (x4 : (⟨S512x128, .f32⟩ : BufTy).Contents (Elt Ideal))
    (hagg : V c main_v43 = Cert.ReferenceIdeal.ReadP.val_main_v43 (F := Ideal) x0 x1 x2)
    (hbias : V c main_v44 = shapeCast S1x512 x3 shapeCasts_S512_S1x512)
    (hw : V c main_arg4 = x4) :
    (Hidden.dat (F := Ideal) V c).arrAt 4 cfg1.N = Cert.ReferenceIdeal.ReadP.val_main_v48 (F := Ideal) x0 x1 x2 x3 x4 :=
  (Hidden.dat (F := Ideal) V c).arrAt_eq_of_cover 4 _
    (fun t _ => projected_flushed V c x0 x1 x2 x3 x4 hagg hbias hw t) projected_cover

end Cert.KernelIdeal.HiddenValue

end
-- ==== Proof.KernelIdeal.HeadValue.lean ====
/-
  The arrays region 2 leaves in its two output windows, at the extended reals, given what the region finds in its
  input arrays: the second aggregation and the first hidden layer (as the reference computes them), each bias as a
  one-row matrix, the residual and head weights. Output 9 is max(aggregation + bias, 0) + (hidden · residual weights
  + residual bias), which is the reference's (max(aggregation + bias, 0) + hidden · residual weights) + residual bias
  because addition of extended reals is associative; output 10 is the two-layer head of that, as the reference has it.
-/
import proofs.«151933_j70214125355147_1_alg».proof.Proof.KernelIdeal.Head
import proofs.«151933_j70214125355147_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadValue

open Cert.KernelIdeal Cert.KernelIdeal.Gen
open Idealize.ShloMosaic Idealize.ShloMosaic.TcCoe Idealize.SL.Sem
open Idealize.ShloMosaic.ValueIdx

/-! ## The three block products read at an index -/

theorem zero_offsets : (![0, 0] : Fin 2 → Nat) = fun _ => 0 := funext fun a => by fin_cases a <;> rfl

theorem lhs_residual_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_residual_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_residual_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_residual_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The residual product of a block: row `p` of the hidden block against column `q` of the residual weights. -/
theorem residual_product_apply (l : FVec Ideal S2000x512 .bf16) (r : FVec Ideal S512x128 .bf16) (p : Fin 2000) (q : Fin 128) :
    matmul dot_S2000x512_S512x128_S2000x128_1_0_0_1_n_n none l r (constant S2000x128 .f32 0x00000000#32) (ix2 p q)
      = ∑ k : Fin 512, l (ix2 p k) * r (ix2 k q) := by
  simp only [matmul]
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx (ix2 p q) ((ValueIdx.contrEquiv1 dot_S2000x512_S512x128_S2000x128_1_0_0_1_n_n 512 rfl rfl).symm k) = ix2 p k := funext fun a => Fin.ext (by
    match a with
    | ⟨0, _⟩ => exact lhs_residual_0 _ _
    | ⟨1, _⟩ => exact (lhs_residual_1 _ _).trans hk)
  have er : dot_S2000x512_S512x128_S2000x128_1_0_0_1_n_n.rhsIdx (ix2 p q) ((ValueIdx.contrEquiv1 dot_S2000x512_S512x128_S2000x128_1_0_0_1_n_n 512 rfl rfl).symm k) = ix2 k q := funext fun a => Fin.ext (by
    match a with
    | ⟨0, _⟩ => exact (rhs_residual_0 _ _).trans hk
    | ⟨1, _⟩ => exact rhs_residual_1 _ _)
  rw [el, er]

/-! ## The node features -/

/-- The features' payload at row `p`, column `q` of a block: the aggregation plus its bias, clamped at zero, plus
    the residual (the hidden row against the weights' column, plus its bias). -/
theorem features_payload_apply (g : Vec Ideal S2000x128 .f32) (b : Vec Ideal S1x128 .f32) (x : Vec Ideal S2000x512 .f32) (wr : Vec Ideal S512x128 .f32) (br : Vec Ideal S1x128 .f32) (p : Fin 2000) (q : Fin 128) :
    k2_pay2 (F := Ideal) g b x wr br (ix2 p q)
      = max (g (ix2 p q) + b (ix2 (0 : Fin 1) q)) (FloatOps.ofBits (F := Ideal) .f32 0x00000000#32) + ((∑ k : Fin 512, x (ix2 p k) * wr (ix2 k q)) + br (ix2 (0 : Fin 1) q)) := by
  unfold k2_pay2
  simp only [shapeCast_self]
  rw [addf_apply, maximumf_apply, addf_apply, addf_apply, residual_product_apply, broadcastTo_1b_ab_apply, broadcastTo_1b_ab_apply, broadcast_apply]
  simp only [truncf_apply]

/-- The node features at row `p`, column `q`, from the whole aggregation `A`, the whole hidden layer `H`, the two
    biases as one-row matrices and the residual weights. -/
def featuresAt (A : Vec Ideal S50000x128 .f32) (b : Vec Ideal S1x128 .f32) (H : Vec Ideal S50000x512 .f32) (wr : Vec Ideal S512x128 .f32) (br : Vec Ideal S1x128 .f32) (p : Fin 50000) (q : Fin 128) : Elt Ideal .f32 :=
  max (A (ix2 p q) + b (ix2 (0 : Fin 1) q)) (FloatOps.ofBits (F := Ideal) .f32 0x00000000#32) + ((∑ k : Fin 512, H (ix2 p k) * wr (ix2 k q)) + br (ix2 (0 : Fin 1) q))

/-- The node features as a whole array. -/
def featuresOf (A : Vec Ideal S50000x128 .f32) (b : Vec Ideal S1x128 .f32) (H : Vec Ideal S50000x512 .f32) (wr : Vec Ideal S512x128 .f32) (br : Vec Ideal S1x128 .f32) : Vec Ideal S50000x128 .f32 :=
  fun i => featuresAt A b H wr br (i 0) (i 1)

theorem featuresOf_apply (A : Vec Ideal S50000x128 .f32) (b : Vec Ideal S1x128 .f32) (H : Vec Ideal S50000x512 .f32) (wr : Vec Ideal S512x128 .f32) (br : Vec Ideal S1x128 .f32) (p : Fin 50000) (q : Fin 128) :
    featuresOf A b H wr br (ix2 p q) = featuresAt A b H wr br p q := rfl

/-- The reference's node features are that function of its second aggregation and first hidden layer: its sum is
    grouped (clamped + residual product) + residual bias, the same by associativity. -/
theorem reference_features (x0 : (⟨S50000x128, .f32⟩ : BufTy).Contents (Elt Ideal)) (x1 : (⟨S2x400000, .i32⟩ : BufTy).Contents (Elt Ideal)) (x2 : (⟨S128x512, .f32⟩ : BufTy).Contents (Elt Ideal)) (x3 : (⟨S512, .f32⟩ : BufTy).Contents (Elt Ideal)) (x4 : (⟨S512x128, .f32⟩ : BufTy).Contents (Elt Ideal)) (x5 : (⟨S128, .f32⟩ : BufTy).Contents (Elt Ideal)) (x6 : (⟨S512x128, .f32⟩ : BufTy).Contents (Elt Ideal)) (x7 : (⟨S128, .f32⟩ : BufTy).Contents (Elt Ideal)) :
    Cert.ReferenceIdeal.ReadP.val_main_v70 (F := Ideal) x0 x1 x2 x3 x4 x5 x6 x7
      = featuresOf (Cert.ReferenceIdeal.ReadP.val_main_v61 (F := Ideal) x0 x1 x2 x3 x4) (shapeCast S1x128 x5 shapeCasts_S128_S1x128)
          (Cert.ReferenceIdeal.ReadP.val_main_v47 (F := Ideal) x0 x1 x2 x3) x6 (shapeCast S1x128 x7 shapeCasts_S128_S1x128) := by
  funext i
  obtain ⟨p, q, rfl⟩ : ∃ (p : Fin 50000) (q : Fin 128), i = ix2 p q := ⟨i 0, i 1, eq_ix2 i⟩
  rw [featuresOf_apply]
  unfold featuresAt
  rw [Cert.ReferenceIdeal.ReadP.val_main_v70_apply, Cert.ReferenceIdeal.ReadP.val_main_v67_apply, Cert.ReferenceIdeal.ReadP.val_main_v65_apply,
    Cert.ReferenceIdeal.ReadP.val_main_v64_apply, Cert.ReferenceIdeal.ReadP.val_main_v63_apply, Cert.ReferenceIdeal.ReadP.val_main_v62_apply,
    Cert.ReferenceIdeal.ReadP.val_main_v66_apply, Cert.ReferenceIdeal.ReadP.val_main_v69_apply, Cert.ReferenceIdeal.ReadP.val_main_v68_apply,
    Cert.ReferenceIdeal.ReadP.val_main_call2_v0_apply, Cert.ReferenceIdeal.ReadP.val_main_call2_cst_apply,
    shapeCast_a_1a_apply, shapeCast_a_1a_apply]
  generalize Cert.ReferenceIdeal.ReadP.val_main_v61 (F := Ideal) x0 x1 x2 x3 x4 = A
  generalize Cert.ReferenceIdeal.ReadP.val_main_v47 (F := Ideal) x0 x1 x2 x3 = H
  have e5 : Cert.ReferenceIdeal.ReadP.idx_main_v62 (Cert.ReferenceIdeal.ReadP.idx_main_v63 (ix2 p q)) = ix1 q :=
    funext fun a => Fin.ext (by match a with | ⟨0, _⟩ => rfl)
  have e7 : Cert.ReferenceIdeal.ReadP.idx_main_v68 (Cert.ReferenceIdeal.ReadP.idx_main_v69 (ix2 p q)) = ix1 q :=
    funext fun a => Fin.ext (by match a with | ⟨0, _⟩ => rfl)
  have el : ∀ k : Fin 512, Cert.ReferenceIdeal.ReadP.lidx_main_v66 (ix2 p q) k = ix2 p k := fun k =>
    funext fun a => Fin.ext (by match a with | ⟨0, _⟩ => rfl | ⟨1, _⟩ => rfl)
  have er : ∀ k : Fin 512, Cert.ReferenceIdeal.ReadP.ridx_main_v66 (ix2 p q) k = ix2 k q := fun k =>
    funext fun a => Fin.ext (by match a with | ⟨0, _⟩ => rfl | ⟨1, _⟩ => rfl)
  simp only [e5, e7, el, er]
  exact add_assoc _ _ _

-- any contents of the core's buffers at the region's entry, at the extended reals
variable (V : (c : Dev nD) → (b : Ref sig .tc) → Buf (Elt Ideal) ((c : Thread nD τ).loc b))

/-! ## The blocks a grid point works on -/

/-- The printed index maps, decided over the grid: the three row-blocked windows (aggregation, hidden layer, features) sit
    at block row `t`, column block 0; the residual's weights and the two biases are whole at block (0, 0). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_9.index t (0 : Fin 2) = t.val ∧ win2_9.index t (1 : Fin 2) = 0 :=
  (by decide +kernel : ∀ t : Fin grid2.N, _)

/-- Row `p` of grid point `t`'s block is row `2000 t + p` of the array. -/
def rowAt (t : Fin cfg2.N) (p : Fin 2000) : Fin 50000 :=
  ⟨t.val * 2000 + p.val, by have h := t.isLt; have hN : cfg2.N = 25 := N_2; omega⟩

theorem rowAt_val (t : Fin cfg2.N) (p : Fin 2000) : (rowAt t p).val = t.val * 2000 + p.val := rfl

/-- The aggregation's block at point `t` holds rows `2000 t …` of the aggregation. -/
theorem aggregation_block (c : Dev nD) (t : Fin cfg2.N) (p : Fin 2000) (q : Fin 128) :
    Head.blockAt V c 0 t (ix2 p q) = V c main_v58 (ix2 (rowAt t p) q) := by
  obtain ⟨e0, e1, -⟩ := index_facts t
  unfold Head.blockAt
  show V c main_v58 (((cfg2.win 0).blk t).view.emb (ix2 p q)) = V c main_v58 (ix2 (rowAt t p) q)
  refine congrArg (V c main_v58) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * q.val = q.val; rw [e1]; omega

/-- The second bias's block is the whole one-row matrix. -/
theorem bias_block (c : Dev nD) (t : Fin cfg2.N) (u : Fin 1) (q : Fin 128) :
    Head.blockAt V c 1 t (ix2 u q) = V c main_v59 (ix2 u q) := by
  obtain ⟨-, -, e0, e1, -⟩ := index_facts t
  unfold Head.blockAt
  show V c main_v59 (((cfg2.win 1).blk t).view.emb (ix2 u q)) = V c main_v59 (ix2 u q)
  refine congrArg (V c main_v59) (funext fun a => Fin.ext ?_)
  match a with
  | ⟨0, _⟩ => show win2_1.index t (0 : Fin 2) * 1 + 1 * u.val = u.val; rw [e0]; omega
  | ⟨1, _⟩ => show win2_1.index t (1 : Fin 2) * 128 + 1 * q.val = q.val; rw [e1]; omega

/-- The hidden layer's block at point `t` holds rows `2000 t …` of the hidden layer. -/
theorem hidden_block (c : Dev nD) (t : Fin cfg2.N) (p : Fin 2000) (k : Fin 512) :
    Head.blockAt V c 2 t (ix2 p k) = V c main_v45_0 (ix2 (rowAt t p) k) := by
  obtain ⟨-, -, -, -, e0, e1, -⟩ := index_facts t
  unfold Head.blockAt
  show V c main_v45_0 (((cfg2.win 2).blk t).view.emb (ix2 p k)) = V c main_v45_0 (ix2 (rowAt t p) k)
  refine congrArg (V c main_v45_0) (funext fun a => Fin.ext ?_)
  match a with
  | ⟨0, _⟩ => show win2_2.index t (0 : Fin 2) * 2000 + 1 * p.val = t.val * 2000 + p.val; rw [e0]; omega
  | ⟨1, _⟩ => show win2_2.index t (1 : Fin 2) * 512 + 1 * k.val = k.val; rw [e1]; omega

/-- The residual weights' block is the whole matrix. -/
theorem residual_weights_block (c : Dev nD) (t : Fin cfg2.N) (k : Fin 512) (q : Fin 128) :
    Head.blockAt V c 3 t (ix2 k q) = V c main_arg6 (ix2 k q) := by
  obtain ⟨-, -, -, -, -, -, e0, e1, -⟩ := index_facts t
  unfold Head.blockAt
  show V c main_arg6 (((cfg2.win 3).blk t).view.emb (ix2 k q)) = V c main_arg6 (ix2 k q)
  refine congrArg (V c main_arg6) (funext fun a => Fin.ext ?_)
  match a with
  | ⟨0, _⟩ => show win2_3.index t (0 : Fin 2) * 512 + 1 * k.val = k.val; rw [e0]; omega
  | ⟨1, _⟩ => show win2_3.index t (1 : Fin 2) * 128 + 1 * q.val = q.val; rw [e1]; omega

/-- The residual bias's block is the whole one-row matrix. -/
theorem residual_bias_block (c : Dev nD) (t : Fin cfg2.N) (u : Fin 1) (q : Fin 128) :
    Head.blockAt V c 4 t (ix2 u q) = V c main_v60 (ix2 u q) := by
  obtain ⟨-, -, -, -, -, -, -, -, e0, e1, -⟩ := index_facts t
  unfold Head.blockAt
  show V c main_v60 (((cfg2.win 4).blk t).view.emb (ix2 u q)) = V c main_v60 (ix2 u q)
  refine congrArg (V c main_v60) (funext fun a => Fin.ext ?_)
  match a with
  | ⟨0, _⟩ => show win2_4.index t (0 : Fin 2) * 1 + 1 * u.val = u.val; rw [e0]; omega
  | ⟨1, _⟩ => show win2_4.index t (1 : Fin 2) * 128 + 1 * q.val = q.val; rw [e1]; omega

/-- What point `t` computes at row `p`, column `q` of its block is the node features at row `2000 t + p`. -/
theorem features_block_apply (c : Dev nD) (t : Fin cfg2.N) (p : Fin 2000) (q : Fin 128) :
    k2_pay2 (F := Ideal) (Head.blockAt V c 0 t) (Head.blockAt V c 1 t) (Head.blockAt V c 2 t) (Head.blockAt V c 3 t) (Head.blockAt V c 4 t) (ix2 p q)
      = featuresAt (V c main_v58) (V c main_v59) (V c main_v45_0) (V c main_arg6) (V c main_v60) (rowAt t p) q := by
  rw [features_payload_apply]
  unfold featuresAt
  simp only [aggregation_block, bias_block, hidden_block, residual_weights_block, residual_bias_block]

/-- What point `t` writes back to the features' array is block `t` of the node features. -/
theorem features_flushed (c : Dev nD) (t : Fin cfg2.N) :
    (Head.dat (F := Ideal) V c).flushed 9 t
      = ((cfg2.win 9).blk t).view.read (Elt Ideal) (featuresOf (V c main_v58) (V c main_v59) (V c main_v45_0) (V c main_arg6) (V c main_v60)) := by
  show (cfg2.win 9).cut (grid2.coords t) ((Head.dat (F := Ideal) V c).after 9 t) = _
  rw [Head.after_features]
  unfold Head.features
  rw [View.canon_unit_zero zero_offsets]
  simp only [View.ld_unit_zero (S := S2000x128) zero_offsets, View.ld_unit_zero (S := S1x128) zero_offsets,
    View.ld_unit_zero (S := S2000x512) zero_offsets, View.ld_unit_zero (S := S512x128) zero_offsets]
  obtain ⟨-, -, -, -, -, -, -, -, -, -, e0, e1⟩ := index_facts t
  funext j
  obtain ⟨p, q, rfl⟩ : ∃ (p : Fin 2000) (q : Fin 128), j = ix2 p q := ⟨j 0, j 1, eq_ix2 (n0 := 2000) (n1 := 128) j⟩
  show k2_pay2 (F := Ideal) (Head.blockAt V c 0 t) (Head.blockAt V c 1 t) (Head.blockAt V c 2 t) (Head.blockAt V c 3 t) (Head.blockAt V c 4 t) (ix2 p q)
    = featuresOf (V c main_v58) (V c main_v59) (V c main_v45_0) (V c main_arg6) (V c main_v60) (((cfg2.win 9).blk t).view.emb (ix2 p q))
  rw [features_block_apply]
  have hemb : ((cfg2.win 9).blk t).view.emb (ix2 p q) = ix2 (rowAt t p) q := by
    funext a; apply Fin.ext
    match a with
    | ⟨0, _⟩ => show win2_9.index t (0 : Fin 2) * 2000 + 1 * p.val = t.val * 2000 + p.val; rw [e0]; omega
    | ⟨1, _⟩ => show win2_9.index t (1 : Fin 2) * 128 + 1 * q.val = q.val; rw [e1]; omega
  rw [hemb, featuresOf_apply]

/-! ## From the blocks to the features' array -/

/-- An index of the features' array is in point `t`'s block iff each coordinate is in the block's range on its axis. -/
theorem mem_features_block (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v63_0).slice (win2_9.rect t)).set ↔ _
  rw [View.set_slice_whole, Rect.mem_set_unit]
  exact Iff.rfl

/-- Row `r` of the features' array lies in the block of point `r / 2000`, which is written back. -/
theorem features_cover (i : S50000x128.Idx) :
    ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, e0, e1⟩ := index_facts t
  refine ⟨t, flush2_9 t, ?_⟩
  rw [mem_features_block]
  intro a
  match a with
  | ⟨0, _⟩ => show win2_9.index t (0 : Fin 2) * 2000 ≤ (i 0).val ∧ (i 0).val < win2_9.index t (0 : Fin 2) * 2000 + 2000; rw [e0, ht]; omega
  | ⟨1, _⟩ => show win2_9.index t (1 : Fin 2) * 128 ≤ (i 1).val ∧ (i 1).val < win2_9.index t (1 : Fin 2) * 128 + 128; rw [e1]; omega

/-- The features' array after the region, from the arrays the region finds. -/
theorem features_final (c : Dev nD) :
    (Head.dat (F := Ideal) V c).arrAt 9 cfg2.N = featuresOf (V c main_v58) (V c main_v59) (V c main_v45_0) (V c main_arg6) (V c main_v60) :=
  (Head.dat (F := Ideal) V c).arrAt_eq_of_cover 9 _ (fun t _ => features_flushed V c t) features_cover

theorem features_array (c : Dev nD) (x0 : (⟨S50000x128, .f32⟩ : BufTy).Contents (Elt Ideal)) (x1 : (⟨S2x400000, .i32⟩ : BufTy).Contents (Elt Ideal)) (x2 : (⟨S128x512, .f32⟩ : BufTy).Contents (Elt Ideal)) (x3 : (⟨S512, .f32⟩ : BufTy).Contents (Elt Ideal)) (x4 : (⟨S512x128, .f32⟩ : BufTy).Contents (Elt Ideal)) (x5 : (⟨S128, .f32⟩ : BufTy).Contents (Elt Ideal)) (x6 : (⟨S512x128, .f32⟩ : BufTy).Contents (Elt Ideal)) (x7 : (⟨S128, .f32⟩ : BufTy).Contents (Elt Ideal))
    (hagg : V c main_v58 = Cert.ReferenceIdeal.ReadP.val_main_v61 (F := Ideal) x0 x1 x2 x3 x4)
    (hb2 : V c main_v59 = shapeCast S1x128 x5 shapeCasts_S128_S1x128)
    (hhid : V c main_v45_0 = Cert.ReferenceIdeal.ReadP.val_main_v47 (F := Ideal) x0 x1 x2 x3)
    (hwres : V c main_arg6 = x6)
    (hbres : V c main_v60 = shapeCast S1x128 x7 shapeCasts_S128_S1x128) :
    (Head.dat (F := Ideal) V c).arrAt 9 cfg2.N = Cert.ReferenceIdeal.ReadP.val_main_v70 (F := Ideal) x0 x1 x2 x3 x4 x5 x6 x7 := by
  rw [features_final, hagg, hb2, hhid, hwres, hbres, reference_features]

/-! ## The head's two block products read at an index -/

theorem lhs_head1_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_head1_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_head1_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_head1_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The head's first product of a block: row p of the features' block against column k of the first head matrix. -/
theorem head_first_product_apply (l : FVec Ideal S2000x128 .bf16) (r : FVec Ideal S128x256 .bf16) (p : Fin 2000) (k : Fin 256) :
    matmul dot_S2000x128_S128x256_S2000x256_1_0_0_1_n_n none l r (constant S2000x256 .f32 0x00000000#32) (ix2 p k)
      = ∑ m : Fin 128, l (ix2 p m) * r (ix2 m k) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun m _ => ?_
  have hk := ValueIdx.contrEquiv1_symm_val dot_S2000x128_S128x256_S2000x256_1_0_0_1_n_n 128 rfl rfl m
  have el : dot_S2000x128_S128x256_S2000x256_1_0_0_1_n_n.lhsIdx (ix2 p k) ((ValueIdx.contrEquiv1 dot_S2000x128_S128x256_S2000x256_1_0_0_1_n_n 128 rfl rfl).symm m) = ix2 p m := funext fun a => Fin.ext (by
    match a with
    | ⟨0, _⟩ => exact lhs_head1_0 _ _
    | ⟨1, _⟩ => exact (lhs_head1_1 _ _).trans hk)
  have er : dot_S2000x128_S128x256_S2000x256_1_0_0_1_n_n.rhsIdx (ix2 p k) ((ValueIdx.contrEquiv1 dot_S2000x128_S128x256_S2000x256_1_0_0_1_n_n 128 rfl rfl).symm m) = ix2 m k := funext fun a => Fin.ext (by
    match a with
    | ⟨0, _⟩ => exact (rhs_head1_0 _ _).trans hk
    | ⟨1, _⟩ => exact rhs_head1_1 _ _)
  rw [el, er]

theorem lhs_head2_0 (i : S2000x1.Idx) (q : dot_S2000x256_S256x1_S2000x1_1_0_0_1_n_n.contr.Idx) :
    (dot_S2000x256_S256x1_S2000x1_1_0_0_1_n_n.lhsIdx i q 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
theorem lhs_head2_1 (i : S2000x1.Idx) (q : dot_S2000x256_S256x1_S2000x1_1_0_0_1_n_n.contr.Idx) :
    (dot_S2000x256_S256x1_S2000x1_1_0_0_1_n_n.lhsIdx i q 1).val = (q ⟨0, by decide⟩).val :=
  dot_S2000x256_S256x1_S2000x1_1_0_0_1_n_n.lhsIdx_val_of_single rfl i q
theorem rhs_head2_0 (i : S2000x1.Idx) (q : dot_S2000x256_S256x1_S2000x1_1_0_0_1_n_n.contr.Idx) :
    (dot_S2000x256_S256x1_S2000x1_1_0_0_1_n_n.rhsIdx i q 0).val = (q ⟨0, by decide⟩).val :=
  dot_S2000x256_S256x1_S2000x1_1_0_0_1_n_n.rhsIdx_val_of_single rfl i q
theorem rhs_head2_1 (i : S2000x1.Idx) (q : dot_S2000x256_S256x1_S2000x1_1_0_0_1_n_n.contr.Idx) :
    (dot_S2000x256_S256x1_S2000x1_1_0_0_1_n_n.rhsIdx i q 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

/-- The head's second product of a block: row p of the clamped layer against the one column of the second head matrix. -/
theorem head_second_product_apply (l : FVec Ideal S2000x256 .bf16) (r : FVec Ideal S256x1 .bf16) (p : Fin 2000) (q : Fin 1) :
    matmul dot_S2000x256_S256x1_S2000x1_1_0_0_1_n_n none l r (constant S2000x1 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x1_S2000x1_1_0_0_1_n_n 256 rfl rfl).symm]
  refine Finset.sum_congr rfl fun k _ => ?_
  have hk := ValueIdx.contrEquiv1_symm_val dot_S2000x256_S256x1_S2000x1_1_0_0_1_n_n 256 rfl rfl k
  have el : dot_S2000x256_S256x1_S2000x1_1_0_0_1_n_n.lhsIdx (ix2 p q) ((ValueIdx.contrEquiv1 dot_S2000x256_S256x1_S2000x1_1_0_0_1_n_n 256 rfl rfl).symm k) = ix2 p k := funext fun a => Fin.ext (by
    match a with
    | ⟨0, _⟩ => exact lhs_head2_0 _ _
    | ⟨1, _⟩ => exact (lhs_head2_1 _ _).trans hk)
  have er : dot_S2000x256_S256x1_S2000x1_1_0_0_1_n_n.rhsIdx (ix2 p q) ((ValueIdx.contrEquiv1 dot_S2000x256_S256x1_S2000x1_1_0_0_1_n_n 256 rfl rfl).symm k) = ix2 k q := funext fun a => Fin.ext (by
    match a with
    | ⟨0, _⟩ => exact (rhs_head2_0 _ _).trans hk
    | ⟨1, _⟩ => exact rhs_head2_1 _ _)
  rw [el, er]

/-! ## The score -/

/-- The score's payload at row p of a block: the features' row against the first head matrix, plus its bias, clamped at
    zero, against the second head matrix's column, plus the last bias. -/
theorem score_payload_apply (g : Vec Ideal S2000x128 .f32) (b : Vec Ideal S1x128 .f32) (x : Vec Ideal S2000x512 .f32) (wr : Vec Ideal S512x128 .f32) (br : Vec Ideal S1x128 .f32)
    (w1 : Vec Ideal S128x256 .f32) (b1 : Vec Ideal S1x256 .f32) (w2 : Vec Ideal S256x1 .f32) (b2 : Vec Ideal S1x1 .f32) (p : Fin 2000) (q : Fin 1) :
    k2_pay1 (F := Ideal) (k2_pay3 g b x wr br w1 b1 w2) b2 (ix2 p q)
      = (∑ k : Fin 256, max ((∑ m : Fin 128, k2_pay2 (F := Ideal) g b x wr br (ix2 p m) * w1 (ix2 m k)) + b1 (ix2 (0 : Fin 1) k)) (FloatOps.ofBits (F := Ideal) .f32 0x00000000#32) * w2 (ix2 k q))
        + b2 (ix2 (0 : Fin 1) q) := by
  unfold k2_pay1 k2_pay3
  simp only [shapeCast_self]
  rw [addf_apply, broadcastTo_1b_ab_apply, head_second_product_apply]
  simp only [truncf_apply, maximumf_apply, addf_apply, head_first_product_apply, broadcastTo_1b_ab_apply, broadcast_apply]

/-- The score at row p (column q, of one) from the whole node features Ft, the two head matrices and their biases as
    one-row matrices: the features' row against the first matrix, plus its bias, clamped at zero, against the second
    matrix's column, plus the last bias. -/
def scoreAt (Ft : Vec Ideal S50000x128 .f32) (w1 : Vec Ideal S128x256 .f32) (b1 : Vec Ideal S1x256 .f32) (w2 : Vec Ideal S256x1 .f32) (b2 : Vec Ideal S1x1 .f32) (p : Fin 50000) (q : Fin 1) : Elt Ideal .f32 :=
  (∑ k : Fin 256, max ((∑ m : Fin 128, Ft (ix2 p m) * w1 (ix2 m k)) + b1 (ix2 (0 : Fin 1) k)) (FloatOps.ofBits (F := Ideal) .f32 0x00000000#32) * w2 (ix2 k q))
    + b2 (ix2 (0 : Fin 1) q)

/-- The score as a whole array. -/
def scoreOf (Ft : Vec Ideal S50000x128 .f32) (w1 : Vec Ideal S128x256 .f32) (b1 : Vec Ideal S1x256 .f32) (w2 : Vec Ideal S256x1 .f32) (b2 : Vec Ideal S1x1 .f32) : Vec Ideal S50000x1 .f32 :=
  fun i => scoreAt Ft w1 b1 w2 b2 (i 0) (i 1)

theorem scoreOf_apply (Ft : Vec Ideal S50000x128 .f32) (w1 : Vec Ideal S128x256 .f32) (b1 : Vec Ideal S1x256 .f32) (w2 : Vec Ideal S256x1 .f32) (b2 : Vec Ideal S1x1 .f32) (p : Fin 50000) (q : Fin 1) :
    scoreOf Ft w1 b1 w2 b2 (ix2 p q) = scoreAt Ft w1 b1 w2 b2 p q := rfl

/-- The reference's score is that function of its node features: each of its two products is the sum over the
    contracted axis, each bias is read at its column, and its clamp is the maximum with zero. -/
theorem reference_score (x0 : (⟨S50000x128, .f32⟩ : BufTy).Contents (Elt Ideal)) (x1 : (⟨S2x400000, .i32⟩ : BufTy).Contents (Elt Ideal)) (x2 : (⟨S128x512, .f32⟩ : BufTy).Contents (Elt Ideal)) (x3 : (⟨S512, .f32⟩ : BufTy).Contents (Elt Ideal)) (x4 : (⟨S512x128, .f32⟩ : BufTy).Contents (Elt Ideal)) (x5 : (⟨S128, .f32⟩ : BufTy).Contents (Elt Ideal)) (x6 : (⟨S512x128, .f32⟩ : BufTy).Contents (Elt Ideal)) (x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) :
    Cert.ReferenceIdeal.ReadP.val_main_v79 (F := Ideal) x0 x1 x2 x3 x4 x5 x6 x7 x8 x9 x10 x11
      = scoreOf (Cert.ReferenceIdeal.ReadP.val_main_v70 (F := Ideal) x0 x1 x2 x3 x4 x5 x6 x7) x8 (shapeCast S1x256 x9 shapeCasts_S256_S1x256) x10 (shapeCast S1x1 x11 shapeCasts_S1_S1x1) := by
  funext i
  obtain ⟨p, q, rfl⟩ : ∃ (p : Fin 50000) (q : Fin 1), i = ix2 p q := ⟨i 0, i 1, eq_ix2 i⟩
  rw [scoreOf_apply]
  unfold scoreAt
  rw [Cert.ReferenceIdeal.ReadP.val_main_v79_apply, Cert.ReferenceIdeal.ReadP.val_main_v76_apply, Cert.ReferenceIdeal.ReadP.val_main_v78_apply, Cert.ReferenceIdeal.ReadP.val_main_v77_apply]
  simp only [Cert.ReferenceIdeal.ReadP.val_main_v75_apply, Cert.ReferenceIdeal.ReadP.val_main_call3_v0_apply, Cert.ReferenceIdeal.ReadP.val_main_call3_cst_apply,
    Cert.ReferenceIdeal.ReadP.val_main_v74_apply, Cert.ReferenceIdeal.ReadP.val_main_v71_apply, Cert.ReferenceIdeal.ReadP.val_main_v73_apply, Cert.ReferenceIdeal.ReadP.val_main_v72_apply, shapeCast_a_1a_apply]
  generalize Cert.ReferenceIdeal.ReadP.val_main_v70 (F := Ideal) x0 x1 x2 x3 x4 x5 x6 x7 = Ft
  have el2 : ∀ k : Fin 256, Cert.ReferenceIdeal.ReadP.lidx_main_v76 (ix2 p q) k = ix2 p k := fun k =>
    funext fun a => Fin.ext (by match a with | ⟨0, _⟩ => rfl | ⟨1, _⟩ => rfl)
  have er2 : ∀ k : Fin 256, Cert.ReferenceIdeal.ReadP.ridx_main_v76 (ix2 p q) k = ix2 k q := fun k =>
    funext fun a => Fin.ext (by match a with | ⟨0, _⟩ => rfl | ⟨1, _⟩ => rfl)
  have el1 : ∀ (k : Fin 256) (m : Fin 128), Cert.ReferenceIdeal.ReadP.lidx_main_v71 (ix2 p k) m = ix2 p m := fun k m =>
    funext fun a => Fin.ext (by match a with | ⟨0, _⟩ => rfl | ⟨1, _⟩ => rfl)
  have er1 : ∀ (k : Fin 256) (m : Fin 128), Cert.ReferenceIdeal.ReadP.ridx_main_v71 (ix2 p k) m = ix2 m k := fun k m =>
    funext fun a => Fin.ext (by match a with | ⟨0, _⟩ => rfl | ⟨1, _⟩ => rfl)
  have e9 : ∀ k : Fin 256, Cert.ReferenceIdeal.ReadP.idx_main_v72 (Cert.ReferenceIdeal.ReadP.idx_main_v73 (ix2 p k)) = ix1 k := fun k =>
    funext fun a => Fin.ext (by match a with | ⟨0, _⟩ => rfl)
  have e11 : Cert.ReferenceIdeal.ReadP.idx_main_v77 (Cert.ReferenceIdeal.ReadP.idx_main_v78 (ix2 p q)) = ix1 q :=
    funext fun a => Fin.ext (by match a with | ⟨0, _⟩ => show 0 = q.val; omega)
  simp only [el2, er2, el1, er1, e9, e11]
  rfl

/-! ## The blocks of the head's operands and of the score -/

/-- The printed index maps of the head's windows, decided over the grid: the two head matrices and their two biases are
    whole at block (0, 0); the score column sits at block row t, column block 0. -/
theorem score_index_facts : ∀ t : Fin cfg2.N,
    win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_10.index t (0 : Fin 2) = t.val ∧ win2_10.index t (1 : Fin 2) = 0 :=
  (by decide +kernel : ∀ t : Fin grid2.N, _)

/-- The first head matrix's block is the whole matrix. -/
theorem head_weights_block (c : Dev nD) (t : Fin cfg2.N) (m : Fin 128) (k : Fin 256) :
    Head.blockAt V c 5 t (ix2 m k) = V c main_arg8 (ix2 m k) := by
  obtain ⟨e0, e1, -⟩ := score_index_facts t
  unfold Head.blockAt
  show V c main_arg8 (((cfg2.win 5).blk t).view.emb (ix2 m k)) = V c main_arg8 (ix2 m k)
  refine congrArg (V c main_arg8) (funext fun a => Fin.ext ?_)
  match a with
  | ⟨0, _⟩ => show win2_5.index t (0 : Fin 2) * 128 + 1 * m.val = m.val; rw [e0]; omega
  | ⟨1, _⟩ => show win2_5.index t (1 : Fin 2) * 256 + 1 * k.val = k.val; rw [e1]; omega

/-- The first head bias's block is the whole one-row matrix. -/
theorem head_bias_block (c : Dev nD) (t : Fin cfg2.N) (u : Fin 1) (k : Fin 256) :
    Head.blockAt V c 6 t (ix2 u k) = V c main_v61 (ix2 u k) := by
  obtain ⟨-, -, e0, e1, -⟩ := score_index_facts t
  unfold Head.blockAt
  show V c main_v61 (((cfg2.win 6).blk t).view.emb (ix2 u k)) = V c main_v61 (ix2 u k)
  refine congrArg (V c main_v61) (funext fun a => Fin.ext ?_)
  match a with
  | ⟨0, _⟩ => show win2_6.index t (0 : Fin 2) * 1 + 1 * u.val = u.val; rw [e0]; omega
  | ⟨1, _⟩ => show win2_6.index t (1 : Fin 2) * 256 + 1 * k.val = k.val; rw [e1]; omega

/-- The second head matrix's block is the whole one-column matrix. -/
theorem head_column_block (c : Dev nD) (t : Fin cfg2.N) (k : Fin 256) (q : Fin 1) :
    Head.blockAt V c 7 t (ix2 k q) = V c main_arg10 (ix2 k q) := by
  obtain ⟨-, -, -, -, e0, e1, -⟩ := score_index_facts t
  unfold Head.blockAt
  show V c main_arg10 (((cfg2.win 7).blk t).view.emb (ix2 k q)) = V c main_arg10 (ix2 k q)
  refine congrArg (V c main_arg10) (funext fun a => Fin.ext ?_)
  match a with
  | ⟨0, _⟩ => show win2_7.index t (0 : Fin 2) * 256 + 1 * k.val = k.val; rw [e0]; omega
  | ⟨1, _⟩ => show win2_7.index t (1 : Fin 2) * 1 + 1 * q.val = q.val; rw [e1]; omega

/-- The last bias's block is the whole one-by-one matrix. -/
theorem head_last_bias_block (c : Dev nD) (t : Fin cfg2.N) (u : Fin 1) (q : Fin 1) :
    Head.blockAt V c 8 t (ix2 u q) = V c main_v62 (ix2 u q) := by
  obtain ⟨-, -, -, -, -, -, e0, e1, -⟩ := score_index_facts t
  unfold Head.blockAt
  show V c main_v62 (((cfg2.win 8).blk t).view.emb (ix2 u q)) = V c main_v62 (ix2 u q)
  refine congrArg (V c main_v62) (funext fun a => Fin.ext ?_)
  match a with
  | ⟨0, _⟩ => show win2_8.index t (0 : Fin 2) * 1 + 1 * u.val = u.val; rw [e0]; omega
  | ⟨1, _⟩ => show win2_8.index t (1 : Fin 2) * 1 + 1 * q.val = q.val; rw [e1]; omega

/-- What point t computes at row p of its score block is the score at row 2000 t + p of the node features. -/
theorem score_block_apply (c : Dev nD) (t : Fin cfg2.N) (p : Fin 2000) (q : Fin 1) :
    k2_pay1 (F := Ideal) (k2_pay3 (Head.blockAt V c 0 t) (Head.blockAt V c 1 t) (Head.blockAt V c 2 t) (Head.blockAt V c 3 t) (Head.blockAt V c 4 t) (Head.blockAt V c 5 t) (Head.blockAt V c 6 t) (Head.blockAt V c 7 t)) (Head.blockAt V c 8 t) (ix2 p q)
      = scoreAt (featuresOf (V c main_v58) (V c main_v59) (V c main_v45_0) (V c main_arg6) (V c main_v60)) (V c main_arg8) (V c main_v61) (V c main_arg10) (V c main_v62) (rowAt t p) q := by
  rw [score_payload_apply]
  unfold scoreAt
  simp only [features_block_apply, featuresOf_apply, head_weights_block, head_bias_block, head_column_block, head_last_bias_block]

/-- What point t writes back to the score's array is block t of the score. -/
theorem score_flushed (c : Dev nD) (t : Fin cfg2.N) :
    (Head.dat (F := Ideal) V c).flushed 10 t
      = ((cfg2.win 10).blk t).view.read (Elt Ideal) (scoreOf (featuresOf (V c main_v58) (V c main_v59) (V c main_v45_0) (V c main_arg6) (V c main_v60)) (V c main_arg8) (V c main_v61) (V c main_arg10) (V c main_v62)) := by
  show (cfg2.win 10).cut (grid2.coords t) ((Head.dat (F := Ideal) V c).after 10 t) = _
  rw [Head.after_score]
  unfold Head.score
  rw [View.canon_unit_zero zero_offsets]
  simp only [View.ld_unit_zero (S := S2000x128) zero_offsets, View.ld_unit_zero (S := S1x128) zero_offsets,
    View.ld_unit_zero (S := S2000x512) zero_offsets, View.ld_unit_zero (S := S512x128) zero_offsets,
    View.ld_unit_zero (S := S128x256) zero_offsets, View.ld_unit_zero (S := S1x256) zero_offsets,
    View.ld_unit_zero (S := S256x1) zero_offsets, View.ld_unit_zero (S := S1x1) zero_offsets]
  obtain ⟨-, -, -, -, -, -, -, -, e0, e1⟩ := score_index_facts t
  funext j
  obtain ⟨p, q, rfl⟩ : ∃ (p : Fin 2000) (q : Fin 1), j = ix2 p q := ⟨j 0, j 1, eq_ix2 (n0 := 2000) (n1 := 1) j⟩
  show k2_pay1 (F := Ideal) (k2_pay3 (Head.blockAt V c 0 t) (Head.blockAt V c 1 t) (Head.blockAt V c 2 t) (Head.blockAt V c 3 t) (Head.blockAt V c 4 t) (Head.blockAt V c 5 t) (Head.blockAt V c 6 t) (Head.blockAt V c 7 t)) (Head.blockAt V c 8 t) (ix2 p q)
    = scoreOf (featuresOf (V c main_v58) (V c main_v59) (V c main_v45_0) (V c main_arg6) (V c main_v60)) (V c main_arg8) (V c main_v61) (V c main_arg10) (V c main_v62) (((cfg2.win 10).blk t).view.emb (ix2 p q))
  rw [score_block_apply]
  have hemb : ((cfg2.win 10).blk t).view.emb (ix2 p q) = ix2 (rowAt t p) q := by
    funext a; apply Fin.ext
    match a with
    | ⟨0, _⟩ => show win2_10.index t (0 : Fin 2) * 2000 + 1 * p.val = t.val * 2000 + p.val; rw [e0]; omega
    | ⟨1, _⟩ => show win2_10.index t (1 : Fin 2) * 1 + 1 * q.val = q.val; rw [e1]; omega
  rw [hemb, scoreOf_apply]

/-! ## From the blocks to the score's array -/

/-- An index of the score's array is in point t's block iff each coordinate is in the block's range on its axis. -/
theorem mem_score_block (t : Fin cfg2.N) (i : S50000x1.Idx) :
    i ∈ ((cfg2.win 10).blk t).view.set ↔ ∀ a : Fin 2, win2_10.index t a * S2000x1.size a ≤ (i a).val ∧ (i a).val < win2_10.index t a * S2000x1.size a + S2000x1.size a := by
  show i ∈ ((View.whole main_v63_1).slice (win2_10.rect t)).set ↔ _
  rw [View.set_slice_whole, Rect.mem_set_unit]
  exact Iff.rfl

/-- Row r of the score's array lies in the block of point r / 2000, which is written back. -/
theorem score_cover (i : S50000x1.Idx) :
    ∃ t : Fin cfg2.N, (cfg2.win 10).flush t = true ∧ i ∈ ((cfg2.win 10).blk t).view.set := by
  have hi0 : (i 0).val < 50000 := (i 0).isLt
  have hi1 : (i 1).val < 1 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, e0, e1⟩ := score_index_facts t
  refine ⟨t, flush2_10 t, ?_⟩
  rw [mem_score_block]
  intro a
  match a with
  | ⟨0, _⟩ => show win2_10.index t (0 : Fin 2) * 2000 ≤ (i 0).val ∧ (i 0).val < win2_10.index t (0 : Fin 2) * 2000 + 2000; rw [e0, ht]; omega
  | ⟨1, _⟩ => show win2_10.index t (1 : Fin 2) * 1 ≤ (i 1).val ∧ (i 1).val < win2_10.index t (1 : Fin 2) * 1 + 1; rw [e1]; omega

/-- The score's array after the region, from the arrays the region finds. -/
theorem score_final (c : Dev nD) :
    (Head.dat (F := Ideal) V c).arrAt 10 cfg2.N = scoreOf (featuresOf (V c main_v58) (V c main_v59) (V c main_v45_0) (V c main_arg6) (V c main_v60)) (V c main_arg8) (V c main_v61) (V c main_arg10) (V c main_v62) :=
  (Head.dat (F := Ideal) V c).arrAt_eq_of_cover 10 _ (fun t _ => score_flushed V c t) score_cover

theorem score_array (c : Dev nD) (x0 : (⟨S50000x128, .f32⟩ : BufTy).Contents (Elt Ideal)) (x1 : (⟨S2x400000, .i32⟩ : BufTy).Contents (Elt Ideal)) (x2 : (⟨S128x512, .f32⟩ : BufTy).Contents (Elt Ideal)) (x3 : (⟨S512, .f32⟩ : BufTy).Contents (Elt Ideal)) (x4 : (⟨S512x128, .f32⟩ : BufTy).Contents (Elt Ideal)) (x5 : (⟨S128, .f32⟩ : BufTy).Contents (Elt Ideal)) (x6 : (⟨S512x128, .f32⟩ : BufTy).Contents (Elt Ideal)) (x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal))
    (hagg : V c main_v58 = Cert.ReferenceIdeal.ReadP.val_main_v61 (F := Ideal) x0 x1 x2 x3 x4)
    (hb2 : V c main_v59 = shapeCast S1x128 x5 shapeCasts_S128_S1x128)
    (hhid : V c main_v45_0 = Cert.ReferenceIdeal.ReadP.val_main_v47 (F := Ideal) x0 x1 x2 x3)
    (hwres : V c main_arg6 = x6)
    (hbres : V c main_v60 = shapeCast S1x128 x7 shapeCasts_S128_S1x128)
    (hwfc1 : V c main_arg8 = x8)
    (hbfc1 : V c main_v61 = shapeCast S1x256 x9 shapeCasts_S256_S1x256)
    (hwfc2 : V c main_arg10 = x10)
    (hbfc2 : V c main_v62 = shapeCast S1x1 x11 shapeCasts_S1_S1x1) :
    (Head.dat (F := Ideal) V c).arrAt 10 cfg2.N = Cert.ReferenceIdeal.ReadP.val_main_v79 (F := Ideal) x0 x1 x2 x3 x4 x5 x6 x7 x8 x9 x10 x11 := by
  have hf : featuresOf (V c main_v58) (V c main_v59) (V c main_v45_0) (V c main_arg6) (V c main_v60)
      = Cert.ReferenceIdeal.ReadP.val_main_v70 (F := Ideal) x0 x1 x2 x3 x4 x5 x6 x7 :=
    (features_final V c).symm.trans (features_array V c x0 x1 x2 x3 x4 x5 x6 x7 hagg hb2 hhid hwres hbres)
  rw [score_final, hf, hwfc1, hbfc1, hwfc2, hbfc2, reference_score]

end Cert.KernelIdeal.HeadValue

end
-- ==== Proof.KernelIdeal.Bridge.lean ====
/-
  The kernel program's two results are the reference's two results, at the extended reals, as arrays — walked along the
  thread of the core's buffer contents. Before region 0 the buffers hold the reference's edge list and normalisation;
  region 0 leaves the reference's first matrix product; the stretch after it makes the reference's first aggregation of
  it; region 1 leaves the reference's first hidden layer and its projection; the next stretch makes the second
  aggregation; region 2 leaves the reference's node features and score column. The arguments are written by no item,
  so wherever a stretch or a region reads one it finds the launch contents.
-/
import proofs.«151933_j70214125355147_1_alg».proof.Proof.KernelIdeal.Threads
import proofs.«151933_j70214125355147_1_alg».proof.Proof.KernelIdeal.Stretches
import proofs.«151933_j70214125355147_1_alg».proof.Proof.KernelIdeal.ProjectValue
import proofs.«151933_j70214125355147_1_alg».proof.Proof.KernelIdeal.HiddenValue
import proofs.«151933_j70214125355147_1_alg».proof.Proof.KernelIdeal.HeadValue

set_option maxRecDepth 16384

noncomputable section

namespace Cert.KernelIdeal.Bridge

open Cert.KernelIdeal Cert.KernelIdeal.Gen Cert.KernelIdeal.Threads
open Idealize.ShloMosaic Idealize.ShloMosaic.TcCoe Idealize.SL.Sem

variable (m : (ℓ : Loc nD τ sig) → Buf (Elt Ideal) ℓ) (c : Dev nD)

/-! ## A buffer no item has written yet holds its launch contents -/

theorem launch_at3 (r : Ref sig .tc) (h0 : r ∉ hostOps0_W) (h1 : r ∉ hostOps0_1_W) (h2 : r ∉ hostOps0_2_W) :
    V3 m c r = m ((c : Thread nD τ).loc r) :=
  (V3_of m c r h2).trans ((V2_of m c r h1).trans (V1_of m c r h0))
theorem launch_at4 (r : Ref sig .tc) (h0 : r ∉ hostOps0_W) (h1 : r ∉ hostOps0_1_W) (h2 : r ∉ hostOps0_2_W)
    (h3 : r ∉ ([main_v30] : List (Ref sig .tc))) : V4 m (outsA m) c r = m ((c : Thread nD τ).loc r) :=
  (V4_of m (outsA m) c r h3).trans (launch_at3 m c r h0 h1 h2)
theorem launch_at5 (r : Ref sig .tc) (h0 : r ∉ hostOps0_W) (h1 : r ∉ hostOps0_1_W) (h2 : r ∉ hostOps0_2_W)
    (h3 : r ∉ ([main_v30] : List (Ref sig .tc))) (h4 : r ∉ hostOps1_W) : V5 m (outsA m) c r = m ((c : Thread nD τ).loc r) :=
  (V5_of m (outsA m) c r h4).trans (launch_at4 m c r h0 h1 h2 h3)
theorem launch_at6 (r : Ref sig .tc) (h0 : r ∉ hostOps0_W) (h1 : r ∉ hostOps0_1_W) (h2 : r ∉ hostOps0_2_W)
    (h3 : r ∉ ([main_v30] : List (Ref sig .tc))) (h4 : r ∉ hostOps1_W)
    (h5 : r ∉ ([main_v45_0, main_v45_1] : List (Ref sig .tc))) : V6 m (outsB m) c r = m ((c : Thread nD τ).loc r) :=
  (V6B_of m c r h5).trans (launch_at5 m c r h0 h1 h2 h3 h4)
theorem launch_at7 (r : Ref sig .tc) (h0 : r ∉ hostOps0_W) (h1 : r ∉ hostOps0_1_W) (h2 : r ∉ hostOps0_2_W)
    (h3 : r ∉ ([main_v30] : List (Ref sig .tc))) (h4 : r ∉ hostOps1_W)
    (h5 : r ∉ ([main_v45_0, main_v45_1] : List (Ref sig .tc))) (h6 : r ∉ hostOps2_W) :
    V7 m (outsB m) c r = m ((c : Thread nD τ).loc r) :=
  (V7_of m (outsB m) c r h6).trans (launch_at6 m c r h0 h1 h2 h3 h4 h5)

/-! ## Before region 0: the edge list and the normalisation -/

theorem sources_at3 : V3 m c main_v3 = Cert.ReferenceIdeal.ReadP.val_main_v3 (F := Ideal) (m ((c : Thread nD τ).loc main_arg1)) :=
  (V3_of m c main_v3 (by decide)).trans ((V2_of m c main_v3 (by decide)).trans (Stretches.sources (V0 m c)))
theorem destinations_at3 : V3 m c main_v6 = Cert.ReferenceIdeal.ReadP.val_main_v6 (F := Ideal) (m ((c : Thread nD τ).loc main_arg1)) :=
  (V3_of m c main_v6 (by decide)).trans ((V2_of m c main_v6 (by decide)).trans (Stretches.destinations (V0 m c)))
theorem norm_at3 : V3 m c main_v29 = Cert.ReferenceIdeal.ReadP.val_main_v29 (F := Ideal) (m ((c : Thread nD τ).loc main_arg1)) :=
  Stretches.edge_norm (V2 m c) (m ((c : Thread nD τ).loc main_arg1))
    ((V2_of m c main_v3 (by decide)).trans (Stretches.sources (V0 m c)))
    ((V2_of m c main_v6 (by decide)).trans (Stretches.destinations (V0 m c)))
    (Stretches.node_norm (V1 m c) (m ((c : Thread nD τ).loc main_arg1)) (Stretches.degree_positive (V0 m c)) (Stretches.degree_rsqrt (V0 m c)) (Stretches.where_zero (V0 m c)))

/-! ## Region 0 and the first aggregation -/

theorem product_at4 : V4 m (outsA m) c main_v30 = Cert.ReferenceIdeal.ReadP.val_main_v30 (F := Ideal) (m ((c : Thread nD τ).loc main_arg0)) (m ((c : Thread nD τ).loc main_arg2)) := by
  show Function.update (V3 m c) main_v30 (outsA m 4 main_v30 c) main_v30 = _
  rw [Function.update_self, outsA_proj]
  have h := ProjectValue.product_array (entry0 m) c
  rw [show entry0 m c main_arg0 = m ((c : Thread nD τ).loc main_arg0) from launch_at3 m c main_arg0 (by decide) (by decide) (by decide),
    show entry0 m c main_arg2 = m ((c : Thread nD τ).loc main_arg2) from launch_at3 m c main_arg2 (by decide) (by decide) (by decide)] at h
  exact h

theorem aggregation1_at5 : V5 m (outsA m) c main_v43 = Cert.ReferenceIdeal.ReadP.val_main_v43 (F := Ideal) (m ((c : Thread nD τ).loc main_arg0)) (m ((c : Thread nD τ).loc main_arg1)) (m ((c : Thread nD τ).loc main_arg2)) :=
  Stretches.first_aggregation (V4 m (outsA m) c) (m ((c : Thread nD τ).loc main_arg0)) (m ((c : Thread nD τ).loc main_arg1)) (m ((c : Thread nD τ).loc main_arg2)) (product_at4 m c)
    ((V4_of m (outsA m) c main_v3 (by decide)).trans (sources_at3 m c))
    ((V4_of m (outsA m) c main_v6 (by decide)).trans (destinations_at3 m c))
    ((V4_of m (outsA m) c main_v29 (by decide)).trans (norm_at3 m c))

theorem bias1_at5 : V5 m (outsA m) c main_v44 = shapeCast S1x512 (m ((c : Thread nD τ).loc main_arg3)) shapeCasts_S512_S1x512 :=
  (Stretches.first_bias_row (V4 m (outsA m) c)).trans
    (congrArg (fun z => shapeCast S1x512 z shapeCasts_S512_S1x512) (launch_at4 m c main_arg3 (by decide) (by decide) (by decide) (by decide)))

/-! ## Region 1 and the second aggregation -/

theorem hidden_at6 : V6 m (outsB m) c main_v45_0 = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) := by
  show Function.update (Function.update (V5 m (outsB m) c) main_v45_0 (outsB m 6 main_v45_0 c)) main_v45_1 (outsB m 6 main_v45_1 c) main_v45_0 = _
  rw [Function.update_of_ne (StableHlo.devRef_ne_of_ne (by decide) : (Proc.devRef .tc main_v45_0 : DevRef τ sig) ≠ Proc.devRef .tc main_v45_1),
    Function.update_self, outsB_hidden]
  exact HiddenValue.hidden_array (entry1 m) c (m ((c : Thread nD τ).loc main_arg0)) (m ((c : Thread nD τ).loc main_arg1)) (m ((c : Thread nD τ).loc main_arg2)) (m ((c : Thread nD τ).loc main_arg3)) (aggregation1_at5 m c) (bias1_at5 m c)

theorem projected_at6 : V6 m (outsB m) c main_v45_1 = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show Function.update (Function.update (V5 m (outsB m) c) main_v45_0 (outsB m 6 main_v45_0 c)) main_v45_1 (outsB m 6 main_v45_1 c) main_v45_1 = _
  rw [Function.update_self, outsB_projected]
  exact HiddenValue.projected_array (entry1 m) c (m ((c : Thread nD τ).loc main_arg0)) (m ((c : Thread nD τ).loc main_arg1)) (m ((c : Thread nD τ).loc main_arg2)) (m ((c : Thread nD τ).loc main_arg3)) (m ((c : Thread nD τ).loc main_arg4)) (aggregation1_at5 m c) (bias1_at5 m c)
    (launch_at5 m c main_arg4 (by decide) (by decide) (by decide) (by decide) (by decide))

/-- The edge data are written before region 0 and by nothing after it. -/
theorem edge_at6 (r : Ref sig .tc) (h3 : r ∉ ([main_v30] : List (Ref sig .tc))) (h4 : r ∉ hostOps1_W)
    (h5 : r ∉ ([main_v45_0, main_v45_1] : List (Ref sig .tc))) : V6 m (outsB m) c r = V3 m c r :=
  (V6B_of m c r h5).trans ((V5_of m (outsA m) c r h4).trans (V4_of m (outsA m) c r h3))

theorem aggregation2_at7 : V7 m (outsB m) c main_v58 = Cert.ReferenceIdeal.ReadP.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Stretches.second_aggregation (V6 m (outsB m) c) (m ((c : Thread nD τ).loc main_arg0)) (m ((c : Thread nD τ).loc main_arg1)) (m ((c : Thread nD τ).loc main_arg2)) (m ((c : Thread nD τ).loc main_arg3)) (m ((c : Thread nD τ).loc main_arg4)) (projected_at6 m c)
    ((edge_at6 m c main_v3 (by decide) (by decide) (by decide)).trans (sources_at3 m c))
    ((edge_at6 m c main_v6 (by decide) (by decide) (by decide)).trans (destinations_at3 m c))
    ((edge_at6 m c main_v29 (by decide) (by decide) (by decide)).trans (norm_at3 m c))

theorem bias2_at7 : V7 m (outsB m) c main_v59 = shapeCast S1x128 (m ((c : Thread nD τ).loc main_arg5)) shapeCasts_S128_S1x128 :=
  (Stretches.second_bias_row (V6 m (outsB m) c)).trans
    (congrArg (fun z => shapeCast S1x128 z shapeCasts_S128_S1x128) (launch_at6 m c main_arg5 (by decide) (by decide) (by decide) (by decide) (by decide) (by decide)))
theorem residual_bias_at7 : V7 m (outsB m) c main_v60 = shapeCast S1x128 (m ((c : Thread nD τ).loc main_arg7)) shapeCasts_S128_S1x128 :=
  (Stretches.residual_bias_row (V6 m (outsB m) c)).trans
    (congrArg (fun z => shapeCast S1x128 z shapeCasts_S128_S1x128) (launch_at6 m c main_arg7 (by decide) (by decide) (by decide) (by decide) (by decide) (by decide)))
theorem head_bias_at7 : V7 m (outsB m) c main_v61 = shapeCast S1x256 (m ((c : Thread nD τ).loc main_arg9)) shapeCasts_S256_S1x256 :=
  (Stretches.head_bias_row (V6 m (outsB m) c)).trans
    (congrArg (fun z => shapeCast S1x256 z shapeCasts_S256_S1x256) (launch_at6 m c main_arg9 (by decide) (by decide) (by decide) (by decide) (by decide) (by decide)))
theorem score_bias_at7 : V7 m (outsB m) c main_v62 = shapeCast S1x1 (m ((c : Thread nD τ).loc main_arg11)) shapeCasts_S1_S1x1 :=
  (Stretches.score_bias_row (V6 m (outsB m) c)).trans
    (congrArg (fun z => shapeCast S1x1 z shapeCasts_S1_S1x1) (launch_at6 m c main_arg11 (by decide) (by decide) (by decide) (by decide) (by decide) (by decide)))

theorem hidden_at7 : V7 m (outsB m) c main_v45_0 = Cert.ReferenceIdeal.ReadP.val_main_v47 (F := Ideal) (m ((c : Thread nD τ).loc main_arg0)) (m ((c : Thread nD τ).loc main_arg1)) (m ((c : Thread nD τ).loc main_arg2)) (m ((c : Thread nD τ).loc main_arg3)) :=
  (V7_of m (outsB m) c main_v45_0 (by decide)).trans (hidden_at6 m c)

/-! ## Region 2: the two results -/

theorem features_at8 : V8 m (outs m) c main_v63_0 = Cert.ReferenceIdeal.ReadP.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show Function.update (Function.update (V7 m (outs m) c) main_v63_0 (outs m 8 main_v63_0 c)) main_v63_1 (outs m 8 main_v63_1 c) main_v63_0 = _
  rw [Function.update_of_ne (StableHlo.devRef_ne_of_ne (by decide) : (Proc.devRef .tc main_v63_0 : DevRef τ sig) ≠ Proc.devRef .tc main_v63_1),
    Function.update_self, outs_features]
  exact HeadValue.features_array (entry2 m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (aggregation2_at7 m c) (bias2_at7 m c) (hidden_at7 m c)
    (launch_at7 m c main_arg6 (by decide) (by decide) (by decide) (by decide) (by decide) (by decide) (by decide)) (residual_bias_at7 m c)

theorem score_at8 : V8 m (outs m) c main_v63_1 = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show Function.update (Function.update (V7 m (outs m) c) main_v63_0 (outs m 8 main_v63_0 c)) main_v63_1 (outs m 8 main_v63_1 c) main_v63_1 = _
  rw [Function.update_self, outs_score]
  exact HeadValue.score_array (entry2 m) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (aggregation2_at7 m c) (bias2_at7 m c) (hidden_at7 m c)
    (launch_at7 m c main_arg6 (by decide) (by decide) (by decide) (by decide) (by decide) (by decide) (by decide)) (residual_bias_at7 m c)
    (launch_at7 m c main_arg8 (by decide) (by decide) (by decide) (by decide) (by decide) (by decide) (by decide)) (head_bias_at7 m c)
    (launch_at7 m c main_arg10 (by decide) (by decide) (by decide) (by decide) (by decide) (by decide) (by decide)) (score_bias_at7 m c)

end Cert.KernelIdeal.Bridge

end
-- ==== Proof.lean ====
/-
  The certificate of a two-layer graph convolution with a residual projection and a two-layer head.

  Both programs compute, from the node embeddings X, the edge list and the weights: the edge list with two self loops
  per node, the symmetric normalisation n(e) = d(src e)^(-1/2) · d(dst e)^(-1/2) from the in-degrees d, then
    H1 = X · W1,   A1(v) = Σ_{e : dst e = v} n(e) · H1(src e),   X1 = max(A1 + b1, 0),
    H2 = X1 · W2,  A2(v) = Σ_{e : dst e = v} n(e) · H2(src e),   X2 = max(A2 + b2, 0),
    features = X2 + X1 · Wres + bres,   score = max(features · Wfc1 + bfc1, 0) · Wfc2 + bfc2.
  The kernel program makes the three dense stages (H1; X1 and H2; features and score) in three grid regions of 25 points,
  each point a block of 2000 node rows, every matrix product into a zero accumulator; the degree, the normalisation and
  the two aggregations are the same host operations in both programs. At the extended reals a change of float format is
  the identity, a product into a zero accumulator is the plain sum over the contracted axis, and each block of a result
  is the restriction of one whole-array function of the region's inputs, so each region leaves the reference's stage.
  The one regrouping is in the features: the kernel adds X2 + (X1 · Wres + bres) where the reference adds
  (X2 + X1 · Wres) + bres — associativity of addition of extended reals, which needs no finiteness; the precondition
  is never opened.

  The frames: @main is a thread of eight items (three host stretches, then region, stretch, region, stretch, region);
  between two items every unscoped buffer of the core is held whole at named contents, each region is run from the
  contents it is entered with, and no item writes an argument array. The reference has no kernel: its frame is its run
  with the results dropped. The ideal pass rewrote no operation, so there is nothing to preserve.
-/
import proofs.«151933_j70214125355147_1_alg».proof.Defs
import proofs.«151933_j70214125355147_1_alg».proof.Proof.Gen.Kernel
import proofs.«151933_j70214125355147_1_alg».proof.Proof.Gen.KernelIdeal
import proofs.«151933_j70214125355147_1_alg».proof.Proof.Gen.ReferenceIdeal
import proofs.«151933_j70214125355147_1_alg».proof.Proof.Gen.Pre_finite_inputs
import proofs.«151933_j70214125355147_1_alg».proof.Proof.RefRead
import proofs.«151933_j70214125355147_1_alg».proof.Proof.Kernel.Threads
import proofs.«151933_j70214125355147_1_alg».proof.Proof.KernelIdeal.Bridge
import Idealize.ShloMosaic.Adequacy
import Idealize.ShloMosaic.Init

set_option maxRecDepth 16384

noncomputable section

namespace Cert.Proof

open Idealize.ShloMosaic Idealize.ShloMosaic.TcCoe Idealize.SL.Sem

/-! ## The three frames -/

theorem frame_kernel : Cert.frame_Kernel := fun m ρ _ => Cert.Kernel.Threads.frame (F := Bits) m ρ

theorem frame_kernel_ideal : Cert.frame_KernelIdeal := fun m ρ _ => Cert.KernelIdeal.Threads.frame (F := Ideal) m ρ

/-- The reference's run names its two results and keeps its arguments; the frame is the second half. -/
theorem frame_reference : Cert.frame_ReferenceIdeal := fun m ρ _ =>
  (θ_run Cert.ReferenceIdeal.defs _ _).mono (fun _ h c => (h c).2.2) (Cert.ReferenceIdeal.ValueP.run (F := Ideal) m ρ)

/-! ## The idealized kernel's run, its two results named -/

section KernelRun

open Cert.KernelIdeal Cert.KernelIdeal.Gen Cert.KernelIdeal.Threads

/-- Every weakly fair execution of the idealized kernel program ends with its two result arrays at the last contents
    of the thread of buffer contents, and with every argument array as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v63_0) = V8 m (outs m) c main_v63_0
      ∧ r.2.mem ((c.tc : Thread nD τ).loc main_v63_1) = V8 m (outs m) c main_v63_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      h c (Proc.devRef .tc main_v63_0) (Finset.mem_filter.mpr ⟨StableHlo.devRef_mem_tcRefs main_v63_0, by decide⟩),
      h c (Proc.devRef .tc main_v63_1) (Finset.mem_filter.mpr ⟨StableHlo.devRef_mem_tcRefs main_v63_1, by decide⟩),
      (h c (Proc.devRef .tc main_arg0) (Finset.mem_filter.mpr ⟨StableHlo.devRef_mem_tcRefs main_arg0, by decide⟩)).trans (V8_main_arg0 m (outs m) c),
      (h c (Proc.devRef .tc main_arg1) (Finset.mem_filter.mpr ⟨StableHlo.devRef_mem_tcRefs main_arg1, by decide⟩)).trans (V8_main_arg1 m (outs m) c),
      (h c (Proc.devRef .tc main_arg2) (Finset.mem_filter.mpr ⟨StableHlo.devRef_mem_tcRefs main_arg2, by decide⟩)).trans (V8_main_arg2 m (outs m) c),
      (h c (Proc.devRef .tc main_arg3) (Finset.mem_filter.mpr ⟨StableHlo.devRef_mem_tcRefs main_arg3, by decide⟩)).trans (V8_main_arg3 m (outs m) c),
      (h c (Proc.devRef .tc main_arg4) (Finset.mem_filter.mpr ⟨StableHlo.devRef_mem_tcRefs main_arg4, by decide⟩)).trans (V8_main_arg4 m (outs m) c),
      (h c (Proc.devRef .tc main_arg5) (Finset.mem_filter.mpr ⟨StableHlo.devRef_mem_tcRefs main_arg5, by decide⟩)).trans (V8_main_arg5 m (outs m) c),
      (h c (Proc.devRef .tc main_arg6) (Finset.mem_filter.mpr ⟨StableHlo.devRef_mem_tcRefs main_arg6, by decide⟩)).trans (V8_main_arg6 m (outs m) c),
      (h c (Proc.devRef .tc main_arg7) (Finset.mem_filter.mpr ⟨StableHlo.devRef_mem_tcRefs main_arg7, by decide⟩)).trans (V8_main_arg7 m (outs m) c),
      (h c (Proc.devRef .tc main_arg8) (Finset.mem_filter.mpr ⟨StableHlo.devRef_mem_tcRefs main_arg8, by decide⟩)).trans (V8_main_arg8 m (outs m) c),
      (h c (Proc.devRef .tc main_arg9) (Finset.mem_filter.mpr ⟨StableHlo.devRef_mem_tcRefs main_arg9, by decide⟩)).trans (V8_main_arg9 m (outs m) c),
      (h c (Proc.devRef .tc main_arg10) (Finset.mem_filter.mpr ⟨StableHlo.devRef_mem_tcRefs main_arg10, by decide⟩)).trans (V8_main_arg10 m (outs m) c),
      (h c (Proc.devRef .tc main_arg11) (Finset.mem_filter.mpr ⟨StableHlo.devRef_mem_tcRefs main_arg11, by decide⟩)).trans (V8_main_arg11 m (outs m) c)⟩)
    (run_all (F := Ideal) m ρ)

end KernelRun

/-! ## Equal results -/

/-- From memories agreeing on the arguments both programs end with the same two arrays: the kernel's last contents at
    its result buffers are the reference's two last stages of the launch arguments. -/
theorem algebraic : Cert.algebraic_KernelIdeal_ReferenceIdeal := by
  intro m ρ m' ρ' _ hagree
  refine ⟨fun c => Cert.KernelIdeal.Gen.V8 m (Cert.KernelIdeal.Threads.outs m) c Cert.KernelIdeal.main_v63_0,
    fun c => Cert.KernelIdeal.Gen.V8 m (Cert.KernelIdeal.Threads.outs m) c Cert.KernelIdeal.main_v63_1, kernel_run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨a0, a1, a2, a3, a4, a5, a6, a7, -, -, -, -⟩ := hagree c
    rw [Cert.ReferenceIdeal.ReadP.val_main_v70_eq, a0, a1, a2, a3, a4, a5, a6, a7]
    exact (Cert.KernelIdeal.Bridge.features_at8 m c).symm
  · obtain ⟨a0, a1, a2, a3, a4, a5, a6, a7, a8, a9, a10, a11⟩ := hagree c
    rw [Cert.ReferenceIdeal.ReadP.val_main_v79_eq, a0, a1, a2, a3, a4, a5, a6, a7, a8, a9, a10, a11]
    exact (Cert.KernelIdeal.Bridge.score_at8 m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
